-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S16384x1024 : Shape := ⟨2, ![16384, 1024]⟩
abbrev S1024x3072 : Shape := ⟨2, ![1024, 3072]⟩
abbrev S3072 : Shape := ⟨1, ![3072]⟩
abbrev S512x1024 : Shape := ⟨2, ![512, 1024]⟩
abbrev S512x3072 : Shape := ⟨2, ![512, 3072]⟩
abbrev S1x3072 : Shape := ⟨2, ![1, 3072]⟩
abbrev S4x1024x1024 : Shape := ⟨3, ![4, 1024, 1024]⟩
abbrev S1x1024x1024 : Shape := ⟨3, ![1, 1024, 1024]⟩
abbrev S1x1024 : Shape := ⟨2, ![1, 1024]⟩

abbrev nBuf : Space → Nat
  | .hbm => 26
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S16384x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S1024x1024, .f32⟩
  | .hbm, ⟨17, _⟩ => ⟨S1024x1024, .bf16⟩
  | .hbm, ⟨18, _⟩ => ⟨S16384x1024, .bf16⟩
  | .hbm, ⟨19, _⟩ => ⟨S16384x1024, .bf16⟩
  | .hbm, ⟨20, _⟩ => ⟨S16384x1024, .bf16⟩
  | .hbm, ⟨21, _⟩ => ⟨S4x4096x1024, .bf16⟩
  | .hbm, ⟨22, _⟩ => ⟨S4x4096x1024, .bf16⟩
  | .hbm, ⟨23, _⟩ => ⟨S4x4096x1024, .bf16⟩
  | .hbm, ⟨24, _⟩ => ⟨S4x1024x1024, .bf16⟩
  | .hbm, ⟨25, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1024x1024, .f32⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1024, .f32⟩
  | .local _ .vmem, ⟨23, _⟩ => ⟨S1x1024x1024, .f32⟩
  | .local _ .vmem, ⟨24, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x4096x1024_S16384x1024 : S4x4096x1024.ShapeCasts S16384x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S16384x1024_S4x4096x1024 : S16384x1024.ShapeCasts S4x4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S512x1024_S1024x3072_S512x3072_1_0_0_1_n_n_wf : DotDims.WF S512x1024 S1024x3072 S512x3072 [1] [0] [0] [1] [] []
  dot_S1024x1024_S1024x1024_S1024x1024_0_0_1_1_n_n_wf : DotDims.WF S1024x1024 S1024x1024 S1024x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .bf16 = 32 ∨ (Rect.block (s := S16384x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x4096x1024.size a
  hwx1_1 : ∀ i : grid1.Coords, EltTy.bits .bf16 = 32 ∨ (Rect.block (s := S4x4096x1024) S1x1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x1024x1024.size a
  hwx1_3 : ∀ i : grid1.Coords, EltTy.bits .bf16 = 32 ∨ (Rect.block (s := S4x1024x1024) S1x1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S4x4096x1024.size a
  hwx2_0 : ∀ i : grid2.Coords, EltTy.bits .bf16 = 32 ∨ (Rect.block (s := S4x4096x1024) S1x1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S4x1024x1024.size a
  hwx2_1 : ∀ i : grid2.Coords, EltTy.bits .bf16 = 32 ∨ (Rect.block (s := S4x1024x1024) S1x1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S4x4096x1024.size a
  hwx2_3 : ∀ i : grid2.Coords, EltTy.bits .f32 = 32 ∨ (Rect.block (s := S4x4096x1024) S1x1024x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v10) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S4x4096x4096 : Shape := ⟨3, ![4, 4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x4096x1024, .f32⟩
  | .hbm, ⟨10, _⟩ => ⟨S1x1x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S1x1x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x4096, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.K.Reg0.lean ====
/-
  The first pallas_call (the fused Q/K/V projection) as a pipeline region, at any float values.

  Each of its 32 grid points takes a tile of 512 rows of the flattened input, the whole fused weight matrix and the
  whole fused bias, and stores three tiles of 512 rows: the Q, K and V bands of the tile's projection. Nothing is
  carried from one point to the next. Stated here, at a PARAMETER `V` (the buffers' contents when the region is
  entered): the block of each window at a point, what the body leaves in each output tile as a function of the three
  input blocks, the proof data of the pipeline, and the body's obligation at every point.
-/
import proofs.«176229_j4294967296116_1_alg».proof.Proof.Gen.Kernel.Launch
import proofs.«176229_j4294967296116_1_alg».proof.Proof.Gen.Kernel.Skeleton
import proofs.«176229_j4294967296116_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a row tile, of the fused weights, of the fused bias: the rectangles the body loads and stores. -/
abbrev rTile0 : Rect S512x1024 := Rect.unit (s := S512x1024) ![0, 0] S512x1024.size inb_S512x1024_S512x1024_0_0
abbrev rW0 : Rect S1024x3072 := Rect.unit (s := S1024x3072) ![0, 0] S1024x3072.size inb_S1024x3072_S1024x3072_0_0
abbrev rB0 : Rect S3072 := Rect.unit (s := S3072) ![0] S3072.size inb_S3072_S3072_0

/-- What the body leaves in the Q tile's buffer, from the three input blocks: its one whole-tile store. -/
def qOut0 (x : Vec F S512x1024 .f32) (w : Vec F S1024x3072 .bf16) (b : Vec F S3072 .f32) : Vec F S512x1024 .bf16 :=
  View.canon [⟨rTile0, k0_pay2 (View.ld x rTile0) (View.ld w rW0) (View.ld b rB0)⟩]
/-- The K tile's. -/
def kOut0 (x : Vec F S512x1024 .f32) (w : Vec F S1024x3072 .bf16) (b : Vec F S3072 .f32) : Vec F S512x1024 .bf16 :=
  View.canon [⟨rTile0, k0_pay3 (View.ld x rTile0) (View.ld w rW0) (View.ld b rB0)⟩]
/-- The V tile's. -/
def vOut0 (x : Vec F S512x1024 .f32) (w : Vec F S1024x3072 .bf16) (b : Vec F S3072 .f32) : Vec F S512x1024 .bf16 :=
  View.canon [⟨rTile0, k0_pay4 (View.ld x rTile0) (View.ld w rW0) (View.ld b rB0)⟩]

/-- The pipeline's proof data on core `c`: the arrays as the region finds them; after the body at point `t` each input
    buffer at its block and the three output buffers at the Q, K, V tiles of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => qOut0 (blk0 V c 0 t) (blk0 V c 1 t) (blk0 V c 2 t)
    | ⟨4, _⟩ => kOut0 (blk0 V c 0 t) (blk0 V c 1 t) (blk0 V c 2 t)
    | ⟨5, _⟩ => vOut0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) :
    (dat0 V c).after 3 t = qOut0 (blk0 V c 0 t) (blk0 V c 1 t) (blk0 V c 2 t) := by dsimp only [dat0]
theorem dat0_after_4 (c : Dev nD) (t : Fin cfg0.N) :
    (dat0 V c).after 4 t = kOut0 (blk0 V c 0 t) (blk0 V c 1 t) (blk0 V c 2 t) := by dsimp only [dat0]
theorem dat0_after_5 (c : Dev nD) (t : Fin cfg0.N) :
    (dat0 V c).after 5 t = vOut0 (blk0 V c 0 t) (blk0 V c 1 t) (blk0 V c 2 t) := by dsimp only [dat0]

/-! ## What the body finds in its three input buffers

No input window of this call is cut at its array's edge, none is ever idle, and the body only reads them. So at every
point an input's current buffer holds the window's block of the array as the region found it. Where the pipeline fetched
the block at that point this is what the fetch wrote; where it did not — the weights and the bias are fetched once, at
the first point — the block index has not moved since the point where it was fetched, and the body has left it alone. -/

/-- The row tile's buffer holds the point's 512 rows of the flattened input. -/
theorem tile_found (c : Dev nD) (t : Fin cfg0.N) (d) : (dat0 V c).before 0 t d = blk0 V c 0 t := by
  have kept : ∀ s, (cfg0.win 0).cut (cfg0.grid.coords s) ((dat0 V c).after 0 s) = (dat0 V c).blockOf 0 s := fun s => by
    rw [dat0_after_0]; unfold Dat.blockOf blk0; rw [dat0_A]; try rfl
  rw [(dat0 V c).before_in_eq_fetched 0 rfl (fun _ => rfl) (fun _ _ _ => rfl) kept t d]
  unfold Dat.fetched Dat.blockOf blk0; rw [dat0_A]; try rfl

/-- The weights' buffer holds the whole fused weight matrix, at the first point and at every later one. -/
theorem weights_found (c : Dev nD) (t : Fin cfg0.N) (d) : (dat0 V c).before 1 t d = blk0 V c 1 t := by
  have kept : ∀ s, (cfg0.win 1).cut (cfg0.grid.coords s) ((dat0 V c).after 1 s) = (dat0 V c).blockOf 1 s := fun s => by
    rw [dat0_after_1]; unfold Dat.blockOf blk0; rw [dat0_A]; try rfl
  rw [(dat0 V c).before_in_eq_fetched 1 rfl (fun _ => rfl) (fun _ _ _ => rfl) kept t d]
  unfold Dat.fetched Dat.blockOf blk0; rw [dat0_A]; try rfl

/-- The bias's buffer holds the whole fused bias, likewise. -/
theorem bias_found (c : Dev nD) (t : Fin cfg0.N) (d) : (dat0 V c).before 2 t d = blk0 V c 2 t := by
  have kept : ∀ s, (cfg0.win 2).cut (cfg0.grid.coords s) ((dat0 V c).after 2 s) = (dat0 V c).blockOf 2 s := fun s => by
    rw [dat0_after_2]; unfold Dat.blockOf blk0; rw [dat0_A]; try rfl
  rw [(dat0 V c).before_in_eq_fetched 2 rfl (fun _ => rfl) (fun _ _ _ => rfl) kept t d]
  unfold Dat.fetched Dat.blockOf blk0; rw [dat0_A]; try rfl

/-! ## One store through the whole-tile rectangle fills the tile -/

/-- The rectangle `rTile0` starts at the origin and has the tile's own extents, so the single piece written through it
    reaches every index of a 512 x 1024 tile: nothing of the buffer's earlier contents survives the store. -/
theorem tile_filled (p : Vec F S512x1024 .bf16) (y : S512x1024.Idx) :
    ∃ pc ∈ ([⟨rTile0, p⟩] : List (View.Piece (Elt F) S512x1024 .bf16)), y ∈ pc.1.set :=
  View.cover_of_tiled [⟨rTile0, p⟩] S512x1024.size (by rfl) y

/-! ## The projection kernel on six whole buffers -/

set_option maxHeartbeats 1000000 in
/-- Run on any six whole buffers — the row tile reading `x`, the weights `w`, the bias `b`, the three result tiles
    at whatever they held — the kernel reads the three inputs once, writes each result tile once through the whole-tile
    rectangle, and returns. The inputs are as they were; each result tile reads the band of the projection its store put
    there (`qOut0`, `kOut0`, `vOut0` of `x`, `w`, `b`): the load the kernel makes of a result buffer before storing
    to it reads contents the store then overwrites wholly, so nothing depends on it. The grid coordinate is not used. -/
theorem qkv_kernel_run (c : Dev nD) (E : Set ℕ) (i : grid0.Coords)
    (mx : Memref sig .tc .vmem S512x1024 .f32) (hmx : mx.IsWhole) (mw : Memref sig .tc .vmem S1024x3072 .bf16) (hmw : mw.IsWhole)
    (mb : Memref sig .tc .vmem S3072 .f32) (hmb : mb.IsWhole) (mq : Memref sig .tc .vmem S512x1024 .bf16) (hmq : mq.IsWhole)
    (mk : Memref sig .tc .vmem S512x1024 .bf16) (hmk : mk.IsWhole) (mv : Memref sig .tc .vmem S512x1024 .bf16) (hmv : mv.IsWhole)
    (x : Vec F S512x1024 .f32) (w : Vec F S1024x3072 .bf16) (b : Vec F S3072 .f32) (K : PUnit → sProp 𝕄) :
    iprop(owns (c : Thread nD τ) mx fullShare x ∗ owns (c : Thread nD τ) mw fullShare w ∗ owns (c : Thread nD τ) mb fullShare b
        ∗ (∃ d, owns (c : Thread nD τ) mq fullShare d) ∗ (∃ d, owns (c : Thread nD τ) mk fullShare d)
        ∗ (∃ d, owns (c : Thread nD τ) mv fullShare d)
        ∗ (iprop(owns (c : Thread nD τ) mx fullShare x ∗ owns (c : Thread nD τ) mw fullShare w ∗ owns (c : Thread nD τ) mb fullShare b
            ∗ owns (c : Thread nD τ) mq fullShare (qOut0 x w b) ∗ owns (c : Thread nD τ) mk fullShare (kOut0 x w b)
            ∗ owns (c : Thread nD τ) mv fullShare (vOut0 x w b)) -∗ K ⟨⟩))
      ⊢ wp frame (wpE (defs₀ (F := F)) Variants.none c none) E (cc0__qkv_kernel i mx hmx mw hmw mb hmb mq hmq mk hmk mv hmv) K := by
  simp only [cc0__qkv_kernel_eq_skeleton]; unfold cc0__qkv_kernel_skel
  unfold owns
  iintro ⟨⟨%fx, %hfx, Hx⟩, ⟨%fw, %hfw, Hw⟩, ⟨%fb, %hfb, Hb⟩, ⟨%dq, %fq, -, Hq⟩, ⟨%dk, %fk, -, Hk⟩, ⟨%dv, %fv, -, Hv⟩, Hret⟩
  subst hfx; subst hfw; subst hfb
  sl_exec
  sl_step
  iapply Hret
  -- the three inputs, untouched
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  -- the three result tiles, each at what its one store wrote
  isplitl [Hq]
  · iexists _; isplitr
    swap; · iexact Hq
    ipureintro
    exact View.read_writes_eq_canon _ _ _ (tile_filled _)
  isplitl [Hk]
  · iexists _; isplitr
    swap; · iexact Hk
    ipureintro
    exact View.read_writes_eq_canon _ _ _ (tile_filled _)
  iexists _; isplitr
  swap; · iexact Hv
  ipureintro
  exact View.read_writes_eq_canon _ _ _ (tile_filled _)

/-! ## The obligation at one point, its six windows written out -/

/-- What the body is handed at point `t`: the invariant, what the core owes, and each window's current buffer at what
    it then holds — row tile, weights, bias, then the Q, K and V tiles. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back: the invariant and the debt at the next point, and each of the same buffers at what the proof
    data says the body leaves there. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point of the grid. The three input buffers hold the point's blocks (`tile_found`, `weights_found`,
    `bias_found`), so the kernel's run applies with `x`, `w`, `b` those blocks, and what it leaves in the result tiles is
    by definition what the proof data names. The invariant and the debt do not depend on the point and the body touches
    neither: they pass from one side to the other as they are. -/
theorem point_run0 (c : Dev nD) (t : Fin cfg0.N) :
    handed0 V c t ⊢ wp frame (wpE (defs₀ (F := F)) Variants.none c none) Set.univ (bodyAt0 t) (fun _ => returned0 V c t) := by
  unfold handed0 returned0 bodyAt0
  simp only [tile_found, weights_found, bias_found]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4, dat0_after_5]
  iintro ⟨Hinv, Hdebt, ⟨%d0, Hx⟩, ⟨%d1, Hw⟩, ⟨%d2, Hb⟩, ⟨%d3, Hq⟩, ⟨%d4, Hk⟩, ⟨%d5, Hv⟩⟩
  iapply (qkv_kernel_run c Set.univ _ _ _ _ _ _ _ _ _ _ _ _ _ (blk0 V c 0 t) (blk0 V c 1 t) (blk0 V c 2 t) _)
  isplitl [Hx]; · iexact Hx
  isplitl [Hw]; · iexact Hw
  isplitl [Hb]; · iexact Hb
  isplitl [Hq]; · iexists _; iexact Hq
  isplitl [Hk]; · iexists _; iexact Hk
  isplitl [Hv]; · iexists _; iexact Hv
  iintro ⟨Hx, Hw, Hb, Hq, Hk, Hv⟩
  isplitl [Hinv]; · iexact Hinv
  isplitl [Hdebt]; · iexact Hdebt
  isplitl [Hx]; · iexact Hx
  isplitl [Hw]; · iexact Hw
  isplitl [Hb]; · iexact Hb
  isplitl [Hq]; · iexact Hq
  isplitl [Hk]; · iexact Hk
  iexact Hv

/-- The body's obligation at every point of the grid. -/
theorem body0 (c : Dev nD) : BodyObligation (dat0 (F := F) V c) (defs₀ (F := F)) Variants.none () Set.univ := fun t => by
  rw [bigSep_W0, bigSep_W0]
  exact point_run0 V c t

end Cert.Kernel.Fr

end
-- ==== Proof.K.Reg1.lean ====
/-
  The second pallas_call (M = (Kᵀ·V)·Woᵀ per batch) as a pipeline region, at any float values.

  Its 16 grid points are 4 batches × 4 row tiles. At a point the body adds the product Kᵀ·V of one tile of 1024 rows of
  K and V to an accumulator it keeps in a scratch buffer of its own ACROSS points: at the first tile of a batch it first
  resets the accumulator to zero, at the last tile it multiplies the finished sum by Woᵀ and stores the batch's matrix M;
  at the other points it stores nothing into the output window. So the region's invariant names what the scratch holds
  after each point (`accAt`), beside the core's other scoped buffers and its generator register, which the body never
  touches. Stated here, at a PARAMETER `V` (the buffers' contents when the region is entered): the blocks, the
  accumulator point by point, the invariant, the proof data, the body's obligation, and that the invariant starts from
  and returns to the plain "every scoped buffer at some contents".
-/
import proofs.«176229_j4294967296116_1_alg».proof.Proof.Gen.Kernel.Launch
import proofs.«176229_j4294967296116_1_alg».proof.Proof.Gen.Kernel.Skeleton
import proofs.«176229_j4294967296116_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer the body accumulates Kᵀ·V in, as the pipeline passes it to the body. -/
abbrev accMem : Memref sig .tc .vmem S1024x1024 .f32 := Memref.whole cc1_scratch0

/-- THE ACCUMULATION. What the scratch holds after the body at position `n`: at the first tile of a batch (`n % 4 = 0`)
    one Kᵀ·V step from the zero matrix, elsewhere one step from what the point before left. -/
def accAt (c : Dev nD) : (n : ℕ) → n < cfg1.N → Vec F S1024x1024 .f32
  | 0, hn => k1_pay2 (blk1 V c 0 ⟨0, hn⟩) (blk1 V c 1 ⟨0, hn⟩) (k1_pay1 (F := F))
  | n + 1, hn =>
    if (n + 1) % 4 = 0 then k1_pay2 (blk1 V c 0 ⟨n + 1, hn⟩) (blk1 V c 1 ⟨n + 1, hn⟩) (k1_pay1 (F := F))
    else k1_pay2 (blk1 V c 0 ⟨n + 1, hn⟩) (blk1 V c 1 ⟨n + 1, hn⟩) (accAt c n (Nat.lt_of_succ_lt hn))

/-- At the first tile of a batch the accumulator restarts from zero. -/
theorem accAt_reset (c : Dev nD) (t : Fin cfg1.N) (h : t.val % 4 = 0) :
    accAt V c t.val t.isLt = k1_pay2 (blk1 V c 0 t) (blk1 V c 1 t) (k1_pay1 (F := F)) := by
  obtain ⟨n, hn⟩ := t
  cases n with
  | zero => rfl
  | succ n => exact (if_pos h).trans rfl

/-- At any other tile it continues from what the point before left. -/
theorem accAt_step (c : Dev nD) (t : Fin cfg1.N) (h : t.val % 4 ≠ 0) :
    accAt V c t.val t.isLt
      = k1_pay2 (blk1 V c 0 t) (blk1 V c 1 t) (accAt V c (t.val - 1) (Nat.lt_of_le_of_lt (Nat.sub_le _ _) t.isLt)) := by
  obtain ⟨n, hn⟩ := t
  cases n with
  | zero => exact absurd (Nat.zero_mod 4) h
  | succ n => exact (if_neg h).trans rfl

/-- The region's invariant before position `n`: before the first point every scoped buffer that is no staging buffer
    of this call at some contents and the generator register at some state; afterwards the same with the accumulator's
    scratch buffer at what the point before left in it. -/
def Phi1 (c : Dev nD) : (n : ℕ) → n ≤ cfg1.N → sProp 𝕄
  | 0, _ => Pipeline.ΦA spec1 c
  | n + 1, hn => iprop((owns (c : Thread nD τ) accMem fullShare (accAt V c n hn)
      ∗ Pipeline.scopedRestBut (Ix := Unit) (Name := ℕ) (U := UR sig nD τ) (Lvl := ℕ) (Val := Elt F) spec1 c [cc1_scratch0])
      ∗ ∃ r, prngReg c r)

/-- The plain invariant with this call's scratch taken out of the scoped rest and owned, whole, at some contents:
    the form in which the body is handed the accumulator and takes it back. -/
theorem PhiA1_eq (c : Dev nD) :
    (Pipeline.ΦA spec1 c : sProp 𝕄)
      = iprop(((∃ d, owns (c : Thread nD τ) accMem fullShare d)
          ∗ Pipeline.scopedRestBut (Ix := Unit) (Name := ℕ) (U := UR sig nD τ) (Lvl := ℕ) (Val := Elt F) spec1 c [cc1_scratch0])
          ∗ ∃ r, prngReg c r) := by
  unfold Pipeline.ΦA
  rw [Pipeline.scopedRest_split_of_list spec1 c [cc1_scratch0] (by decide) (by decide)]
  simp only [bigSepL_singleton, accMem, owns_whole]
  rfl

/-- Before any position but the first the invariant has the scratch at what the point before left. -/
theorem Phi1_pos (c : Dev nD) (n : ℕ) (h : n ≤ cfg1.N) (hz : n ≠ 0) :
    Phi1 V c n h = iprop((owns (c : Thread nD τ) accMem fullShare (accAt V c (n - 1) (by omega))
      ∗ Pipeline.scopedRestBut (Ix := Unit) (Name := ℕ) (U := UR sig nD τ) (Lvl := ℕ) (Val := Elt F) spec1 c [cc1_scratch0])
      ∗ ∃ r, prngReg c r) := by
  cases n with
  | zero => exact absurd rfl hz
  | succ n => rfl

/-- The pipeline's proof data on core `c`: the arrays as the region finds them; after the body at point `t` each input
    buffer at its block and the output buffer at the closing product of the accumulator with the Woᵀ block (consulted
    only at the last tile of a batch, where the body stores it and the pipeline writes it back); the invariant `Phi1`;
    nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay3 (accAt V c t.val t.isLt) (blk1 V c 2 t)
  Φ t := Phi1 V c t.val (Nat.le_of_lt_succ t.isLt)
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) :
    (dat1 V c).after 3 t = k1_pay3 (accAt V c t.val t.isLt) (blk1 V c 2 t) := by dsimp only [dat1]

/-! ## The body's two conditions and the output window's idle table, over the grid -/

/-- "This is the first tile of its batch", as the body tests it on the tile coordinate. -/
abbrev firstTile (i : grid1.Coords) : Prop :=
  (Scalar.cmpi .ne (Scalar.extui (Scalar.cmpi .eq (BitVec.ofNat 32 (i 1).val) 0#32)) 0#32) = 1#1

/-- "This is the last tile of its batch". -/
abbrev lastTile (i : grid1.Coords) : Prop := k1_cond2 i = 1#1

/-- The points run through the tiles of a batch fastest: the first tile is met at the positions ≡ 0 (mod 4), -/
theorem firstTile_iff : ∀ t : Fin cfg1.N, firstTile (grid1.coords t) ↔ t.val % 4 = 0 :=
  (by decide +kernel : ∀ t : Fin grid1.N, firstTile (grid1.coords t) ↔ t.val % 4 = 0)

/-- the last at the positions ≡ 3 (mod 4). -/
theorem lastTile_iff : ∀ t : Fin cfg1.N, lastTile (grid1.coords t) ↔ t.val % 4 = 3 :=
  (by decide +kernel : ∀ t : Fin grid1.N, lastTile (grid1.coords t) ↔ t.val % 4 = 3)

/-- The output window is idle at every tile but the last, -/
theorem out_idle : ∀ t : Fin cfg1.N, t.val % 4 ≠ 3 → cfg1.idle 3 (grid1.coords t) = true :=
  (by decide +kernel : ∀ t : Fin grid1.N, t.val % 4 ≠ 3 → idle1 3 (grid1.coords t) = true)

/-- live at the last, -/
theorem out_live : ∀ t : Fin cfg1.N, t.val % 4 = 3 → cfg1.idle 3 (grid1.coords t) = false :=
  (by decide +kernel : ∀ t : Fin grid1.N, t.val % 4 = 3 → idle1 3 (grid1.coords t) = false)

/-- and its block is not written back before the last tile. -/
theorem out_kept (t : Fin cfg1.N) (h : t.val % 4 ≠ 3) : (cfg1.win 3).flush t = false := by
  cases hf : (cfg1.win 3).flush t
  · rfl
  · exact absurd ((flush1_3 t).mp hf) h

/-! ## The body on whole buffers, tile by tile -/

/-- The zero offsets of the whole-buffer rectangles the body loads and stores through, of rank two -/
theorem zeroOff2 : (![0, 0] : Fin 2 → ℕ) = fun _ => 0 := funext fun a => by fin_cases a <;> rfl
/-- and of rank three. -/
theorem zeroOff3 : (![0, 0, 0] : Fin 3 → ℕ) = fun _ => 0 := funext fun a => by fin_cases a <;> rfl

/-- A load through the rectangle that is the whole buffer reads the buffer's contents. -/
theorem readAt_whole {sp : Space} {S : Shape} {e : EltTy} (v : View sig .tc sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f := by
  rw [View.readAt_eq_ld, View.ld_unit_zero hz]

/-- After a store through the rectangle that is the whole buffer the buffer reads as the stored value, whatever it
    held and whatever was stored before. -/
theorem read_stored_whole {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨(⟨Rect.unit off S.size inb, w⟩ : View.Piece (Elt F) S e),
      List.mem_cons_self, View.mem_set_unit_zero hz inb y⟩), View.canon_cons_unit_zero hz]

/-- A MIDDLE tile (neither first nor last): one accumulation step. On whole buffers — K and V blocks `kb`, `vb`, the
    Woᵀ block and the output buffer at whatever they hold, the accumulator at `a` — the body runs to the same with
    the accumulator at `a + kbᵀ·vb`. -/
theorem run_middle (c : Dev nD) (i : grid1.Coords)
    (arg2 : Memref sig .tc .vmem S1x1024x1024 .bf16) (harg2 : arg2.IsWhole)
    (arg3 : Memref sig .tc .vmem S1x1024x1024 .bf16) (harg3 : arg3.IsWhole)
    (arg4 : Memref sig .tc .vmem S1024x1024 .bf16) (harg4 : arg4.IsWhole)
    (arg5 : Memref sig .tc .vmem S1x1024x1024 .bf16) (harg5 : arg5.IsWhole)
    (arg6 : Memref sig .tc .vmem S1024x1024 .f32) (harg6 : arg6.IsWhole)
    (hfirst : ¬firstTile i) (hlast : ¬lastTile i)
    (kb vb : Vec F S1x1024x1024 .bf16) (wo : Vec F S1024x1024 .bf16) (o : Vec F S1x1024x1024 .bf16)
    (a : Vec F S1024x1024 .f32) (E : Set ℕ) (K : PUnit → sProp 𝕄) :
    iprop(owns (c : Thread nD τ) arg2 fullShare kb ∗ owns (c : Thread nD τ) arg3 fullShare vb
        ∗ owns (c : Thread nD τ) arg4 fullShare wo ∗ owns (c : Thread nD τ) arg5 fullShare o
        ∗ owns (c : Thread nD τ) arg6 fullShare a
        ∗ (iprop(owns (c : Thread nD τ) arg2 fullShare kb ∗ owns (c : Thread nD τ) arg3 fullShare vb
            ∗ owns (c : Thread nD τ) arg4 fullShare wo ∗ owns (c : Thread nD τ) arg5 fullShare o
            ∗ owns (c : Thread nD τ) arg6 fullShare (k1_pay2 kb vb a)) -∗ K ⟨⟩))
      ⊢ wp frame (wpE (defs₀ (F := F)) Variants.none c none) E
          (cc1__kv_kernel i arg2 harg2 arg3 harg3 arg4 harg4 arg5 harg5 arg6 harg6) K := by
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_unfold [cc1__kv_kernel]
  sl_exec (disch := first | exact hfirst | exact hlast)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr; swap; · iexact H6
  ipureintro
  rw [read_stored_whole _ _ zeroOff2]
  simp only [readAt_whole (S := S1x1024x1024) _ _ zeroOff3, readAt_whole (S := S1024x1024) _ _ zeroOff2, hf2, hf3, hf6]

/-- The FIRST tile of a batch: the accumulator is reset, then takes one step. Whatever the accumulator held (`a₀`),
    the body leaves it at `0 + kbᵀ·vb`; the output buffer is not touched. -/
theorem run_first (c : Dev nD) (i : grid1.Coords)
    (arg2 : Memref sig .tc .vmem S1x1024x1024 .bf16) (harg2 : arg2.IsWhole)
    (arg3 : Memref sig .tc .vmem S1x1024x1024 .bf16) (harg3 : arg3.IsWhole)
    (arg4 : Memref sig .tc .vmem S1024x1024 .bf16) (harg4 : arg4.IsWhole)
    (arg5 : Memref sig .tc .vmem S1x1024x1024 .bf16) (harg5 : arg5.IsWhole)
    (arg6 : Memref sig .tc .vmem S1024x1024 .f32) (harg6 : arg6.IsWhole)
    (hfirst : firstTile i) (hlast : ¬lastTile i)
    (kb vb : Vec F S1x1024x1024 .bf16) (wo : Vec F S1024x1024 .bf16) (o : Vec F S1x1024x1024 .bf16)
    (a₀ : Vec F S1024x1024 .f32) (E : Set ℕ) (K : PUnit → sProp 𝕄) :
    iprop(owns (c : Thread nD τ) arg2 fullShare kb ∗ owns (c : Thread nD τ) arg3 fullShare vb
        ∗ owns (c : Thread nD τ) arg4 fullShare wo ∗ owns (c : Thread nD τ) arg5 fullShare o
        ∗ owns (c : Thread nD τ) arg6 fullShare a₀
        ∗ (iprop(owns (c : Thread nD τ) arg2 fullShare kb ∗ owns (c : Thread nD τ) arg3 fullShare vb
            ∗ owns (c : Thread nD τ) arg4 fullShare wo ∗ owns (c : Thread nD τ) arg5 fullShare o
            ∗ owns (c : Thread nD τ) arg6 fullShare (k1_pay2 kb vb (k1_pay1 (F := F)))) -∗ K ⟨⟩))
      ⊢ wp frame (wpE (defs₀ (F := F)) Variants.none c none) E
          (cc1__kv_kernel i arg2 harg2 arg3 harg3 arg4 harg4 arg5 harg5 arg6 harg6) K := by
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_unfold [cc1__kv_kernel]
  sl_exec (disch := first | exact hfirst | exact hlast)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr; swap; · iexact H6
  ipureintro
  sl_unfold_words
  rw [read_stored_whole _ _ zeroOff2]
  simp only [readAt_whole (S := S1x1024x1024) _ _ zeroOff3, hf2, hf3, View.readCov_unit_zero (S := S1024x1024) _ zeroOff2]

/-- The LAST tile of a batch: one accumulation step, then the finished sum times the Woᵀ block goes to the output
    buffer, whatever that held (`o₀`). -/
theorem run_last (c : Dev nD) (i : grid1.Coords)
    (arg2 : Memref sig .tc .vmem S1x1024x1024 .bf16) (harg2 : arg2.IsWhole)
    (arg3 : Memref sig .tc .vmem S1x1024x1024 .bf16) (harg3 : arg3.IsWhole)
    (arg4 : Memref sig .tc .vmem S1024x1024 .bf16) (harg4 : arg4.IsWhole)
    (arg5 : Memref sig .tc .vmem S1x1024x1024 .bf16) (harg5 : arg5.IsWhole)
    (arg6 : Memref sig .tc .vmem S1024x1024 .f32) (harg6 : arg6.IsWhole)
    (hfirst : ¬firstTile i) (hlast : lastTile i)
    (kb vb : Vec F S1x1024x1024 .bf16) (wo : Vec F S1024x1024 .bf16) (o₀ : Vec F S1x1024x1024 .bf16)
    (a : Vec F S1024x1024 .f32) (E : Set ℕ) (K : PUnit → sProp 𝕄) :
    iprop(owns (c : Thread nD τ) arg2 fullShare kb ∗ owns (c : Thread nD τ) arg3 fullShare vb
        ∗ owns (c : Thread nD τ) arg4 fullShare wo ∗ owns (c : Thread nD τ) arg5 fullShare o₀
        ∗ owns (c : Thread nD τ) arg6 fullShare a
        ∗ (iprop(owns (c : Thread nD τ) arg2 fullShare kb ∗ owns (c : Thread nD τ) arg3 fullShare vb
            ∗ owns (c : Thread nD τ) arg4 fullShare wo
            ∗ owns (c : Thread nD τ) arg5 fullShare (k1_pay3 (k1_pay2 kb vb a) wo)
            ∗ owns (c : Thread nD τ) arg6 fullShare (k1_pay2 kb vb a)) -∗ K ⟨⟩))
      ⊢ wp frame (wpE (defs₀ (F := F)) Variants.none c none) E
          (cc1__kv_kernel i arg2 harg2 arg3 harg3 arg4 harg4 arg5 harg5 arg6 harg6) K := by
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_unfold [cc1__kv_kernel]
  sl_exec (disch := first | exact hfirst | exact hlast)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  have hacc : View.read (Elt F) arg6.view (arg6.view.writes (Elt F) (harg6.unread a)
      (run_last.sl.H6_1 c arg2 harg2 arg3 harg3 arg6 harg6 kb vb a)) = k1_pay2 kb vb a := by
    sl_unfold_words
    rw [read_stored_whole _ _ zeroOff2]
    simp only [readAt_whole (S := S1x1024x1024) _ _ zeroOff3, readAt_whole (S := S1024x1024) _ _ zeroOff2, hf2, hf3, hf6]
  isplitl [H5]
  · iexists _; isplitr; swap; · iexact H5
    ipureintro
    rw [read_stored_whole _ _ zeroOff3]
    sl_unfold_words
    simp only [View.readCov_unit_zero (S := S1024x1024) _ zeroOff2, readAt_whole (S := S1x1024x1024) _ _ zeroOff3,
      readAt_whole (S := S1024x1024) _ _ zeroOff2, hf2, hf3, hf4, hf6]
  iexists _; isplitr; swap; · iexact H6
  ipureintro
  exact hacc

/-! ## The windows' buffers at a point -/

/-- An input window's current buffer holds the window's block at every point, fetched there or not: the body leaves
    the block in place, the window is never idle, and where the pipeline does not fetch, the block has not moved.
    The K blocks, -/
theorem before1_0 (c : Dev nD) (t : Fin cfg1.N) (d) : (dat1 V c).before 0 t d = blk1 V c 0 t :=
  ((dat1 V c).before_in_eq_fetched 0 rfl (fun _ => rfl) (fun _ _ _ => rfl)
      (fun t => by rw [dat1_after_0]; unfold Dat.blockOf blk1; rw [dat1_A]) t d).trans
    (by unfold Dat.fetched Dat.blockOf blk1; rw [dat1_A]; rfl)

/-- the V blocks, -/
theorem before1_1 (c : Dev nD) (t : Fin cfg1.N) (d) : (dat1 V c).before 1 t d = blk1 V c 1 t :=
  ((dat1 V c).before_in_eq_fetched 1 rfl (fun _ => rfl) (fun _ _ _ => rfl)
      (fun t => by rw [dat1_after_1]; unfold Dat.blockOf blk1; rw [dat1_A]) t d).trans
    (by unfold Dat.fetched Dat.blockOf blk1; rw [dat1_A]; rfl)

/-- and Woᵀ, one block fetched once. -/
theorem before1_2 (c : Dev nD) (t : Fin cfg1.N) (d) : (dat1 V c).before 2 t d = blk1 V c 2 t :=
  ((dat1 V c).before_in_eq_fetched 2 rfl (fun _ => rfl) (fun _ _ _ => rfl)
      (fun t => by rw [dat1_after_2]; unfold Dat.blockOf blk1; rw [dat1_A]) t d).trans
    (by unfold Dat.fetched Dat.blockOf blk1; rw [dat1_A]; rfl)

/-- The body hands each input buffer back at its block (no input window is ever idle): K, -/
theorem leaves1_0 (c : Dev nD) (t : Fin cfg1.N) :
    (dat1 V c).leavesExact 0 t = owns (c : Thread nD τ) (st1_0 t) fullShare (blk1 V c 0 t) := by
  unfold Dat.leavesExact; rw [show cfg1.idle 0 (cfg1.grid.coords t) = false from rfl, dat1_after_0]

/-- V, -/
theorem leaves1_1 (c : Dev nD) (t : Fin cfg1.N) :
    (dat1 V c).leavesExact 1 t = owns (c : Thread nD τ) (st1_1 t) fullShare (blk1 V c 1 t) := by
  unfold Dat.leavesExact; rw [show cfg1.idle 1 (cfg1.grid.coords t) = false from rfl, dat1_after_1]

/-- Woᵀ. -/
theorem leaves1_2 (c : Dev nD) (t : Fin cfg1.N) :
    (dat1 V c).leavesExact 2 t = owns (c : Thread nD τ) (st1_2 t) fullShare (blk1 V c 2 t) := by
  unfold Dat.leavesExact; rw [show cfg1.idle 2 (cfg1.grid.coords t) = false from rfl, dat1_after_2]

/-- At the last tile of a batch the output buffer is handed back at the closing product. -/
theorem leaves1_3_last (c : Dev nD) (t : Fin cfg1.N) (h : t.val % 4 = 3) :
    (dat1 V c).leavesExact 3 t
      = owns (c : Thread nD τ) (st1_3 t) fullShare (k1_pay3 (accAt V c t.val t.isLt) (blk1 V c 2 t)) := by
  unfold Dat.leavesExact; rw [out_live t h, dat1_after_3]

/-- Whatever the position, the invariant holds the scratch at SOME contents: before the first point by the plain
    invariant, afterwards by forgetting what the point before left. -/
theorem Phi1_some (c : Dev nD) (n : ℕ) (h : n ≤ cfg1.N) :
    Phi1 V c n h ⊢ iprop(((∃ d, owns (c : Thread nD τ) accMem fullShare d) ∗ Pipeline.scopedRestBut (Ix := Unit) (Name := ℕ) (U := UR sig nD τ) (Lvl := ℕ) (Val := Elt F) spec1 c [cc1_scratch0]) ∗ ∃ r, prngReg c r) := by
  cases n with
  | zero => exact Entails.of_eq (PhiA1_eq c)
  | succ n =>
    rw [Phi1_pos V c (n + 1) h (Nat.succ_ne_zero n)]
    iintro ⟨⟨Hacc, Hrest⟩, Hg⟩
    isplitr [Hg]
    · isplitl [Hacc]
      · iexists _; iexact Hacc
      iexact Hrest
    iexact Hg

/-! ## The body's obligation -/

/-- What the body is handed at point `t`: the invariant, nothing owed, and the four windows' current buffers, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

/-- The body at any point. The three input buffers hold the point's K, V and Woᵀ blocks. By the tile the point is
    on: at a FIRST tile the scratch is taken at whatever it holds and comes back at one step from zero; at a MIDDLE
    tile it is taken at what the point before left and comes back one step further; at a LAST tile likewise, and the
    output buffer comes back at the closing product. Before the last tile the output window is idle and its buffer
    goes back as it came. The other scoped buffers, the generator register and the (empty) debts pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [leaves1_0, leaves1_1, leaves1_2]
  rw [show (dat1 V c).owesAt () t.succ = (dat1 V c).owesAt () t.castSucc from rfl]
  rw [show (dat1 V c).Φ t.succ = iprop((owns (c : Thread nD τ) accMem fullShare (accAt V c t.val t.isLt)
      ∗ Pipeline.scopedRestBut (Ix := Unit) (Name := ℕ) (U := UR sig nD τ) (Lvl := ℕ) (Val := Elt F) spec1 c [cc1_scratch0]) ∗ ∃ r, prngReg c r) from rfl]
  rw [show (dat1 V c).Φ t.castSucc = Phi1 V c t.val (Nat.le_of_lt t.isLt) from rfl]
  by_cases h0 : t.val % 4 = 0
  · have h3 : t.val % 4 ≠ 3 := by omega
    rw [Dat.leavesExact_idle (dat1 V c) 3 t (out_idle t h3) (out_kept t h3), accAt_reset V c t h0]
    iintro ⟨Hinv, Ho, ⟨%d0, H0⟩, ⟨%d1, H1⟩, ⟨%d2, H2⟩, ⟨%d3, H3⟩⟩
    icases (Phi1_some V c _ _) $$ Hinv with ⟨⟨⟨%a₀, Hacc⟩, Hrest⟩, Hg⟩
    iapply (run_first c (grid1.coords t) _ _ _ _ _ _ _ _ _ _ ((firstTile_iff t).mpr h0)
      (fun h => h3 ((lastTile_iff t).mp h)) (blk1 V c 0 t) (blk1 V c 1 t) (blk1 V c 2 t) _ a₀ Set.univ _)
    isplitl [H0]; · iexact H0
    isplitl [H1]; · iexact H1
    isplitl [H2]; · iexact H2
    isplitl [H3]; · iexact H3
    isplitl [Hacc]; · iexact Hacc
    iintro ⟨H0, H1, H2, H3, Hacc⟩
    isplitl [Hacc Hrest Hg]
    · isplitr [Hg]
      · isplitl [Hacc]; · iexact Hacc
        iexact Hrest
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [accAt_step V c t h0, Phi1_pos V c _ _ hz]
    by_cases h3 : t.val % 4 = 3
    · rw [leaves1_3_last V c t h3, accAt_step V c t h0]
      iintro ⟨⟨⟨Hacc, Hrest⟩, Hg⟩, Ho, ⟨%d0, H0⟩, ⟨%d1, H1⟩, ⟨%d2, H2⟩, ⟨%d3, H3⟩⟩
      iapply (run_last c (grid1.coords t) _ _ _ _ _ _ _ _ _ _ (fun h => h0 ((firstTile_iff t).mp h))
        ((lastTile_iff t).mpr h3) (blk1 V c 0 t) (blk1 V c 1 t) (blk1 V c 2 t) _ _ Set.univ _)
      isplitl [H0]; · iexact H0
      isplitl [H1]; · iexact H1
      isplitl [H2]; · iexact H2
      isplitl [H3]; · iexact H3
      isplitl [Hacc]; · iexact Hacc
      iintro ⟨H0, H1, H2, H3, Hacc⟩
      isplitl [Hacc Hrest Hg]
      · isplitr [Hg]
        · isplitl [Hacc]; · iexact Hacc
          iexact Hrest
        iexact Hg
      isplitl [Ho]; · iexact Ho
      isplitl [H0]; · iexact H0
      isplitl [H1]; · iexact H1
      isplitl [H2]; · iexact H2
      iexact H3
    · rw [Dat.leavesExact_idle (dat1 V c) 3 t (out_idle t h3) (out_kept t h3)]
      iintro ⟨⟨⟨Hacc, Hrest⟩, Hg⟩, Ho, ⟨%d0, H0⟩, ⟨%d1, H1⟩, ⟨%d2, H2⟩, ⟨%d3, H3⟩⟩
      iapply (run_middle c (grid1.coords t) _ _ _ _ _ _ _ _ _ _ (fun h => h0 ((firstTile_iff t).mp h))
        (fun h => h3 ((lastTile_iff t).mp h)) (blk1 V c 0 t) (blk1 V c 1 t) (blk1 V c 2 t) _ _ Set.univ _)
      isplitl [H0]; · iexact H0
      isplitl [H1]; · iexact H1
      isplitl [H2]; · iexact H2
      isplitl [H3]; · iexact H3
      isplitl [Hacc]; · iexact Hacc
      iintro ⟨H0, H1, H2, H3, Hacc⟩
      isplitl [Hacc Hrest Hg]
      · isplitr [Hg]
        · isplitl [Hacc]; · iexact Hacc
          iexact Hrest
        iexact Hg
      isplitl [Ho]; · iexact Ho
      isplitl [H0]; · iexact H0
      isplitl [H1]; · iexact H1
      isplitl [H2]; · iexact H2
      iexists _; iexact H3

/-- The body's obligation at every point of the grid. -/
theorem body1 (c : Dev nD) : BodyObligation (dat1 (F := F) V c) (defs₀ (F := F)) Variants.none () Set.univ := fun t => by
  rw [bigSep_W1, bigSep_W1]
  exact sound_body V c t

/-- What the launch hands the region is the invariant before the first point. -/
theorem phi1_in (c : Dev nD) : Pipeline.ΦA spec1 c ⊢ (dat1 V c).Φ 0 := by
  rw [show (dat1 V c).Φ 0 = Phi1 V c 0 (Nat.zero_le _) from rfl]
  exact Entails.rfl

/-- After the last point the invariant gives the plain one back: what the scratch holds is forgotten. -/
theorem phi1_out (c : Dev nD) : (dat1 V c).Φ (Fin.last cfg1.N) ⊢ Pipeline.ΦA spec1 c := by
  rw [show (dat1 V c).Φ (Fin.last cfg1.N) = Phi1 V c cfg1.N (Nat.le_refl _) from rfl,
    Phi1_pos V c _ _ (by have : cfg1.N = 16 := N_1; omega), PhiA1_eq]
  iintro ⟨⟨Hacc, Hrest⟩, Hg⟩
  isplitr [Hg]
  · isplitl [Hacc]
    · iexists _; iexact Hacc
    iexact Hrest
  iexact Hg

end Cert.Kernel.Fr

end
-- ==== Proof.K.Reg2.lean ====
/-
  The third pallas_call (the output projection Q·M + bo) as a pipeline region, at any float values.

  Each of its 16 grid points (4 batches × 4 row tiles) takes a tile of 1024 rows of Q of one batch, that batch's whole
  matrix M and the whole output bias, and stores one tile of 1024 rows of the result. Nothing is carried from one point
  to the next. Stated here, at a PARAMETER `V` (the buffers' contents when the region is entered): the block of each
  window at a point, what the body leaves in the output tile, the proof data, and the body's obligation.
-/
import proofs.«176229_j4294967296116_1_alg».proof.Proof.Gen.Kernel.Launch
import proofs.«176229_j4294967296116_1_alg».proof.Proof.Gen.Kernel.Skeleton
import proofs.«176229_j4294967296116_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole of a one-batch tile and of the bias: the rectangles the body loads and stores. -/
abbrev rTile2 : Rect S1x1024x1024 := Rect.unit (s := S1x1024x1024) ![0, 0, 0] S1x1024x1024.size inb_S1x1024x1024_S1x1024x1024_0_0_0
abbrev rB2 : Rect S1024 := Rect.unit (s := S1024) ![0] S1024.size inb_S1024_S1024_0

/-- What the body leaves in the output tile's buffer, from the three input blocks: its one whole-tile store. -/
def oOut2 (q : Vec F S1x1024x1024 .bf16) (mm : Vec F S1x1024x1024 .bf16) (b : Vec F S1024 .f32) : Vec F S1x1024x1024 .f32 :=
  View.canon [⟨rTile2, k2_pay1 (View.ld q rTile2) (View.ld mm rTile2) (View.ld b rB2)⟩]

/-- The pipeline's proof data on core `c`: the arrays as the region finds them; after the body at point `t` each input
    buffer at its block and the output buffer at the output tile of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => oOut2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) :
    (dat2 V c).after 3 t = oOut2 (blk2 V c 0 t) (blk2 V c 1 t) (blk2 V c 2 t) := by dsimp only [dat2]

/-! ## What the three input buffers hold when the body is called

The Q tile changes at every point, the matrix M only when the batch changes (every fourth point) and the bias never
after the first point. Whichever it is, the buffer the body is handed holds the window's block of THAT point: where the
pipeline did not fetch, the block index stood still, and the body left the previous block untouched. None of the three
windows is cut at its array's end and none is ever idle. -/

/-- The Q tile's buffer holds rows `1024·j … 1024·j+1023` of batch `b` of Q at point `(b, j)`. -/
theorem holdsQ (c : Dev nD) (t : Fin cfg2.N) (d) : (dat2 V c).before 0 t d = blk2 V c 0 t := by
  have hkeep : ∀ s, (cfg2.win 0).cut (cfg2.grid.coords s) ((dat2 V c).after 0 s) = (dat2 V c).blockOf 0 s := by
    intro s; rw [dat2_after_0]; unfold Dat.blockOf blk2; rw [dat2_A]
  rw [(dat2 V c).before_in_eq_fetched 0 rfl (fun _ => rfl) (fun _ _ _ => rfl) hkeep t d]
  unfold Dat.fetched Dat.blockOf blk2; rw [dat2_A]; rfl

/-- The matrix's buffer holds batch `b`'s whole M at point `(b, j)`, for every row tile `j`. -/
theorem holdsM (c : Dev nD) (t : Fin cfg2.N) (d) : (dat2 V c).before 1 t d = blk2 V c 1 t := by
  have hkeep : ∀ s, (cfg2.win 1).cut (cfg2.grid.coords s) ((dat2 V c).after 1 s) = (dat2 V c).blockOf 1 s := by
    intro s; rw [dat2_after_1]; unfold Dat.blockOf blk2; rw [dat2_A]
  rw [(dat2 V c).before_in_eq_fetched 1 rfl (fun _ => rfl) (fun _ _ _ => rfl) hkeep t d]
  unfold Dat.fetched Dat.blockOf blk2; rw [dat2_A]; rfl

/-- The bias's buffer holds the whole bias at every point. -/
theorem holdsBias (c : Dev nD) (t : Fin cfg2.N) (d) : (dat2 V c).before 2 t d = blk2 V c 2 t := by
  have hkeep : ∀ s, (cfg2.win 2).cut (cfg2.grid.coords s) ((dat2 V c).after 2 s) = (dat2 V c).blockOf 2 s := by
    intro s; rw [dat2_after_2]; unfold Dat.blockOf blk2; rw [dat2_A]
  rw [(dat2 V c).before_in_eq_fetched 2 rfl (fun _ => rfl) (fun _ _ _ => rfl) hkeep t d]
  unfold Dat.fetched Dat.blockOf blk2; rw [dat2_A]; rfl

/-! ## The kernel function on its four buffers -/

/-- The one store writes the whole `1×1024×1024` tile, so every position of the output buffer is written by it:
    nothing of the buffer's earlier contents survives. -/
theorem outTile_covered (p : Vec F S1x1024x1024 .f32) (y : S1x1024x1024.Idx) :
    ∃ pc ∈ ([⟨rTile2, p⟩] : List (View.Piece (Elt F) S1x1024x1024 .f32)), y ∈ pc.1.set :=
  View.cover_of_tiled [⟨rTile2, p⟩] S1x1024x1024.size (by rfl) y

set_option maxHeartbeats 1000000 in
/-- Run on whole buffers holding a Q tile `q`, a matrix `mm` and a bias `b`, and an output buffer holding anything,
    the kernel function reads the three inputs whole, reads the output buffer once without using what it read, and
    stores `q·mm + b` (the payload, never opened here) over the whole output buffer. The inputs are returned as they
    were; the output buffer is returned at `oOut2 q mm b`, whatever it held. The grid coordinates are not read. -/
theorem out_kernel_runs (c : Dev nD) (E : Set ℕ) (i : grid2.Coords)
    (aQ : Memref sig .tc .vmem S1x1024x1024 .bf16) (hQ : aQ.IsWhole)
    (aM : Memref sig .tc .vmem S1x1024x1024 .bf16) (hM : aM.IsWhole)
    (aB : Memref sig .tc .vmem S1024 .f32) (hB : aB.IsWhole)
    (aO : Memref sig .tc .vmem S1x1024x1024 .f32) (hO : aO.IsWhole)
    (q mm : Vec F S1x1024x1024 .bf16) (b : Vec F S1024 .f32) (K : PUnit → sProp 𝕄) :
    iprop(owns (c : Thread nD τ) aQ fullShare q ∗ owns (c : Thread nD τ) aM fullShare mm
        ∗ owns (c : Thread nD τ) aB fullShare b ∗ (∃ d, owns (c : Thread nD τ) aO fullShare d)
        ∗ (iprop(owns (c : Thread nD τ) aQ fullShare q ∗ owns (c : Thread nD τ) aM fullShare mm
            ∗ owns (c : Thread nD τ) aB fullShare b ∗ owns (c : Thread nD τ) aO fullShare (oOut2 q mm b)) -∗ K ⟨⟩))
      ⊢ wp frame (wpE (defs₀ (F := F)) Variants.none c none) E (cc2__out_kernel i aQ hQ aM hM aB hB aO hO) K := by
  simp only [cc2__out_kernel_eq_skeleton]; unfold cc2__out_kernel_skel
  unfold owns
  iintro ⟨⟨%fq, %hfq, Hq⟩, ⟨%fm, %hfm, Hm⟩, ⟨%fb, %hfb, Hb⟩, ⟨%d, %fo, -, Ho⟩, Hk⟩
  subst hfq; subst hfm; subst hfb
  sl_exec
  sl_step
  iapply Hk
  isplitl [Hq]
  · iexists fq; isplitr
    · ipureintro; rfl
    · iexact Hq
  isplitl [Hm]
  · iexists fm; isplitr
    · ipureintro; rfl
    · iexact Hm
  isplitl [Hb]
  · iexists fb; isplitr
    · ipureintro; rfl
    · iexact Hb
  -- the output buffer: first its cells (this fixes the contents the store left), then that they read as `oOut2`
  iexists _; isplitr
  swap
  · iexact Ho
  ipureintro
  exact View.read_writes_eq_canon _ _ _ (outTile_covered _)

/-! ## The obligation at one point -/

/-- What the pipeline hands the body at point `t`: the region's invariant, the core's tally of what is owed, and the
    current staging buffer of each of the four windows (Q tile, matrix, bias, output tile). -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body hands back: the same invariant and tally one point on, each buffer at what the proof data names. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the three input buffers hold that point's blocks, so the kernel function's triple applies with
    `q, mm, b` those blocks; what the output buffer held before (a stale tile of an earlier point, or nothing yet) does
    not matter. The invariant and the tally do not depend on the point and are carried over the call unread. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [holdsQ, holdsM, holdsBias]
  rw [show (dat2 V c).Φ t.succ = (dat2 V c).Φ t.castSucc from rfl,
    show (dat2 V c).owesAt () t.succ = (dat2 V c).owesAt () t.castSucc from rfl,
    dat2_after_0, dat2_after_1, dat2_after_2, dat2_after_3]
  iintro ⟨HΦ, Howe, ⟨%dq, Hq⟩, ⟨%dm, Hm⟩, ⟨%db, Hb⟩, ⟨%dO, Ho⟩⟩
  iapply (out_kernel_runs c Set.univ _ _ _ _ _ _ _ _ _ (blk2 V c 0 t) (blk2 V c 1 t) (blk2 V c 2 t) _)
  isplitl [Hq]; · iexact Hq
  isplitl [Hm]; · iexact Hm
  isplitl [Hb]; · iexact Hb
  isplitl [Ho]; · iexists _; iexact Ho
  iintro ⟨Hq, Hm, Hb, Ho⟩
  isplitl [HΦ]; · iexact HΦ
  isplitl [Howe]; · iexact Howe
  isplitl [Hq]; · iexact Hq
  isplitl [Hm]; · iexact Hm
  isplitl [Hb]; · iexact Hb
  iexact Ho

/-- The body's obligation at every point of the grid. -/
theorem body2 (c : Dev nD) : BodyObligation (dat2 (F := F) V c) (defs₀ (F := F)) Variants.none () Set.univ := fun t => by
  rw [bigSep_W2, bigSep_W2]
  exact body2_at V c t

end Cert.Kernel.Fr

end
-- ==== Proof.K.Run.lean ====
/-
  The run of the kernel program's @main, at any float values.

  @main has five items: a stretch of nine host operations (a reshape of the input, the transposes of the four weight
  matrices, the fusion of three of them and of the three biases, two roundings to bf16), the fused Q/K/V projection,
  a stretch of three reshapes, the per-batch matrix M = (Kᵀ·V)·Woᵀ, and the output Q·M + bias. Between two items a
  core holds every unscoped buffer at contents that are a FUNCTION of the launch memory: a host stretch applies its
  operations to the contents before it, a pallas_call replaces its windows' arrays by what its write-backs leave and
  changes nothing else. Named here: those contents at the six boundaries, the run of @main ending at the last of
  them, and two readings of it: every argument array ends as launched, and the result array ends at what the last
  pallas_call's write-backs leave.
-/
import proofs.«176229_j4294967296116_1_alg».proof.Proof.K.Reg0
import proofs.«176229_j4294967296116_1_alg».proof.Proof.K.Reg1
import proofs.«176229_j4294967296116_1_alg».proof.Proof.K.Reg2
import proofs.«176229_j4294967296116_1_alg».proof.Proof.Gen.Kernel.Launch
import proofs.«176229_j4294967296116_1_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers' contents at the six boundaries -/

/-- At launch: the memory's. -/
abbrev W0 : Dev nD → Valuation τ sig (Elt F) := fun c b => m (c, b)
/-- After the nine host operations: the first pallas_call's entry. -/
abbrev W1 : Dev nD → Valuation τ sig (Elt F) := fun c => StableHlo.after hostOps0 (W0 m c)
/-- The same, at the TensorCore's references: the parameter the first pallas_call's data are stated at. -/
abbrev V1 : (c : Dev nD) → (b : Ref sig .tc) → Buf (Elt F) ((c : Thread nD τ).loc b) := fun c b => W1 m c b
/-- After the first pallas_call: its six arrays at what its write-backs leave, every other buffer as before. -/
def W2 (c : Dev nD) : Valuation τ sig (Elt F) :=
  Pipeline.withArrays spec0 c (W1 m c) fun w => (dat0 (V1 m) c).arrAt w cfg0.N
/-- After the three reshapes: the second pallas_call's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second pallas_call: the third's entry. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third pallas_call: the final contents. -/
def W5 (c : Dev nD) : Valuation τ sig (Elt F) :=
  Pipeline.withArrays spec2 c (W4 m c) fun w => (dat2 (V4 m) c).arrAt w cfg2.N

/-! A pallas_call's exit contents read at one of its arrays, and at any other buffer. -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

/-- A buffer that is no array of a pallas_call is off the image of its windows' arrays. -/
theorem ne_of_not_mem_image {W gr : ℕ} {win : Fin W → Pipeline.WinSpec sig gr} {b : Ref sig .tc}
    (hb : b ∉ Finset.univ.image (Pipeline.arrRef win)) (w : Fin W) : Pipeline.arrRef win w ≠ b :=
  fun e => hb (Finset.mem_image.mpr ⟨w, Finset.mem_univ _, e⟩)

/-! ### Every argument ends as launched

No host operation writes an argument (each writes one of the intermediate buffers), and no pallas_call has an argument
among its output windows' arrays: the only argument that is a window's array at all is the output bias, an INPUT window
of the last pallas_call, which the pipeline leaves as it found it. So the contents at an argument walk back through
the five items to the launch memory. -/

/-- Through the two host stretches and the first two pallas_calls, for a buffer none of them writes. -/
theorem W4_back (c : Dev nD) (b : Ref sig .tc) (h0 : b ∉ hostOps0_W) (h1 : b ∉ hostOps1_W)
    (hs0 : ∀ w, Pipeline.arrRef spec0 w ≠ b) (hs1 : ∀ w, Pipeline.arrRef spec1 w ≠ b) :
    W4 m c (Proc.devRef .tc b) = m ((c : Thread nD τ).loc b) :=
  calc W4 m c (Proc.devRef .tc b)
    _ = W3 m c (Proc.devRef .tc b) := W4_of_ne m c b hs1
    _ = W2 m c (Proc.devRef .tc b) := StableHlo.after_of_writes_sub hostOps1 _ hostOps1_writes h1
    _ = W1 m c (Proc.devRef .tc b) := W2_of_ne m c b hs0
    _ = W0 m c (Proc.devRef .tc b) := StableHlo.after_of_writes_sub hostOps0 _ hostOps0_writes h0
    _ = m ((c : Thread nD τ).loc b) := rfl

theorem W5_main_arg0 (c : Dev nD) : W5 m c (Proc.devRef .tc main_arg0) = m ((c : Thread nD τ).loc main_arg0) :=
  (W5_of_ne m c main_arg0 (by decide)).trans (W4_back m c main_arg0 (by decide) (by decide) (by decide) (by decide))
theorem W5_main_arg1 (c : Dev nD) : W5 m c (Proc.devRef .tc main_arg1) = m ((c : Thread nD τ).loc main_arg1) :=
  (W5_of_ne m c main_arg1 (by decide)).trans (W4_back m c main_arg1 (by decide) (by decide) (by decide) (by decide))
theorem W5_main_arg2 (c : Dev nD) : W5 m c (Proc.devRef .tc main_arg2) = m ((c : Thread nD τ).loc main_arg2) :=
  (W5_of_ne m c main_arg2 (by decide)).trans (W4_back m c main_arg2 (by decide) (by decide) (by decide) (by decide))
theorem W5_main_arg3 (c : Dev nD) : W5 m c (Proc.devRef .tc main_arg3) = m ((c : Thread nD τ).loc main_arg3) :=
  (W5_of_ne m c main_arg3 (by decide)).trans (W4_back m c main_arg3 (by decide) (by decide) (by decide) (by decide))
theorem W5_main_arg4 (c : Dev nD) : W5 m c (Proc.devRef .tc main_arg4) = m ((c : Thread nD τ).loc main_arg4) :=
  (W5_of_ne m c main_arg4 (by decide)).trans (W4_back m c main_arg4 (by decide) (by decide) (by decide) (by decide))
theorem W5_main_arg5 (c : Dev nD) : W5 m c (Proc.devRef .tc main_arg5) = m ((c : Thread nD τ).loc main_arg5) :=
  (W5_of_ne m c main_arg5 (by decide)).trans (W4_back m c main_arg5 (by decide) (by decide) (by decide) (by decide))
theorem W5_main_arg6 (c : Dev nD) : W5 m c (Proc.devRef .tc main_arg6) = m ((c : Thread nD τ).loc main_arg6) :=
  (W5_of_ne m c main_arg6 (by decide)).trans (W4_back m c main_arg6 (by decide) (by decide) (by decide) (by decide))
theorem W5_main_arg7 (c : Dev nD) : W5 m c (Proc.devRef .tc main_arg7) = m ((c : Thread nD τ).loc main_arg7) :=
  (W5_of_ne m c main_arg7 (by decide)).trans (W4_back m c main_arg7 (by decide) (by decide) (by decide) (by decide))
/-- The output bias is the last pallas_call's third window, an input: read through that window it is the entry contents. -/
theorem W5_main_arg8 (c : Dev nD) : W5 m c (Proc.devRef .tc main_arg8) = m ((c : Thread nD τ).loc main_arg8) :=
  calc W5 m c (Proc.devRef .tc main_arg8)
    _ = (dat2 (V4 m) c).arrAt 2 cfg2.N := W5_arr m c 2
    _ = (dat2 (V4 m) c).A 2 := (dat2 (V4 m) c).arrAt_in 2 rfl _
    _ = W4 m c (Proc.devRef .tc main_arg8) := dat2_A (V4 m) c 2
    _ = m ((c : Thread nD τ).loc main_arg8) := W4_back m c main_arg8 (by decide) (by decide) (by decide) (by decide)

/-! ## The proof data, and what a core holds between two items -/

/-- No pallas_call has a prefetched table. -/
abbrev adm : (p : Fin 3) → (pcfgs (F := F) p).Adm := fun p => (cfgs p).toPCfg_adm
/-- Each pallas_call's proof data at the contents it is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
abbrev 𝒱₀ : Variants := Variants.none
/-- No core waits for another: no level is assigned. -/
abbrev L : GSem nD τ sig → Finset Unit := fun _ => ∅
abbrev lv : GSem nD τ sig → Unit → ℕ := fun _ _ => 0
/-- Beside the unscoped buffers a core holds, between two items, its generator register at some state and the record
    that it owes nothing. -/
abbrev R (c : Dev nD) : sProp 𝕄 := iprop((∃ r, prngReg c r) ∗ ∃ W, owes (c : Thread nD τ) (0 : CellTallies nD τ sig Unit) W)
/-- All a core holds between two items, the unscoped buffers being at `W`. -/
abbrev between (W : Valuation τ sig (Elt F)) (c : Dev nD) : sProp 𝕄 :=
  iprop(StableHlo.held (c : Thread nD τ) (Pipeline.ucRefs τ sig) W ∗ R c)
/-- A host stretch run over the unscoped buffers from the contents `W`: it leaves them at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the TensorCore is among the buffers a core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What every region does with what a core holds

Two facts about the record of owing nothing, two about the plain region invariant ("the scoped buffers no window stages
in at some contents, the generator register at some state"), stated once for any pipeline. -/

section Parts

variable {cfg : Cfg sig Λ₀} {c : Dev nD} (dat : Dat τ (Elt F) Unit ℕ (UR sig nD τ) ℕ cfg c)

/-- Where the data say nothing is owed and bound the recorded pairs by nothing, a core that owes nothing is what the
    pipeline's loop holds of it. -/
theorem owesAt_of_nothing (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, Howe⟩
  iexists W
  isplitr
  · ipureintro; exact fun x _ => Or.inl (hrec ▸ Set.mem_univ x)
  iexact Howe

/-- And back: what the loop holds of a core where nothing is owed is a core that owes nothing. -/
theorem nothing_of_owesAt (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, Howe⟩
  iexists W
  iexact Howe

end Parts

/-- The generator register and the scoped buffers no window stages in make the plain invariant, whatever else is at
    hand. -/
theorem plain_of_parts {gr Wn : ℕ} (win : Fin Wn → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hreg, -, Hsc⟩
  isplitl [Hsc]
  · iexact Hsc
  iexact Hreg

/-- The plain invariant gives both back. -/
theorem parts_of_plain {gr Wn : ℕ} (win : Fin Wn → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hsc, Hreg⟩
  isplitl [Hreg]
  · iexact Hreg
  isplitr
  · iempintro
  iexact Hsc

/-! ## A pallas_call as a region

Pipeline `p` entered from every unscoped buffer at `Wi` and left at `Wo`, given what is particular to it: its body's
obligation; that its data hold every array at the full share, owe nothing and bound nothing; that they name the arrays'
entry contents as `Wi` has them; that `Wo` is `Wi` with the arrays at what the write-backs leave; and that its
invariant starts from and ends in the plain one. At the entry the arrays are taken out of the unscoped buffers, the
generator register goes into the invariant, the other unscoped buffers go around; at the exit they are put together
again, the arrays now at their final contents. -/

set_option backward.isDefEq.respectTransparency.types false in
def regionOf (p : Fin 3) (lf : Pipeline.LaunchFacts (nD := nD) (τ := τ) cfgs p)
    (Wi Wo : Dev nD → Valuation τ sig (Elt F))
    (hbody : ∀ c, BodyObligation (pdats m p c) (defs₀ (F := F)) Variants.none () Set.univ)
    (hq : ∀ c w, (pdats m p c).q w = fullShare)
    (h0 : ∀ c t, (pdats m p c).owed t = 0)
    (hrec : ∀ c t, (pdats m p c).recorded t = Set.univ)
    (hA : ∀ c w, (pdats m p c).A w = Wi c (Proc.devRef .tc (Pipeline.arrRef (Pipeline.pin (pcfgs (F := F)) adm p).spec w)))
    (hWo_arr : ∀ c w, Wo c (Proc.devRef .tc (Pipeline.arrRef (Pipeline.pin (pcfgs (F := F)) adm p).spec w))
      = (pdats m p c).arrAt w (Pipeline.pin (pcfgs (F := F)) adm p).N)
    (hWo_ne : ∀ c (b : Ref sig .tc), (∀ w, Pipeline.arrRef (Pipeline.pin (pcfgs (F := F)) adm p).spec w ≠ b)
      → Wo c (Proc.devRef .tc b) = Wi c (Proc.devRef .tc b))
    (hΦin : ∀ c, (Pipeline.ΦA (Pipeline.pin (pcfgs (F := F)) adm p).spec c : sProp 𝕄) ⊢ (pdats m p c).Φ 0)
    (hΦout : ∀ c, (pdats m p c).Φ (Fin.last _) ⊢ (Pipeline.ΦA (Pipeline.pin (pcfgs (F := F)) adm p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p h0
  pre c := between (Wi c) c
  post c := between (Wo c) c
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    -- the unscoped buffers at `Wi` are the arrays at their entry contents and the buffers that go around
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    -- there is no table to hold
    have htab : (BI.emp : sProp 𝕄) ⊢ Pipeline.prefHeld (pcfgs (F := F) p).pre c (fun _ => fullShare) (adm p).1 := by
      unfold Pipeline.prefHeld
      rw [show (Finset.univ : Finset (Fin 0)) = ∅ from rfl, BI.bigSep_empty]
    iintro ⟨⟨Hheld, Hreg, Howe⟩, -, -⟩
    imodintro
    ihave Hparts := hsplit $$ Hheld
    icases Hparts with ⟨Harr, Hround⟩
    isplitl [Harr]
    · iexact Harr
    isplitr
    · iapply htab; iempintro
    isplitl [Howe]
    · iapply (owesAt_of_nothing (pdats m p c) 0 (h0 c 0) (hrec c 0)); iexact Howe
    isplitl [Hreg]
    · iexact Hreg
    iexact Hround
  hin c := (plain_of_parts _ c _).trans (hΦin c)
  hout c := by
    rw [Pipeline.ownSems0_none]
    exact (hΦout c).trans (parts_of_plain _ c)
  hexit c := by
    -- the arrays at their final contents and the buffers that went around are the unscoped buffers at `Wo`
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c b) (fun b => Wo c b) ((pdats m p c).arrAt · (Pipeline.pin (pcfgs (F := F)) adm p).N)
      (fun w => (hWo_arr c w).symm) (fun b hb => hWo_ne c b (ne_of_not_mem_image hb))
    rw [Pipeline.unscopedBufs_held] at hjoin
    iintro ⟨Harr, Howe, Hreg, Hround⟩
    imodintro
    isplitl [Harr Hround]
    · iapply hjoin
      isplitl [Harr]
      · iexact Harr
      iexact Hround
    isplitl [Hreg]
    · iexact Hreg
    iapply (nothing_of_owesAt (pdats m p c) (Fin.last _) (h0 c _)); iexact Howe

/-- The fused Q/K/V projection: from the contents after the first host stretch to those with its six arrays written. -/
def reg0 : Pipeline.RegionSeg (pcfgs (F := F)) adm (pdats m) () defs₀ 𝒱₀ L lv 0 :=
  regionOf m 0 launch0 (W1 m) (W2 m) (fun c => body0 (V1 m) c) (fun _ _ => rfl) (fun _ _ => rfl) (fun _ _ => rfl)
    (fun c w => dat0_A (V1 m) c w) (W2_arr m) (W2_of_ne m) (fun _ => .rfl) (fun _ => .rfl)
/-- The per-batch matrix M: its invariant carries the accumulator, and starts from and ends in the plain one. -/
def reg1 : Pipeline.RegionSeg (pcfgs (F := F)) adm (pdats m) () defs₀ 𝒱₀ L lv 1 :=
  regionOf m 1 launch1 (W3 m) (W4 m) (fun c => body1 (V3 m) c) (fun _ _ => rfl) (fun _ _ => rfl) (fun _ _ => rfl)
    (fun c w => dat1_A (V3 m) c w) (W4_arr m) (W4_of_ne m) (phi1_in (V3 m)) (phi1_out (V3 m))
/-- The output Q·M + bias. -/
def reg2 : Pipeline.RegionSeg (pcfgs (F := F)) adm (pdats m) () defs₀ 𝒱₀ L lv 2 :=
  regionOf m 2 launch2 (W4 m) (W5 m) (fun c => body2 (V4 m) c) (fun _ _ => rfl) (fun _ _ => rfl) (fun _ _ => rfl)
    (fun c w => dat2_A (V4 m) c w) (W5_arr m) (W5_of_ne m) (fun _ => .rfl) (fun _ => .rfl)

/-! ## @main as its five items, and the launch -/

/-- No host operation of @main allocates a buffer. -/
theorem hostOps0_alloc_none : (hostOps0 : List (HloOp τ sig (Elt F))).Forall fun op => op.fresh = ∅ := hostOps0_fresh
theorem hostOps1_alloc_none : (hostOps1 : List (HloOp τ sig (Elt F))).Forall fun op => op.fresh = ∅ := hostOps1_fresh

/-- The five items in @main's order, each entered from what the one before it leaves. -/
abbrev items : List (Pipeline.Seg (pcfgs (F := F)) adm (pdats m) () defs₀ 𝒱₀ L lv) :=
  [ .host (hseg hostOps0 hostOps0_sub hostOps0_alloc_none (W0 m)),
    .region (reg0 m),
    .host (hseg hostOps1 hostOps1_sub hostOps1_alloc_none (W2 m)),
    .region (reg1 m),
    .region (reg2 m) ]

/-- @main is the run of its items. -/
theorem main_items (c : Dev nD) : main (F := F) c = Pipeline.Seg.run (items m) := (main_chain c).trans (by chain_rfl)

/-- The launch's ghost element is the pipelines' own, and no core is dealt anything else. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  iintro Hu
  imodintro
  isplitl [Hu]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact Hu
  iempintro

/-- What the launch deals a core is what it holds before the first item: its unscoped buffers at the launch memory, its
    generator register, and a record of owing nothing. -/
theorem launch_core (c : Dev nD) :
    iprop((unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ (BI.emp : sProp 𝕄)) ∗ levAts L lv)
      ⊢ |={Set.univ}=> between (W0 m c) c := by
  rw [show unscopedBufs c (fun b => m ((c : Thread nD τ).loc b)) = StableHlo.held (c : Thread nD τ) (Pipeline.ucRefs τ sig) (W0 m c)
    from Pipeline.unscopedBufs_held c (W0 m c)]
  iintro ⟨⟨Hheld, -, Howe, -, Hreg, -⟩, -⟩
  imodintro
  isplitl [Hheld]
  · iexact Hheld
  isplitl [Hreg]
  · iexists (ρ c); iexact Hreg
  iexists ∅
  iexact Howe

/-- What a core holds after the last item, read against a final state: the state's memory has every unscoped buffer at
    the final contents. -/
theorem final_read (c : Dev nD) (s' : Phys nD τ sig (Elt F)) :
    iprop((iprop(StableHlo.held (c : Thread nD τ) (Pipeline.ucRefs τ sig) (W5 m c) ∗ ∃ r, prngReg c r) : sProp 𝕄) ∗ SI s')
      ⊢ |={Set.univ}=> iprop(⌜∀ b ∈ Pipeline.ucRefs τ sig, s'.mem.mem (((c : Thread nD τ)).1, b) = W5 m c b⌝ ∗ SI s') := by
  unfold StableHlo.held
  iintro ⟨⟨Hheld, -⟩, Hst⟩
  imodintro
  iapply (pointsTo_read_all (Pipeline.ucRefs τ sig) (fun b => (((c : Thread nD τ)).1, b)) (W5 m c) s')
  isplitl [Hheld]
  · iexact Hheld
  iexact Hst

/-- After the last item: the buffers and the register on one side, the record of owing nothing on the other. -/
theorem between_end (c : Dev nD) :
    between (W5 m c) c
      ⊢ (iprop(iprop(StableHlo.held (c : Thread nD τ) (Pipeline.ucRefs τ sig) (W5 m c) ∗ ∃ r, prngReg c r)
          ∗ ∃ W, owes (c : Thread nD τ) (0 : CellTallies nD τ sig Unit) W) : sProp 𝕄) := by
  iintro ⟨Hheld, Hreg, Howe⟩
  isplitr [Howe]
  · isplitl [Hheld]
    · iexact Hheld
    iexact Hreg
  iexact Howe

set_option backward.isDefEq.respectTransparency.types false in
/-- THE RUN. From any memory with zero counters every weakly fair execution of @main terminates, nothing faulting, and
    every final memory has each core's unscoped buffers at `W5`. -/
theorem run : θ_run defs (onTc (τ := τ) (main (F := F))) ⟨m, fun _ => 0, ρ⟩
    (fun r => ∀ c : Dev nD, ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => between (W0 m c) c)
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => between_end m c⟩)
    (hinit := Pipeline.initEach L lv fun c => launch_core m ρ c)
    (QY := fun c s => ∀ b ∈ Pipeline.ucRefs τ sig, s.mem (((c : Thread nD τ)).1, b) = W5 m c b)
    (hfin := fun c s' => final_read m c s')
    (hQ := fun s h => h)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c),
      (h c _ (mem_uc main_arg8 (by decide))).trans (W5_main_arg8 m c)⟩) (run m ρ)

/-- The result array ends at what the last pallas_call's write-backs leave, and every argument array as launched. -/
theorem run_result : θ_run defs (onTc (τ := τ) (main (F := F))) ⟨m, fun _ => 0, ρ⟩ (fun r => ∀ c : Dev nD,
      r.2.mem ((c.tc : Thread nD τ).loc main_v14) = (dat2 (V4 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v14 (by decide))).trans (W5_arr m c 3),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c),
      (h c _ (mem_uc main_arg8 (by decide))).trans (W5_main_arg8 m c)⟩) (run m ρ)

end Cert.Kernel.Fr

end
-- ==== Proof.KI.Reg0.lean ====
/-
  The first pallas_call (the fused Q/K/V projection) as a pipeline region, at any float values.

  Each of its 32 grid points takes a tile of 512 rows of the flattened input, the whole fused weight matrix and the
  whole fused bias, and stores three tiles of 512 rows: the Q, K and V bands of the tile's projection. Nothing is
  carried from one point to the next. Stated here, at a PARAMETER `V` (the buffers' contents when the region is
  entered): the block of each window at a point, what the body leaves in each output tile as a function of the three
  input blocks, the proof data of the pipeline, and the body's obligation at every point.
-/
import proofs.«176229_j4294967296116_1_alg».proof.Proof.Gen.KernelIdeal.Launch
import proofs.«176229_j4294967296116_1_alg».proof.Proof.Gen.KernelIdeal.Skeleton
import proofs.«176229_j4294967296116_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a row tile, of the fused weights, of the fused bias: the rectangles the body loads and stores. -/
abbrev rTile0 : Rect S512x1024 := Rect.unit (s := S512x1024) ![0, 0] S512x1024.size inb_S512x1024_S512x1024_0_0
abbrev rW0 : Rect S1024x3072 := Rect.unit (s := S1024x3072) ![0, 0] S1024x3072.size inb_S1024x3072_S1024x3072_0_0
abbrev rB0 : Rect S3072 := Rect.unit (s := S3072) ![0] S3072.size inb_S3072_S3072_0

/-- What the body leaves in the Q tile's buffer, from the three input blocks: its one whole-tile store. -/
def qOut0 (x : Vec F S512x1024 .f32) (w : Vec F S1024x3072 .bf16) (b : Vec F S3072 .f32) : Vec F S512x1024 .bf16 :=
  View.canon [⟨rTile0, k0_pay2 (View.ld x rTile0) (View.ld w rW0) (View.ld b rB0)⟩]
/-- The K tile's. -/
def kOut0 (x : Vec F S512x1024 .f32) (w : Vec F S1024x3072 .bf16) (b : Vec F S3072 .f32) : Vec F S512x1024 .bf16 :=
  View.canon [⟨rTile0, k0_pay3 (View.ld x rTile0) (View.ld w rW0) (View.ld b rB0)⟩]
/-- The V tile's. -/
def vOut0 (x : Vec F S512x1024 .f32) (w : Vec F S1024x3072 .bf16) (b : Vec F S3072 .f32) : Vec F S512x1024 .bf16 :=
  View.canon [⟨rTile0, k0_pay4 (View.ld x rTile0) (View.ld w rW0) (View.ld b rB0)⟩]

/-- The pipeline's proof data on core `c`: the arrays as the region finds them; after the body at point `t` each input
    buffer at its block and the three output buffers at the Q, K, V tiles of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => qOut0 (blk0 V c 0 t) (blk0 V c 1 t) (blk0 V c 2 t)
    | ⟨4, _⟩ => kOut0 (blk0 V c 0 t) (blk0 V c 1 t) (blk0 V c 2 t)
    | ⟨5, _⟩ => vOut0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) :
    (dat0 V c).after 3 t = qOut0 (blk0 V c 0 t) (blk0 V c 1 t) (blk0 V c 2 t) := by dsimp only [dat0]
theorem dat0_after_4 (c : Dev nD) (t : Fin cfg0.N) :
    (dat0 V c).after 4 t = kOut0 (blk0 V c 0 t) (blk0 V c 1 t) (blk0 V c 2 t) := by dsimp only [dat0]
theorem dat0_after_5 (c : Dev nD) (t : Fin cfg0.N) :
    (dat0 V c).after 5 t = vOut0 (blk0 V c 0 t) (blk0 V c 1 t) (blk0 V c 2 t) := by dsimp only [dat0]

/-! ## What the body finds in its three input buffers

No input window of this call is cut at its array's edge, none is ever idle, and the body only reads them. So at every
point an input's current buffer holds the window's block of the array as the region found it. Where the pipeline fetched
the block at that point this is what the fetch wrote; where it did not — the weights and the bias are fetched once, at
the first point — the block index has not moved since the point where it was fetched, and the body has left it alone. -/

/-- The row tile's buffer holds the point's 512 rows of the flattened input. -/
theorem tile_found (c : Dev nD) (t : Fin cfg0.N) (d) : (dat0 V c).before 0 t d = blk0 V c 0 t := by
  have kept : ∀ s, (cfg0.win 0).cut (cfg0.grid.coords s) ((dat0 V c).after 0 s) = (dat0 V c).blockOf 0 s := fun s => by
    rw [dat0_after_0]; unfold Dat.blockOf blk0; rw [dat0_A]; try rfl
  rw [(dat0 V c).before_in_eq_fetched 0 rfl (fun _ => rfl) (fun _ _ _ => rfl) kept t d]
  unfold Dat.fetched Dat.blockOf blk0; rw [dat0_A]; try rfl

/-- The weights' buffer holds the whole fused weight matrix, at the first point and at every later one. -/
theorem weights_found (c : Dev nD) (t : Fin cfg0.N) (d) : (dat0 V c).before 1 t d = blk0 V c 1 t := by
  have kept : ∀ s, (cfg0.win 1).cut (cfg0.grid.coords s) ((dat0 V c).after 1 s) = (dat0 V c).blockOf 1 s := fun s => by
    rw [dat0_after_1]; unfold Dat.blockOf blk0; rw [dat0_A]; try rfl
  rw [(dat0 V c).before_in_eq_fetched 1 rfl (fun _ => rfl) (fun _ _ _ => rfl) kept t d]
  unfold Dat.fetched Dat.blockOf blk0; rw [dat0_A]; try rfl

/-- The bias's buffer holds the whole fused bias, likewise. -/
theorem bias_found (c : Dev nD) (t : Fin cfg0.N) (d) : (dat0 V c).before 2 t d = blk0 V c 2 t := by
  have kept : ∀ s, (cfg0.win 2).cut (cfg0.grid.coords s) ((dat0 V c).after 2 s) = (dat0 V c).blockOf 2 s := fun s => by
    rw [dat0_after_2]; unfold Dat.blockOf blk0; rw [dat0_A]; try rfl
  rw [(dat0 V c).before_in_eq_fetched 2 rfl (fun _ => rfl) (fun _ _ _ => rfl) kept t d]
  unfold Dat.fetched Dat.blockOf blk0; rw [dat0_A]; try rfl

/-! ## One store through the whole-tile rectangle fills the tile -/

/-- The rectangle `rTile0` starts at the origin and has the tile's own extents, so the single piece written through it
    reaches every index of a 512 x 1024 tile: nothing of the buffer's earlier contents survives the store. -/
theorem tile_filled (p : Vec F S512x1024 .bf16) (y : S512x1024.Idx) :
    ∃ pc ∈ ([⟨rTile0, p⟩] : List (View.Piece (Elt F) S512x1024 .bf16)), y ∈ pc.1.set :=
  View.cover_of_tiled [⟨rTile0, p⟩] S512x1024.size (by rfl) y

/-! ## The projection kernel on six whole buffers -/

set_option maxHeartbeats 1000000 in
/-- Run on any six whole buffers — the row tile reading `x`, the weights `w`, the bias `b`, the three result tiles
    at whatever they held — the kernel reads the three inputs once, writes each result tile once through the whole-tile
    rectangle, and returns. The inputs are as they were; each result tile reads the band of the projection its store put
    there (`qOut0`, `kOut0`, `vOut0` of `x`, `w`, `b`): the load the kernel makes of a result buffer before storing
    to it reads contents the store then overwrites wholly, so nothing depends on it. The grid coordinate is not used. -/
theorem qkv_kernel_run (c : Dev nD) (E : Set ℕ) (i : grid0.Coords)
    (mx : Memref sig .tc .vmem S512x1024 .f32) (hmx : mx.IsWhole) (mw : Memref sig .tc .vmem S1024x3072 .bf16) (hmw : mw.IsWhole)
    (mb : Memref sig .tc .vmem S3072 .f32) (hmb : mb.IsWhole) (mq : Memref sig .tc .vmem S512x1024 .bf16) (hmq : mq.IsWhole)
    (mk : Memref sig .tc .vmem S512x1024 .bf16) (hmk : mk.IsWhole) (mv : Memref sig .tc .vmem S512x1024 .bf16) (hmv : mv.IsWhole)
    (x : Vec F S512x1024 .f32) (w : Vec F S1024x3072 .bf16) (b : Vec F S3072 .f32) (K : PUnit → sProp 𝕄) :
    iprop(owns (c : Thread nD τ) mx fullShare x ∗ owns (c : Thread nD τ) mw fullShare w ∗ owns (c : Thread nD τ) mb fullShare b
        ∗ (∃ d, owns (c : Thread nD τ) mq fullShare d) ∗ (∃ d, owns (c : Thread nD τ) mk fullShare d)
        ∗ (∃ d, owns (c : Thread nD τ) mv fullShare d)
        ∗ (iprop(owns (c : Thread nD τ) mx fullShare x ∗ owns (c : Thread nD τ) mw fullShare w ∗ owns (c : Thread nD τ) mb fullShare b
            ∗ owns (c : Thread nD τ) mq fullShare (qOut0 x w b) ∗ owns (c : Thread nD τ) mk fullShare (kOut0 x w b)
            ∗ owns (c : Thread nD τ) mv fullShare (vOut0 x w b)) -∗ K ⟨⟩))
      ⊢ wp frame (wpE (defs₀ (F := F)) Variants.none c none) E (cc0__qkv_kernel i mx hmx mw hmw mb hmb mq hmq mk hmk mv hmv) K := by
  simp only [cc0__qkv_kernel_eq_skeleton]; unfold cc0__qkv_kernel_skel
  unfold owns
  iintro ⟨⟨%fx, %hfx, Hx⟩, ⟨%fw, %hfw, Hw⟩, ⟨%fb, %hfb, Hb⟩, ⟨%dq, %fq, -, Hq⟩, ⟨%dk, %fk, -, Hk⟩, ⟨%dv, %fv, -, Hv⟩, Hret⟩
  subst hfx; subst hfw; subst hfb
  sl_exec
  sl_step
  iapply Hret
  -- the three inputs, untouched
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  -- the three result tiles, each at what its one store wrote
  isplitl [Hq]
  · iexists _; isplitr
    swap; · iexact Hq
    ipureintro
    exact View.read_writes_eq_canon _ _ _ (tile_filled _)
  isplitl [Hk]
  · iexists _; isplitr
    swap; · iexact Hk
    ipureintro
    exact View.read_writes_eq_canon _ _ _ (tile_filled _)
  iexists _; isplitr
  swap; · iexact Hv
  ipureintro
  exact View.read_writes_eq_canon _ _ _ (tile_filled _)

/-! ## The obligation at one point, its six windows written out -/

/-- What the body is handed at point `t`: the invariant, what the core owes, and each window's current buffer at what
    it then holds — row tile, weights, bias, then the Q, K and V tiles. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back: the invariant and the debt at the next point, and each of the same buffers at what the proof
    data says the body leaves there. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point of the grid. The three input buffers hold the point's blocks (`tile_found`, `weights_found`,
    `bias_found`), so the kernel's run applies with `x`, `w`, `b` those blocks, and what it leaves in the result tiles is
    by definition what the proof data names. The invariant and the debt do not depend on the point and the body touches
    neither: they pass from one side to the other as they are. -/
theorem point_run0 (c : Dev nD) (t : Fin cfg0.N) :
    handed0 V c t ⊢ wp frame (wpE (defs₀ (F := F)) Variants.none c none) Set.univ (bodyAt0 t) (fun _ => returned0 V c t) := by
  unfold handed0 returned0 bodyAt0
  simp only [tile_found, weights_found, bias_found]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4, dat0_after_5]
  iintro ⟨Hinv, Hdebt, ⟨%d0, Hx⟩, ⟨%d1, Hw⟩, ⟨%d2, Hb⟩, ⟨%d3, Hq⟩, ⟨%d4, Hk⟩, ⟨%d5, Hv⟩⟩
  iapply (qkv_kernel_run c Set.univ _ _ _ _ _ _ _ _ _ _ _ _ _ (blk0 V c 0 t) (blk0 V c 1 t) (blk0 V c 2 t) _)
  isplitl [Hx]; · iexact Hx
  isplitl [Hw]; · iexact Hw
  isplitl [Hb]; · iexact Hb
  isplitl [Hq]; · iexists _; iexact Hq
  isplitl [Hk]; · iexists _; iexact Hk
  isplitl [Hv]; · iexists _; iexact Hv
  iintro ⟨Hx, Hw, Hb, Hq, Hk, Hv⟩
  isplitl [Hinv]; · iexact Hinv
  isplitl [Hdebt]; · iexact Hdebt
  isplitl [Hx]; · iexact Hx
  isplitl [Hw]; · iexact Hw
  isplitl [Hb]; · iexact Hb
  isplitl [Hq]; · iexact Hq
  isplitl [Hk]; · iexact Hk
  iexact Hv

/-- The body's obligation at every point of the grid. -/
theorem body0 (c : Dev nD) : BodyObligation (dat0 (F := F) V c) (defs₀ (F := F)) Variants.none () Set.univ := fun t => by
  rw [bigSep_W0, bigSep_W0]
  exact point_run0 V c t

end Cert.KernelIdeal.Fr

end
-- ==== Proof.KI.Reg1.lean ====
/-
  The second pallas_call (M = (Kᵀ·V)·Woᵀ per batch) as a pipeline region, at any float values.

  Its 16 grid points are 4 batches × 4 row tiles. At a point the body adds the product Kᵀ·V of one tile of 1024 rows of
  K and V to an accumulator it keeps in a scratch buffer of its own ACROSS points: at the first tile of a batch it first
  resets the accumulator to zero, at the last tile it multiplies the finished sum by Woᵀ and stores the batch's matrix M;
  at the other points it stores nothing into the output window. So the region's invariant names what the scratch holds
  after each point (`accAt`), beside the core's other scoped buffers and its generator register, which the body never
  touches. Stated here, at a PARAMETER `V` (the buffers' contents when the region is entered): the blocks, the
  accumulator point by point, the invariant, the proof data, the body's obligation, and that the invariant starts from
  and returns to the plain "every scoped buffer at some contents".
-/
import proofs.«176229_j4294967296116_1_alg».proof.Proof.Gen.KernelIdeal.Launch
import proofs.«176229_j4294967296116_1_alg».proof.Proof.Gen.KernelIdeal.Skeleton
import proofs.«176229_j4294967296116_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer the body accumulates Kᵀ·V in, as the pipeline passes it to the body. -/
abbrev accMem : Memref sig .tc .vmem S1024x1024 .f32 := Memref.whole cc1_scratch0

/-- THE ACCUMULATION. What the scratch holds after the body at position `n`: at the first tile of a batch (`n % 4 = 0`)
    one Kᵀ·V step from the zero matrix, elsewhere one step from what the point before left. -/
def accAt (c : Dev nD) : (n : ℕ) → n < cfg1.N → Vec F S1024x1024 .f32
  | 0, hn => k1_pay2 (blk1 V c 0 ⟨0, hn⟩) (blk1 V c 1 ⟨0, hn⟩) (k1_pay1 (F := F))
  | n + 1, hn =>
    if (n + 1) % 4 = 0 then k1_pay2 (blk1 V c 0 ⟨n + 1, hn⟩) (blk1 V c 1 ⟨n + 1, hn⟩) (k1_pay1 (F := F))
    else k1_pay2 (blk1 V c 0 ⟨n + 1, hn⟩) (blk1 V c 1 ⟨n + 1, hn⟩) (accAt c n (Nat.lt_of_succ_lt hn))

/-- At the first tile of a batch the accumulator restarts from zero. -/
theorem accAt_reset (c : Dev nD) (t : Fin cfg1.N) (h : t.val % 4 = 0) :
    accAt V c t.val t.isLt = k1_pay2 (blk1 V c 0 t) (blk1 V c 1 t) (k1_pay1 (F := F)) := by
  obtain ⟨n, hn⟩ := t
  cases n with
  | zero => rfl
  | succ n => exact (if_pos h).trans rfl

/-- At any other tile it continues from what the point before left. -/
theorem accAt_step (c : Dev nD) (t : Fin cfg1.N) (h : t.val % 4 ≠ 0) :
    accAt V c t.val t.isLt
      = k1_pay2 (blk1 V c 0 t) (blk1 V c 1 t) (accAt V c (t.val - 1) (Nat.lt_of_le_of_lt (Nat.sub_le _ _) t.isLt)) := by
  obtain ⟨n, hn⟩ := t
  cases n with
  | zero => exact absurd (Nat.zero_mod 4) h
  | succ n => exact (if_neg h).trans rfl

/-- The region's invariant before position `n`: before the first point every scoped buffer that is no staging buffer
    of this call at some contents and the generator register at some state; afterwards the same with the accumulator's
    scratch buffer at what the point before left in it. -/
def Phi1 (c : Dev nD) : (n : ℕ) → n ≤ cfg1.N → sProp 𝕄
  | 0, _ => Pipeline.ΦA spec1 c
  | n + 1, hn => iprop((owns (c : Thread nD τ) accMem fullShare (accAt V c n hn)
      ∗ Pipeline.scopedRestBut (Ix := Unit) (Name := ℕ) (U := UR sig nD τ) (Lvl := ℕ) (Val := Elt F) spec1 c [cc1_scratch0])
      ∗ ∃ r, prngReg c r)

/-- The plain invariant with this call's scratch taken out of the scoped rest and owned, whole, at some contents:
    the form in which the body is handed the accumulator and takes it back. -/
theorem PhiA1_eq (c : Dev nD) :
    (Pipeline.ΦA spec1 c : sProp 𝕄)
      = iprop(((∃ d, owns (c : Thread nD τ) accMem fullShare d)
          ∗ Pipeline.scopedRestBut (Ix := Unit) (Name := ℕ) (U := UR sig nD τ) (Lvl := ℕ) (Val := Elt F) spec1 c [cc1_scratch0])
          ∗ ∃ r, prngReg c r) := by
  unfold Pipeline.ΦA
  rw [Pipeline.scopedRest_split_of_list spec1 c [cc1_scratch0] (by decide) (by decide)]
  simp only [bigSepL_singleton, accMem, owns_whole]
  rfl

/-- Before any position but the first the invariant has the scratch at what the point before left. -/
theorem Phi1_pos (c : Dev nD) (n : ℕ) (h : n ≤ cfg1.N) (hz : n ≠ 0) :
    Phi1 V c n h = iprop((owns (c : Thread nD τ) accMem fullShare (accAt V c (n - 1) (by omega))
      ∗ Pipeline.scopedRestBut (Ix := Unit) (Name := ℕ) (U := UR sig nD τ) (Lvl := ℕ) (Val := Elt F) spec1 c [cc1_scratch0])
      ∗ ∃ r, prngReg c r) := by
  cases n with
  | zero => exact absurd rfl hz
  | succ n => rfl

/-- The pipeline's proof data on core `c`: the arrays as the region finds them; after the body at point `t` each input
    buffer at its block and the output buffer at the closing product of the accumulator with the Woᵀ block (consulted
    only at the last tile of a batch, where the body stores it and the pipeline writes it back); the invariant `Phi1`;
    nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay3 (accAt V c t.val t.isLt) (blk1 V c 2 t)
  Φ t := Phi1 V c t.val (Nat.le_of_lt_succ t.isLt)
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) :
    (dat1 V c).after 3 t = k1_pay3 (accAt V c t.val t.isLt) (blk1 V c 2 t) := by dsimp only [dat1]

/-! ## The body's two conditions and the output window's idle table, over the grid -/

/-- "This is the first tile of its batch", as the body tests it on the tile coordinate. -/
abbrev firstTile (i : grid1.Coords) : Prop :=
  (Scalar.cmpi .ne (Scalar.extui (Scalar.cmpi .eq (BitVec.ofNat 32 (i 1).val) 0#32)) 0#32) = 1#1

/-- "This is the last tile of its batch". -/
abbrev lastTile (i : grid1.Coords) : Prop := k1_cond2 i = 1#1

/-- The points run through the tiles of a batch fastest: the first tile is met at the positions ≡ 0 (mod 4), -/
theorem firstTile_iff : ∀ t : Fin cfg1.N, firstTile (grid1.coords t) ↔ t.val % 4 = 0 :=
  (by decide +kernel : ∀ t : Fin grid1.N, firstTile (grid1.coords t) ↔ t.val % 4 = 0)

/-- the last at the positions ≡ 3 (mod 4). -/
theorem lastTile_iff : ∀ t : Fin cfg1.N, lastTile (grid1.coords t) ↔ t.val % 4 = 3 :=
  (by decide +kernel : ∀ t : Fin grid1.N, lastTile (grid1.coords t) ↔ t.val % 4 = 3)

/-- The output window is idle at every tile but the last, -/
theorem out_idle : ∀ t : Fin cfg1.N, t.val % 4 ≠ 3 → cfg1.idle 3 (grid1.coords t) = true :=
  (by decide +kernel : ∀ t : Fin grid1.N, t.val % 4 ≠ 3 → idle1 3 (grid1.coords t) = true)

/-- live at the last, -/
theorem out_live : ∀ t : Fin cfg1.N, t.val % 4 = 3 → cfg1.idle 3 (grid1.coords t) = false :=
  (by decide +kernel : ∀ t : Fin grid1.N, t.val % 4 = 3 → idle1 3 (grid1.coords t) = false)

/-- and its block is not written back before the last tile. -/
theorem out_kept (t : Fin cfg1.N) (h : t.val % 4 ≠ 3) : (cfg1.win 3).flush t = false := by
  cases hf : (cfg1.win 3).flush t
  · rfl
  · exact absurd ((flush1_3 t).mp hf) h

/-! ## The body on whole buffers, tile by tile -/

/-- The zero offsets of the whole-buffer rectangles the body loads and stores through, of rank two -/
theorem zeroOff2 : (![0, 0] : Fin 2 → ℕ) = fun _ => 0 := funext fun a => by fin_cases a <;> rfl
/-- and of rank three. -/
theorem zeroOff3 : (![0, 0, 0] : Fin 3 → ℕ) = fun _ => 0 := funext fun a => by fin_cases a <;> rfl

/-- A load through the rectangle that is the whole buffer reads the buffer's contents. -/
theorem readAt_whole {sp : Space} {S : Shape} {e : EltTy} (v : View sig .tc sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f := by
  rw [View.readAt_eq_ld, View.ld_unit_zero hz]

/-- After a store through the rectangle that is the whole buffer the buffer reads as the stored value, whatever it
    held and whatever was stored before. -/
theorem read_stored_whole {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨(⟨Rect.unit off S.size inb, w⟩ : View.Piece (Elt F) S e),
      List.mem_cons_self, View.mem_set_unit_zero hz inb y⟩), View.canon_cons_unit_zero hz]

/-- A MIDDLE tile (neither first nor last): one accumulation step. On whole buffers — K and V blocks `kb`, `vb`, the
    Woᵀ block and the output buffer at whatever they hold, the accumulator at `a` — the body runs to the same with
    the accumulator at `a + kbᵀ·vb`. -/
theorem run_middle (c : Dev nD) (i : grid1.Coords)
    (arg2 : Memref sig .tc .vmem S1x1024x1024 .bf16) (harg2 : arg2.IsWhole)
    (arg3 : Memref sig .tc .vmem S1x1024x1024 .bf16) (harg3 : arg3.IsWhole)
    (arg4 : Memref sig .tc .vmem S1024x1024 .bf16) (harg4 : arg4.IsWhole)
    (arg5 : Memref sig .tc .vmem S1x1024x1024 .bf16) (harg5 : arg5.IsWhole)
    (arg6 : Memref sig .tc .vmem S1024x1024 .f32) (harg6 : arg6.IsWhole)
    (hfirst : ¬firstTile i) (hlast : ¬lastTile i)
    (kb vb : Vec F S1x1024x1024 .bf16) (wo : Vec F S1024x1024 .bf16) (o : Vec F S1x1024x1024 .bf16)
    (a : Vec F S1024x1024 .f32) (E : Set ℕ) (K : PUnit → sProp 𝕄) :
    iprop(owns (c : Thread nD τ) arg2 fullShare kb ∗ owns (c : Thread nD τ) arg3 fullShare vb
        ∗ owns (c : Thread nD τ) arg4 fullShare wo ∗ owns (c : Thread nD τ) arg5 fullShare o
        ∗ owns (c : Thread nD τ) arg6 fullShare a
        ∗ (iprop(owns (c : Thread nD τ) arg2 fullShare kb ∗ owns (c : Thread nD τ) arg3 fullShare vb
            ∗ owns (c : Thread nD τ) arg4 fullShare wo ∗ owns (c : Thread nD τ) arg5 fullShare o
            ∗ owns (c : Thread nD τ) arg6 fullShare (k1_pay2 kb vb a)) -∗ K ⟨⟩))
      ⊢ wp frame (wpE (defs₀ (F := F)) Variants.none c none) E
          (cc1__kv_kernel i arg2 harg2 arg3 harg3 arg4 harg4 arg5 harg5 arg6 harg6) K := by
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_unfold [cc1__kv_kernel]
  sl_exec (disch := first | exact hfirst | exact hlast)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr; swap; · iexact H6
  ipureintro
  rw [read_stored_whole _ _ zeroOff2]
  simp only [readAt_whole (S := S1x1024x1024) _ _ zeroOff3, readAt_whole (S := S1024x1024) _ _ zeroOff2, hf2, hf3, hf6]

/-- The FIRST tile of a batch: the accumulator is reset, then takes one step. Whatever the accumulator held (`a₀`),
    the body leaves it at `0 + kbᵀ·vb`; the output buffer is not touched. -/
theorem run_first (c : Dev nD) (i : grid1.Coords)
    (arg2 : Memref sig .tc .vmem S1x1024x1024 .bf16) (harg2 : arg2.IsWhole)
    (arg3 : Memref sig .tc .vmem S1x1024x1024 .bf16) (harg3 : arg3.IsWhole)
    (arg4 : Memref sig .tc .vmem S1024x1024 .bf16) (harg4 : arg4.IsWhole)
    (arg5 : Memref sig .tc .vmem S1x1024x1024 .bf16) (harg5 : arg5.IsWhole)
    (arg6 : Memref sig .tc .vmem S1024x1024 .f32) (harg6 : arg6.IsWhole)
    (hfirst : firstTile i) (hlast : ¬lastTile i)
    (kb vb : Vec F S1x1024x1024 .bf16) (wo : Vec F S1024x1024 .bf16) (o : Vec F S1x1024x1024 .bf16)
    (a₀ : Vec F S1024x1024 .f32) (E : Set ℕ) (K : PUnit → sProp 𝕄) :
    iprop(owns (c : Thread nD τ) arg2 fullShare kb ∗ owns (c : Thread nD τ) arg3 fullShare vb
        ∗ owns (c : Thread nD τ) arg4 fullShare wo ∗ owns (c : Thread nD τ) arg5 fullShare o
        ∗ owns (c : Thread nD τ) arg6 fullShare a₀
        ∗ (iprop(owns (c : Thread nD τ) arg2 fullShare kb ∗ owns (c : Thread nD τ) arg3 fullShare vb
            ∗ owns (c : Thread nD τ) arg4 fullShare wo ∗ owns (c : Thread nD τ) arg5 fullShare o
            ∗ owns (c : Thread nD τ) arg6 fullShare (k1_pay2 kb vb (k1_pay1 (F := F)))) -∗ K ⟨⟩))
      ⊢ wp frame (wpE (defs₀ (F := F)) Variants.none c none) E
          (cc1__kv_kernel i arg2 harg2 arg3 harg3 arg4 harg4 arg5 harg5 arg6 harg6) K := by
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_unfold [cc1__kv_kernel]
  sl_exec (disch := first | exact hfirst | exact hlast)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr; swap; · iexact H6
  ipureintro
  sl_unfold_words
  rw [read_stored_whole _ _ zeroOff2]
  simp only [readAt_whole (S := S1x1024x1024) _ _ zeroOff3, hf2, hf3, View.readCov_unit_zero (S := S1024x1024) _ zeroOff2]

/-- The LAST tile of a batch: one accumulation step, then the finished sum times the Woᵀ block goes to the output
    buffer, whatever that held (`o₀`). -/
theorem run_last (c : Dev nD) (i : grid1.Coords)
    (arg2 : Memref sig .tc .vmem S1x1024x1024 .bf16) (harg2 : arg2.IsWhole)
    (arg3 : Memref sig .tc .vmem S1x1024x1024 .bf16) (harg3 : arg3.IsWhole)
    (arg4 : Memref sig .tc .vmem S1024x1024 .bf16) (harg4 : arg4.IsWhole)
    (arg5 : Memref sig .tc .vmem S1x1024x1024 .bf16) (harg5 : arg5.IsWhole)
    (arg6 : Memref sig .tc .vmem S1024x1024 .f32) (harg6 : arg6.IsWhole)
    (hfirst : ¬firstTile i) (hlast : lastTile i)
    (kb vb : Vec F S1x1024x1024 .bf16) (wo : Vec F S1024x1024 .bf16) (o₀ : Vec F S1x1024x1024 .bf16)
    (a : Vec F S1024x1024 .f32) (E : Set ℕ) (K : PUnit → sProp 𝕄) :
    iprop(owns (c : Thread nD τ) arg2 fullShare kb ∗ owns (c : Thread nD τ) arg3 fullShare vb
        ∗ owns (c : Thread nD τ) arg4 fullShare wo ∗ owns (c : Thread nD τ) arg5 fullShare o₀
        ∗ owns (c : Thread nD τ) arg6 fullShare a
        ∗ (iprop(owns (c : Thread nD τ) arg2 fullShare kb ∗ owns (c : Thread nD τ) arg3 fullShare vb
            ∗ owns (c : Thread nD τ) arg4 fullShare wo
            ∗ owns (c : Thread nD τ) arg5 fullShare (k1_pay3 (k1_pay2 kb vb a) wo)
            ∗ owns (c : Thread nD τ) arg6 fullShare (k1_pay2 kb vb a)) -∗ K ⟨⟩))
      ⊢ wp frame (wpE (defs₀ (F := F)) Variants.none c none) E
          (cc1__kv_kernel i arg2 harg2 arg3 harg3 arg4 harg4 arg5 harg5 arg6 harg6) K := by
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_unfold [cc1__kv_kernel]
  sl_exec (disch := first | exact hfirst | exact hlast)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  have hacc : View.read (Elt F) arg6.view (arg6.view.writes (Elt F) (harg6.unread a)
      (run_last.sl.H6_1 c arg2 harg2 arg3 harg3 arg6 harg6 kb vb a)) = k1_pay2 kb vb a := by
    sl_unfold_words
    rw [read_stored_whole _ _ zeroOff2]
    simp only [readAt_whole (S := S1x1024x1024) _ _ zeroOff3, readAt_whole (S := S1024x1024) _ _ zeroOff2, hf2, hf3, hf6]
  isplitl [H5]
  · iexists _; isplitr; swap; · iexact H5
    ipureintro
    rw [read_stored_whole _ _ zeroOff3]
    sl_unfold_words
    simp only [View.readCov_unit_zero (S := S1024x1024) _ zeroOff2, readAt_whole (S := S1x1024x1024) _ _ zeroOff3,
      readAt_whole (S := S1024x1024) _ _ zeroOff2, hf2, hf3, hf4, hf6]
  iexists _; isplitr; swap; · iexact H6
  ipureintro
  exact hacc

/-! ## The windows' buffers at a point -/

/-- An input window's current buffer holds the window's block at every point, fetched there or not: the body leaves
    the block in place, the window is never idle, and where the pipeline does not fetch, the block has not moved.
    The K blocks, -/
theorem before1_0 (c : Dev nD) (t : Fin cfg1.N) (d) : (dat1 V c).before 0 t d = blk1 V c 0 t :=
  ((dat1 V c).before_in_eq_fetched 0 rfl (fun _ => rfl) (fun _ _ _ => rfl)
      (fun t => by rw [dat1_after_0]; unfold Dat.blockOf blk1; rw [dat1_A]) t d).trans
    (by unfold Dat.fetched Dat.blockOf blk1; rw [dat1_A]; rfl)

/-- the V blocks, -/
theorem before1_1 (c : Dev nD) (t : Fin cfg1.N) (d) : (dat1 V c).before 1 t d = blk1 V c 1 t :=
  ((dat1 V c).before_in_eq_fetched 1 rfl (fun _ => rfl) (fun _ _ _ => rfl)
      (fun t => by rw [dat1_after_1]; unfold Dat.blockOf blk1; rw [dat1_A]) t d).trans
    (by unfold Dat.fetched Dat.blockOf blk1; rw [dat1_A]; rfl)

/-- and Woᵀ, one block fetched once. -/
theorem before1_2 (c : Dev nD) (t : Fin cfg1.N) (d) : (dat1 V c).before 2 t d = blk1 V c 2 t :=
  ((dat1 V c).before_in_eq_fetched 2 rfl (fun _ => rfl) (fun _ _ _ => rfl)
      (fun t => by rw [dat1_after_2]; unfold Dat.blockOf blk1; rw [dat1_A]) t d).trans
    (by unfold Dat.fetched Dat.blockOf blk1; rw [dat1_A]; rfl)

/-- The body hands each input buffer back at its block (no input window is ever idle): K, -/
theorem leaves1_0 (c : Dev nD) (t : Fin cfg1.N) :
    (dat1 V c).leavesExact 0 t = owns (c : Thread nD τ) (st1_0 t) fullShare (blk1 V c 0 t) := by
  unfold Dat.leavesExact; rw [show cfg1.idle 0 (cfg1.grid.coords t) = false from rfl, dat1_after_0]

/-- V, -/
theorem leaves1_1 (c : Dev nD) (t : Fin cfg1.N) :
    (dat1 V c).leavesExact 1 t = owns (c : Thread nD τ) (st1_1 t) fullShare (blk1 V c 1 t) := by
  unfold Dat.leavesExact; rw [show cfg1.idle 1 (cfg1.grid.coords t) = false from rfl, dat1_after_1]

/-- Woᵀ. -/
theorem leaves1_2 (c : Dev nD) (t : Fin cfg1.N) :
    (dat1 V c).leavesExact 2 t = owns (c : Thread nD τ) (st1_2 t) fullShare (blk1 V c 2 t) := by
  unfold Dat.leavesExact; rw [show cfg1.idle 2 (cfg1.grid.coords t) = false from rfl, dat1_after_2]

/-- At the last tile of a batch the output buffer is handed back at the closing product. -/
theorem leaves1_3_last (c : Dev nD) (t : Fin cfg1.N) (h : t.val % 4 = 3) :
    (dat1 V c).leavesExact 3 t
      = owns (c : Thread nD τ) (st1_3 t) fullShare (k1_pay3 (accAt V c t.val t.isLt) (blk1 V c 2 t)) := by
  unfold Dat.leavesExact; rw [out_live t h, dat1_after_3]

/-- Whatever the position, the invariant holds the scratch at SOME contents: before the first point by the plain
    invariant, afterwards by forgetting what the point before left. -/
theorem Phi1_some (c : Dev nD) (n : ℕ) (h : n ≤ cfg1.N) :
    Phi1 V c n h ⊢ iprop(((∃ d, owns (c : Thread nD τ) accMem fullShare d) ∗ Pipeline.scopedRestBut (Ix := Unit) (Name := ℕ) (U := UR sig nD τ) (Lvl := ℕ) (Val := Elt F) spec1 c [cc1_scratch0]) ∗ ∃ r, prngReg c r) := by
  cases n with
  | zero => exact Entails.of_eq (PhiA1_eq c)
  | succ n =>
    rw [Phi1_pos V c (n + 1) h (Nat.succ_ne_zero n)]
    iintro ⟨⟨Hacc, Hrest⟩, Hg⟩
    isplitr [Hg]
    · isplitl [Hacc]
      · iexists _; iexact Hacc
      iexact Hrest
    iexact Hg

/-! ## The body's obligation -/

/-- What the body is handed at point `t`: the invariant, nothing owed, and the four windows' current buffers, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

/-- The body at any point. The three input buffers hold the point's K, V and Woᵀ blocks. By the tile the point is
    on: at a FIRST tile the scratch is taken at whatever it holds and comes back at one step from zero; at a MIDDLE
    tile it is taken at what the point before left and comes back one step further; at a LAST tile likewise, and the
    output buffer comes back at the closing product. Before the last tile the output window is idle and its buffer
    goes back as it came. The other scoped buffers, the generator register and the (empty) debts pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [leaves1_0, leaves1_1, leaves1_2]
  rw [show (dat1 V c).owesAt () t.succ = (dat1 V c).owesAt () t.castSucc from rfl]
  rw [show (dat1 V c).Φ t.succ = iprop((owns (c : Thread nD τ) accMem fullShare (accAt V c t.val t.isLt)
      ∗ Pipeline.scopedRestBut (Ix := Unit) (Name := ℕ) (U := UR sig nD τ) (Lvl := ℕ) (Val := Elt F) spec1 c [cc1_scratch0]) ∗ ∃ r, prngReg c r) from rfl]
  rw [show (dat1 V c).Φ t.castSucc = Phi1 V c t.val (Nat.le_of_lt t.isLt) from rfl]
  by_cases h0 : t.val % 4 = 0
  · have h3 : t.val % 4 ≠ 3 := by omega
    rw [Dat.leavesExact_idle (dat1 V c) 3 t (out_idle t h3) (out_kept t h3), accAt_reset V c t h0]
    iintro ⟨Hinv, Ho, ⟨%d0, H0⟩, ⟨%d1, H1⟩, ⟨%d2, H2⟩, ⟨%d3, H3⟩⟩
    icases (Phi1_some V c _ _) $$ Hinv with ⟨⟨⟨%a₀, Hacc⟩, Hrest⟩, Hg⟩
    iapply (run_first c (grid1.coords t) _ _ _ _ _ _ _ _ _ _ ((firstTile_iff t).mpr h0)
      (fun h => h3 ((lastTile_iff t).mp h)) (blk1 V c 0 t) (blk1 V c 1 t) (blk1 V c 2 t) _ a₀ Set.univ _)
    isplitl [H0]; · iexact H0
    isplitl [H1]; · iexact H1
    isplitl [H2]; · iexact H2
    isplitl [H3]; · iexact H3
    isplitl [Hacc]; · iexact Hacc
    iintro ⟨H0, H1, H2, H3, Hacc⟩
    isplitl [Hacc Hrest Hg]
    · isplitr [Hg]
      · isplitl [Hacc]; · iexact Hacc
        iexact Hrest
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [accAt_step V c t h0, Phi1_pos V c _ _ hz]
    by_cases h3 : t.val % 4 = 3
    · rw [leaves1_3_last V c t h3, accAt_step V c t h0]
      iintro ⟨⟨⟨Hacc, Hrest⟩, Hg⟩, Ho, ⟨%d0, H0⟩, ⟨%d1, H1⟩, ⟨%d2, H2⟩, ⟨%d3, H3⟩⟩
      iapply (run_last c (grid1.coords t) _ _ _ _ _ _ _ _ _ _ (fun h => h0 ((firstTile_iff t).mp h))
        ((lastTile_iff t).mpr h3) (blk1 V c 0 t) (blk1 V c 1 t) (blk1 V c 2 t) _ _ Set.univ _)
      isplitl [H0]; · iexact H0
      isplitl [H1]; · iexact H1
      isplitl [H2]; · iexact H2
      isplitl [H3]; · iexact H3
      isplitl [Hacc]; · iexact Hacc
      iintro ⟨H0, H1, H2, H3, Hacc⟩
      isplitl [Hacc Hrest Hg]
      · isplitr [Hg]
        · isplitl [Hacc]; · iexact Hacc
          iexact Hrest
        iexact Hg
      isplitl [Ho]; · iexact Ho
      isplitl [H0]; · iexact H0
      isplitl [H1]; · iexact H1
      isplitl [H2]; · iexact H2
      iexact H3
    · rw [Dat.leavesExact_idle (dat1 V c) 3 t (out_idle t h3) (out_kept t h3)]
      iintro ⟨⟨⟨Hacc, Hrest⟩, Hg⟩, Ho, ⟨%d0, H0⟩, ⟨%d1, H1⟩, ⟨%d2, H2⟩, ⟨%d3, H3⟩⟩
      iapply (run_middle c (grid1.coords t) _ _ _ _ _ _ _ _ _ _ (fun h => h0 ((firstTile_iff t).mp h))
        (fun h => h3 ((lastTile_iff t).mp h)) (blk1 V c 0 t) (blk1 V c 1 t) (blk1 V c 2 t) _ _ Set.univ _)
      isplitl [H0]; · iexact H0
      isplitl [H1]; · iexact H1
      isplitl [H2]; · iexact H2
      isplitl [H3]; · iexact H3
      isplitl [Hacc]; · iexact Hacc
      iintro ⟨H0, H1, H2, H3, Hacc⟩
      isplitl [Hacc Hrest Hg]
      · isplitr [Hg]
        · isplitl [Hacc]; · iexact Hacc
          iexact Hrest
        iexact Hg
      isplitl [Ho]; · iexact Ho
      isplitl [H0]; · iexact H0
      isplitl [H1]; · iexact H1
      isplitl [H2]; · iexact H2
      iexists _; iexact H3

/-- The body's obligation at every point of the grid. -/
theorem body1 (c : Dev nD) : BodyObligation (dat1 (F := F) V c) (defs₀ (F := F)) Variants.none () Set.univ := fun t => by
  rw [bigSep_W1, bigSep_W1]
  exact sound_body V c t

/-- What the launch hands the region is the invariant before the first point. -/
theorem phi1_in (c : Dev nD) : Pipeline.ΦA spec1 c ⊢ (dat1 V c).Φ 0 := by
  rw [show (dat1 V c).Φ 0 = Phi1 V c 0 (Nat.zero_le _) from rfl]
  exact Entails.rfl

/-- After the last point the invariant gives the plain one back: what the scratch holds is forgotten. -/
theorem phi1_out (c : Dev nD) : (dat1 V c).Φ (Fin.last cfg1.N) ⊢ Pipeline.ΦA spec1 c := by
  rw [show (dat1 V c).Φ (Fin.last cfg1.N) = Phi1 V c cfg1.N (Nat.le_refl _) from rfl,
    Phi1_pos V c _ _ (by have : cfg1.N = 16 := N_1; omega), PhiA1_eq]
  iintro ⟨⟨Hacc, Hrest⟩, Hg⟩
  isplitr [Hg]
  · isplitl [Hacc]
    · iexists _; iexact Hacc
    iexact Hrest
  iexact Hg

end Cert.KernelIdeal.Fr

end
-- ==== Proof.KI.Reg2.lean ====
/-
  The third pallas_call (the output projection Q·M + bo) as a pipeline region, at any float values.

  Each of its 16 grid points (4 batches × 4 row tiles) takes a tile of 1024 rows of Q of one batch, that batch's whole
  matrix M and the whole output bias, and stores one tile of 1024 rows of the result. Nothing is carried from one point
  to the next. Stated here, at a PARAMETER `V` (the buffers' contents when the region is entered): the block of each
  window at a point, what the body leaves in the output tile, the proof data, and the body's obligation.
-/
import proofs.«176229_j4294967296116_1_alg».proof.Proof.Gen.KernelIdeal.Launch
import proofs.«176229_j4294967296116_1_alg».proof.Proof.Gen.KernelIdeal.Skeleton
import proofs.«176229_j4294967296116_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole of a one-batch tile and of the bias: the rectangles the body loads and stores. -/
abbrev rTile2 : Rect S1x1024x1024 := Rect.unit (s := S1x1024x1024) ![0, 0, 0] S1x1024x1024.size inb_S1x1024x1024_S1x1024x1024_0_0_0
abbrev rB2 : Rect S1024 := Rect.unit (s := S1024) ![0] S1024.size inb_S1024_S1024_0

/-- What the body leaves in the output tile's buffer, from the three input blocks: its one whole-tile store. -/
def oOut2 (q : Vec F S1x1024x1024 .bf16) (mm : Vec F S1x1024x1024 .bf16) (b : Vec F S1024 .f32) : Vec F S1x1024x1024 .f32 :=
  View.canon [⟨rTile2, k2_pay1 (View.ld q rTile2) (View.ld mm rTile2) (View.ld b rB2)⟩]

/-- The pipeline's proof data on core `c`: the arrays as the region finds them; after the body at point `t` each input
    buffer at its block and the output buffer at the output tile of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => oOut2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) :
    (dat2 V c).after 3 t = oOut2 (blk2 V c 0 t) (blk2 V c 1 t) (blk2 V c 2 t) := by dsimp only [dat2]

/-! ## What the three input buffers hold when the body is called

The Q tile changes at every point, the matrix M only when the batch changes (every fourth point) and the bias never
after the first point. Whichever it is, the buffer the body is handed holds the window's block of THAT point: where the
pipeline did not fetch, the block index stood still, and the body left the previous block untouched. None of the three
windows is cut at its array's end and none is ever idle. -/

/-- The Q tile's buffer holds rows `1024·j … 1024·j+1023` of batch `b` of Q at point `(b, j)`. -/
theorem holdsQ (c : Dev nD) (t : Fin cfg2.N) (d) : (dat2 V c).before 0 t d = blk2 V c 0 t := by
  have hkeep : ∀ s, (cfg2.win 0).cut (cfg2.grid.coords s) ((dat2 V c).after 0 s) = (dat2 V c).blockOf 0 s := by
    intro s; rw [dat2_after_0]; unfold Dat.blockOf blk2; rw [dat2_A]
  rw [(dat2 V c).before_in_eq_fetched 0 rfl (fun _ => rfl) (fun _ _ _ => rfl) hkeep t d]
  unfold Dat.fetched Dat.blockOf blk2; rw [dat2_A]; rfl

/-- The matrix's buffer holds batch `b`'s whole M at point `(b, j)`, for every row tile `j`. -/
theorem holdsM (c : Dev nD) (t : Fin cfg2.N) (d) : (dat2 V c).before 1 t d = blk2 V c 1 t := by
  have hkeep : ∀ s, (cfg2.win 1).cut (cfg2.grid.coords s) ((dat2 V c).after 1 s) = (dat2 V c).blockOf 1 s := by
    intro s; rw [dat2_after_1]; unfold Dat.blockOf blk2; rw [dat2_A]
  rw [(dat2 V c).before_in_eq_fetched 1 rfl (fun _ => rfl) (fun _ _ _ => rfl) hkeep t d]
  unfold Dat.fetched Dat.blockOf blk2; rw [dat2_A]; rfl

/-- The bias's buffer holds the whole bias at every point. -/
theorem holdsBias (c : Dev nD) (t : Fin cfg2.N) (d) : (dat2 V c).before 2 t d = blk2 V c 2 t := by
  have hkeep : ∀ s, (cfg2.win 2).cut (cfg2.grid.coords s) ((dat2 V c).after 2 s) = (dat2 V c).blockOf 2 s := by
    intro s; rw [dat2_after_2]; unfold Dat.blockOf blk2; rw [dat2_A]
  rw [(dat2 V c).before_in_eq_fetched 2 rfl (fun _ => rfl) (fun _ _ _ => rfl) hkeep t d]
  unfold Dat.fetched Dat.blockOf blk2; rw [dat2_A]; rfl

/-! ## The kernel function on its four buffers -/

/-- The one store writes the whole `1×1024×1024` tile, so every position of the output buffer is written by it:
    nothing of the buffer's earlier contents survives. -/
theorem outTile_covered (p : Vec F S1x1024x1024 .f32) (y : S1x1024x1024.Idx) :
    ∃ pc ∈ ([⟨rTile2, p⟩] : List (View.Piece (Elt F) S1x1024x1024 .f32)), y ∈ pc.1.set :=
  View.cover_of_tiled [⟨rTile2, p⟩] S1x1024x1024.size (by rfl) y

set_option maxHeartbeats 1000000 in
/-- Run on whole buffers holding a Q tile `q`, a matrix `mm` and a bias `b`, and an output buffer holding anything,
    the kernel function reads the three inputs whole, reads the output buffer once without using what it read, and
    stores `q·mm + b` (the payload, never opened here) over the whole output buffer. The inputs are returned as they
    were; the output buffer is returned at `oOut2 q mm b`, whatever it held. The grid coordinates are not read. -/
theorem out_kernel_runs (c : Dev nD) (E : Set ℕ) (i : grid2.Coords)
    (aQ : Memref sig .tc .vmem S1x1024x1024 .bf16) (hQ : aQ.IsWhole)
    (aM : Memref sig .tc .vmem S1x1024x1024 .bf16) (hM : aM.IsWhole)
    (aB : Memref sig .tc .vmem S1024 .f32) (hB : aB.IsWhole)
    (aO : Memref sig .tc .vmem S1x1024x1024 .f32) (hO : aO.IsWhole)
    (q mm : Vec F S1x1024x1024 .bf16) (b : Vec F S1024 .f32) (K : PUnit → sProp 𝕄) :
    iprop(owns (c : Thread nD τ) aQ fullShare q ∗ owns (c : Thread nD τ) aM fullShare mm
        ∗ owns (c : Thread nD τ) aB fullShare b ∗ (∃ d, owns (c : Thread nD τ) aO fullShare d)
        ∗ (iprop(owns (c : Thread nD τ) aQ fullShare q ∗ owns (c : Thread nD τ) aM fullShare mm
            ∗ owns (c : Thread nD τ) aB fullShare b ∗ owns (c : Thread nD τ) aO fullShare (oOut2 q mm b)) -∗ K ⟨⟩))
      ⊢ wp frame (wpE (defs₀ (F := F)) Variants.none c none) E (cc2__out_kernel i aQ hQ aM hM aB hB aO hO) K := by
  simp only [cc2__out_kernel_eq_skeleton]; unfold cc2__out_kernel_skel
  unfold owns
  iintro ⟨⟨%fq, %hfq, Hq⟩, ⟨%fm, %hfm, Hm⟩, ⟨%fb, %hfb, Hb⟩, ⟨%d, %fo, -, Ho⟩, Hk⟩
  subst hfq; subst hfm; subst hfb
  sl_exec
  sl_step
  iapply Hk
  isplitl [Hq]
  · iexists fq; isplitr
    · ipureintro; rfl
    · iexact Hq
  isplitl [Hm]
  · iexists fm; isplitr
    · ipureintro; rfl
    · iexact Hm
  isplitl [Hb]
  · iexists fb; isplitr
    · ipureintro; rfl
    · iexact Hb
  -- the output buffer: first its cells (this fixes the contents the store left), then that they read as `oOut2`
  iexists _; isplitr
  swap
  · iexact Ho
  ipureintro
  exact View.read_writes_eq_canon _ _ _ (outTile_covered _)

/-! ## The obligation at one point -/

/-- What the pipeline hands the body at point `t`: the region's invariant, the core's tally of what is owed, and the
    current staging buffer of each of the four windows (Q tile, matrix, bias, output tile). -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body hands back: the same invariant and tally one point on, each buffer at what the proof data names. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the three input buffers hold that point's blocks, so the kernel function's triple applies with
    `q, mm, b` those blocks; what the output buffer held before (a stale tile of an earlier point, or nothing yet) does
    not matter. The invariant and the tally do not depend on the point and are carried over the call unread. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [holdsQ, holdsM, holdsBias]
  rw [show (dat2 V c).Φ t.succ = (dat2 V c).Φ t.castSucc from rfl,
    show (dat2 V c).owesAt () t.succ = (dat2 V c).owesAt () t.castSucc from rfl,
    dat2_after_0, dat2_after_1, dat2_after_2, dat2_after_3]
  iintro ⟨HΦ, Howe, ⟨%dq, Hq⟩, ⟨%dm, Hm⟩, ⟨%db, Hb⟩, ⟨%dO, Ho⟩⟩
  iapply (out_kernel_runs c Set.univ _ _ _ _ _ _ _ _ _ (blk2 V c 0 t) (blk2 V c 1 t) (blk2 V c 2 t) _)
  isplitl [Hq]; · iexact Hq
  isplitl [Hm]; · iexact Hm
  isplitl [Hb]; · iexact Hb
  isplitl [Ho]; · iexists _; iexact Ho
  iintro ⟨Hq, Hm, Hb, Ho⟩
  isplitl [HΦ]; · iexact HΦ
  isplitl [Howe]; · iexact Howe
  isplitl [Hq]; · iexact Hq
  isplitl [Hm]; · iexact Hm
  isplitl [Hb]; · iexact Hb
  iexact Ho

/-- The body's obligation at every point of the grid. -/
theorem body2 (c : Dev nD) : BodyObligation (dat2 (F := F) V c) (defs₀ (F := F)) Variants.none () Set.univ := fun t => by
  rw [bigSep_W2, bigSep_W2]
  exact body2_at V c t

end Cert.KernelIdeal.Fr

end
-- ==== Proof.KI.Run.lean ====
/-
  The run of the kernel program's @main, at any float values.

  @main has five items: a stretch of nine host operations (a reshape of the input, the transposes of the four weight
  matrices, the fusion of three of them and of the three biases, two roundings to bf16), the fused Q/K/V projection,
  a stretch of three reshapes, the per-batch matrix M = (Kᵀ·V)·Woᵀ, and the output Q·M + bias. Between two items a
  core holds every unscoped buffer at contents that are a FUNCTION of the launch memory: a host stretch applies its
  operations to the contents before it, a pallas_call replaces its windows' arrays by what its write-backs leave and
  changes nothing else. Named here: those contents at the six boundaries, the run of @main ending at the last of
  them, and two readings of it: every argument array ends as launched, and the result array ends at what the last
  pallas_call's write-backs leave.
-/
import proofs.«176229_j4294967296116_1_alg».proof.Proof.KI.Reg0
import proofs.«176229_j4294967296116_1_alg».proof.Proof.KI.Reg1
import proofs.«176229_j4294967296116_1_alg».proof.Proof.KI.Reg2
import proofs.«176229_j4294967296116_1_alg».proof.Proof.Gen.KernelIdeal.Launch
import proofs.«176229_j4294967296116_1_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers' contents at the six boundaries -/

/-- At launch: the memory's. -/
abbrev W0 : Dev nD → Valuation τ sig (Elt F) := fun c b => m (c, b)
/-- After the nine host operations: the first pallas_call's entry. -/
abbrev W1 : Dev nD → Valuation τ sig (Elt F) := fun c => StableHlo.after hostOps0 (W0 m c)
/-- The same, at the TensorCore's references: the parameter the first pallas_call's data are stated at. -/
abbrev V1 : (c : Dev nD) → (b : Ref sig .tc) → Buf (Elt F) ((c : Thread nD τ).loc b) := fun c b => W1 m c b
/-- After the first pallas_call: its six arrays at what its write-backs leave, every other buffer as before. -/
def W2 (c : Dev nD) : Valuation τ sig (Elt F) :=
  Pipeline.withArrays spec0 c (W1 m c) fun w => (dat0 (V1 m) c).arrAt w cfg0.N
/-- After the three reshapes: the second pallas_call's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second pallas_call: the third's entry. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third pallas_call: the final contents. -/
def W5 (c : Dev nD) : Valuation τ sig (Elt F) :=
  Pipeline.withArrays spec2 c (W4 m c) fun w => (dat2 (V4 m) c).arrAt w cfg2.N

/-! A pallas_call's exit contents read at one of its arrays, and at any other buffer. -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

/-- A buffer that is no array of a pallas_call is off the image of its windows' arrays. -/
theorem ne_of_not_mem_image {W gr : ℕ} {win : Fin W → Pipeline.WinSpec sig gr} {b : Ref sig .tc}
    (hb : b ∉ Finset.univ.image (Pipeline.arrRef win)) (w : Fin W) : Pipeline.arrRef win w ≠ b :=
  fun e => hb (Finset.mem_image.mpr ⟨w, Finset.mem_univ _, e⟩)

/-! ### Every argument ends as launched

No host operation writes an argument (each writes one of the intermediate buffers), and no pallas_call has an argument
among its output windows' arrays: the only argument that is a window's array at all is the output bias, an INPUT window
of the last pallas_call, which the pipeline leaves as it found it. So the contents at an argument walk back through
the five items to the launch memory. -/

/-- Through the two host stretches and the first two pallas_calls, for a buffer none of them writes. -/
theorem W4_back (c : Dev nD) (b : Ref sig .tc) (h0 : b ∉ hostOps0_W) (h1 : b ∉ hostOps1_W)
    (hs0 : ∀ w, Pipeline.arrRef spec0 w ≠ b) (hs1 : ∀ w, Pipeline.arrRef spec1 w ≠ b) :
    W4 m c (Proc.devRef .tc b) = m ((c : Thread nD τ).loc b) :=
  calc W4 m c (Proc.devRef .tc b)
    _ = W3 m c (Proc.devRef .tc b) := W4_of_ne m c b hs1
    _ = W2 m c (Proc.devRef .tc b) := StableHlo.after_of_writes_sub hostOps1 _ hostOps1_writes h1
    _ = W1 m c (Proc.devRef .tc b) := W2_of_ne m c b hs0
    _ = W0 m c (Proc.devRef .tc b) := StableHlo.after_of_writes_sub hostOps0 _ hostOps0_writes h0
    _ = m ((c : Thread nD τ).loc b) := rfl

theorem W5_main_arg0 (c : Dev nD) : W5 m c (Proc.devRef .tc main_arg0) = m ((c : Thread nD τ).loc main_arg0) :=
  (W5_of_ne m c main_arg0 (by decide)).trans (W4_back m c main_arg0 (by decide) (by decide) (by decide) (by decide))
theorem W5_main_arg1 (c : Dev nD) : W5 m c (Proc.devRef .tc main_arg1) = m ((c : Thread nD τ).loc main_arg1) :=
  (W5_of_ne m c main_arg1 (by decide)).trans (W4_back m c main_arg1 (by decide) (by decide) (by decide) (by decide))
theorem W5_main_arg2 (c : Dev nD) : W5 m c (Proc.devRef .tc main_arg2) = m ((c : Thread nD τ).loc main_arg2) :=
  (W5_of_ne m c main_arg2 (by decide)).trans (W4_back m c main_arg2 (by decide) (by decide) (by decide) (by decide))
theorem W5_main_arg3 (c : Dev nD) : W5 m c (Proc.devRef .tc main_arg3) = m ((c : Thread nD τ).loc main_arg3) :=
  (W5_of_ne m c main_arg3 (by decide)).trans (W4_back m c main_arg3 (by decide) (by decide) (by decide) (by decide))
theorem W5_main_arg4 (c : Dev nD) : W5 m c (Proc.devRef .tc main_arg4) = m ((c : Thread nD τ).loc main_arg4) :=
  (W5_of_ne m c main_arg4 (by decide)).trans (W4_back m c main_arg4 (by decide) (by decide) (by decide) (by decide))
theorem W5_main_arg5 (c : Dev nD) : W5 m c (Proc.devRef .tc main_arg5) = m ((c : Thread nD τ).loc main_arg5) :=
  (W5_of_ne m c main_arg5 (by decide)).trans (W4_back m c main_arg5 (by decide) (by decide) (by decide) (by decide))
theorem W5_main_arg6 (c : Dev nD) : W5 m c (Proc.devRef .tc main_arg6) = m ((c : Thread nD τ).loc main_arg6) :=
  (W5_of_ne m c main_arg6 (by decide)).trans (W4_back m c main_arg6 (by decide) (by decide) (by decide) (by decide))
theorem W5_main_arg7 (c : Dev nD) : W5 m c (Proc.devRef .tc main_arg7) = m ((c : Thread nD τ).loc main_arg7) :=
  (W5_of_ne m c main_arg7 (by decide)).trans (W4_back m c main_arg7 (by decide) (by decide) (by decide) (by decide))
/-- The output bias is the last pallas_call's third window, an input: read through that window it is the entry contents. -/
theorem W5_main_arg8 (c : Dev nD) : W5 m c (Proc.devRef .tc main_arg8) = m ((c : Thread nD τ).loc main_arg8) :=
  calc W5 m c (Proc.devRef .tc main_arg8)
    _ = (dat2 (V4 m) c).arrAt 2 cfg2.N := W5_arr m c 2
    _ = (dat2 (V4 m) c).A 2 := (dat2 (V4 m) c).arrAt_in 2 rfl _
    _ = W4 m c (Proc.devRef .tc main_arg8) := dat2_A (V4 m) c 2
    _ = m ((c : Thread nD τ).loc main_arg8) := W4_back m c main_arg8 (by decide) (by decide) (by decide) (by decide)

/-! ## The proof data, and what a core holds between two items -/

/-- No pallas_call has a prefetched table. -/
abbrev adm : (p : Fin 3) → (pcfgs (F := F) p).Adm := fun p => (cfgs p).toPCfg_adm
/-- Each pallas_call's proof data at the contents it is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
abbrev 𝒱₀ : Variants := Variants.none
/-- No core waits for another: no level is assigned. -/
abbrev L : GSem nD τ sig → Finset Unit := fun _ => ∅
abbrev lv : GSem nD τ sig → Unit → ℕ := fun _ _ => 0
/-- Beside the unscoped buffers a core holds, between two items, its generator register at some state and the record
    that it owes nothing. -/
abbrev R (c : Dev nD) : sProp 𝕄 := iprop((∃ r, prngReg c r) ∗ ∃ W, owes (c : Thread nD τ) (0 : CellTallies nD τ sig Unit) W)
/-- All a core holds between two items, the unscoped buffers being at `W`. -/
abbrev between (W : Valuation τ sig (Elt F)) (c : Dev nD) : sProp 𝕄 :=
  iprop(StableHlo.held (c : Thread nD τ) (Pipeline.ucRefs τ sig) W ∗ R c)
/-- A host stretch run over the unscoped buffers from the contents `W`: it leaves them at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the TensorCore is among the buffers a core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What every region does with what a core holds

Two facts about the record of owing nothing, two about the plain region invariant ("the scoped buffers no window stages
in at some contents, the generator register at some state"), stated once for any pipeline. -/

section Parts

variable {cfg : Cfg sig Λ₀} {c : Dev nD} (dat : Dat τ (Elt F) Unit ℕ (UR sig nD τ) ℕ cfg c)

/-- Where the data say nothing is owed and bound the recorded pairs by nothing, a core that owes nothing is what the
    pipeline's loop holds of it. -/
theorem owesAt_of_nothing (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, Howe⟩
  iexists W
  isplitr
  · ipureintro; exact fun x _ => Or.inl (hrec ▸ Set.mem_univ x)
  iexact Howe

/-- And back: what the loop holds of a core where nothing is owed is a core that owes nothing. -/
theorem nothing_of_owesAt (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, Howe⟩
  iexists W
  iexact Howe

end Parts

/-- The generator register and the scoped buffers no window stages in make the plain invariant, whatever else is at
    hand. -/
theorem plain_of_parts {gr Wn : ℕ} (win : Fin Wn → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hreg, -, Hsc⟩
  isplitl [Hsc]
  · iexact Hsc
  iexact Hreg

/-- The plain invariant gives both back. -/
theorem parts_of_plain {gr Wn : ℕ} (win : Fin Wn → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hsc, Hreg⟩
  isplitl [Hreg]
  · iexact Hreg
  isplitr
  · iempintro
  iexact Hsc

/-! ## A pallas_call as a region

Pipeline `p` entered from every unscoped buffer at `Wi` and left at `Wo`, given what is particular to it: its body's
obligation; that its data hold every array at the full share, owe nothing and bound nothing; that they name the arrays'
entry contents as `Wi` has them; that `Wo` is `Wi` with the arrays at what the write-backs leave; and that its
invariant starts from and ends in the plain one. At the entry the arrays are taken out of the unscoped buffers, the
generator register goes into the invariant, the other unscoped buffers go around; at the exit they are put together
again, the arrays now at their final contents. -/

set_option backward.isDefEq.respectTransparency.types false in
def regionOf (p : Fin 3) (lf : Pipeline.LaunchFacts (nD := nD) (τ := τ) cfgs p)
    (Wi Wo : Dev nD → Valuation τ sig (Elt F))
    (hbody : ∀ c, BodyObligation (pdats m p c) (defs₀ (F := F)) Variants.none () Set.univ)
    (hq : ∀ c w, (pdats m p c).q w = fullShare)
    (h0 : ∀ c t, (pdats m p c).owed t = 0)
    (hrec : ∀ c t, (pdats m p c).recorded t = Set.univ)
    (hA : ∀ c w, (pdats m p c).A w = Wi c (Proc.devRef .tc (Pipeline.arrRef (Pipeline.pin (pcfgs (F := F)) adm p).spec w)))
    (hWo_arr : ∀ c w, Wo c (Proc.devRef .tc (Pipeline.arrRef (Pipeline.pin (pcfgs (F := F)) adm p).spec w))
      = (pdats m p c).arrAt w (Pipeline.pin (pcfgs (F := F)) adm p).N)
    (hWo_ne : ∀ c (b : Ref sig .tc), (∀ w, Pipeline.arrRef (Pipeline.pin (pcfgs (F := F)) adm p).spec w ≠ b)
      → Wo c (Proc.devRef .tc b) = Wi c (Proc.devRef .tc b))
    (hΦin : ∀ c, (Pipeline.ΦA (Pipeline.pin (pcfgs (F := F)) adm p).spec c : sProp 𝕄) ⊢ (pdats m p c).Φ 0)
    (hΦout : ∀ c, (pdats m p c).Φ (Fin.last _) ⊢ (Pipeline.ΦA (Pipeline.pin (pcfgs (F := F)) adm p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p h0
  pre c := between (Wi c) c
  post c := between (Wo c) c
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    -- the unscoped buffers at `Wi` are the arrays at their entry contents and the buffers that go around
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    -- there is no table to hold
    have htab : (BI.emp : sProp 𝕄) ⊢ Pipeline.prefHeld (pcfgs (F := F) p).pre c (fun _ => fullShare) (adm p).1 := by
      unfold Pipeline.prefHeld
      rw [show (Finset.univ : Finset (Fin 0)) = ∅ from rfl, BI.bigSep_empty]
    iintro ⟨⟨Hheld, Hreg, Howe⟩, -, -⟩
    imodintro
    ihave Hparts := hsplit $$ Hheld
    icases Hparts with ⟨Harr, Hround⟩
    isplitl [Harr]
    · iexact Harr
    isplitr
    · iapply htab; iempintro
    isplitl [Howe]
    · iapply (owesAt_of_nothing (pdats m p c) 0 (h0 c 0) (hrec c 0)); iexact Howe
    isplitl [Hreg]
    · iexact Hreg
    iexact Hround
  hin c := (plain_of_parts _ c _).trans (hΦin c)
  hout c := by
    rw [Pipeline.ownSems0_none]
    exact (hΦout c).trans (parts_of_plain _ c)
  hexit c := by
    -- the arrays at their final contents and the buffers that went around are the unscoped buffers at `Wo`
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c b) (fun b => Wo c b) ((pdats m p c).arrAt · (Pipeline.pin (pcfgs (F := F)) adm p).N)
      (fun w => (hWo_arr c w).symm) (fun b hb => hWo_ne c b (ne_of_not_mem_image hb))
    rw [Pipeline.unscopedBufs_held] at hjoin
    iintro ⟨Harr, Howe, Hreg, Hround⟩
    imodintro
    isplitl [Harr Hround]
    · iapply hjoin
      isplitl [Harr]
      · iexact Harr
      iexact Hround
    isplitl [Hreg]
    · iexact Hreg
    iapply (nothing_of_owesAt (pdats m p c) (Fin.last _) (h0 c _)); iexact Howe

/-- The fused Q/K/V projection: from the contents after the first host stretch to those with its six arrays written. -/
def reg0 : Pipeline.RegionSeg (pcfgs (F := F)) adm (pdats m) () defs₀ 𝒱₀ L lv 0 :=
  regionOf m 0 launch0 (W1 m) (W2 m) (fun c => body0 (V1 m) c) (fun _ _ => rfl) (fun _ _ => rfl) (fun _ _ => rfl)
    (fun c w => dat0_A (V1 m) c w) (W2_arr m) (W2_of_ne m) (fun _ => .rfl) (fun _ => .rfl)
/-- The per-batch matrix M: its invariant carries the accumulator, and starts from and ends in the plain one. -/
def reg1 : Pipeline.RegionSeg (pcfgs (F := F)) adm (pdats m) () defs₀ 𝒱₀ L lv 1 :=
  regionOf m 1 launch1 (W3 m) (W4 m) (fun c => body1 (V3 m) c) (fun _ _ => rfl) (fun _ _ => rfl) (fun _ _ => rfl)
    (fun c w => dat1_A (V3 m) c w) (W4_arr m) (W4_of_ne m) (phi1_in (V3 m)) (phi1_out (V3 m))
/-- The output Q·M + bias. -/
def reg2 : Pipeline.RegionSeg (pcfgs (F := F)) adm (pdats m) () defs₀ 𝒱₀ L lv 2 :=
  regionOf m 2 launch2 (W4 m) (W5 m) (fun c => body2 (V4 m) c) (fun _ _ => rfl) (fun _ _ => rfl) (fun _ _ => rfl)
    (fun c w => dat2_A (V4 m) c w) (W5_arr m) (W5_of_ne m) (fun _ => .rfl) (fun _ => .rfl)

/-! ## @main as its five items, and the launch -/

/-- No host operation of @main allocates a buffer. -/
theorem hostOps0_alloc_none : (hostOps0 : List (HloOp τ sig (Elt F))).Forall fun op => op.fresh = ∅ := hostOps0_fresh
theorem hostOps1_alloc_none : (hostOps1 : List (HloOp τ sig (Elt F))).Forall fun op => op.fresh = ∅ := hostOps1_fresh

/-- The five items in @main's order, each entered from what the one before it leaves. -/
abbrev items : List (Pipeline.Seg (pcfgs (F := F)) adm (pdats m) () defs₀ 𝒱₀ L lv) :=
  [ .host (hseg hostOps0 hostOps0_sub hostOps0_alloc_none (W0 m)),
    .region (reg0 m),
    .host (hseg hostOps1 hostOps1_sub hostOps1_alloc_none (W2 m)),
    .region (reg1 m),
    .region (reg2 m) ]

/-- @main is the run of its items. -/
theorem main_items (c : Dev nD) : main (F := F) c = Pipeline.Seg.run (items m) := (main_chain c).trans (by chain_rfl)

/-- The launch's ghost element is the pipelines' own, and no core is dealt anything else. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  iintro Hu
  imodintro
  isplitl [Hu]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact Hu
  iempintro

/-- What the launch deals a core is what it holds before the first item: its unscoped buffers at the launch memory, its
    generator register, and a record of owing nothing. -/
theorem launch_core (c : Dev nD) :
    iprop((unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ (BI.emp : sProp 𝕄)) ∗ levAts L lv)
      ⊢ |={Set.univ}=> between (W0 m c) c := by
  rw [show unscopedBufs c (fun b => m ((c : Thread nD τ).loc b)) = StableHlo.held (c : Thread nD τ) (Pipeline.ucRefs τ sig) (W0 m c)
    from Pipeline.unscopedBufs_held c (W0 m c)]
  iintro ⟨⟨Hheld, -, Howe, -, Hreg, -⟩, -⟩
  imodintro
  isplitl [Hheld]
  · iexact Hheld
  isplitl [Hreg]
  · iexists (ρ c); iexact Hreg
  iexists ∅
  iexact Howe

/-- What a core holds after the last item, read against a final state: the state's memory has every unscoped buffer at
    the final contents. -/
theorem final_read (c : Dev nD) (s' : Phys nD τ sig (Elt F)) :
    iprop((iprop(StableHlo.held (c : Thread nD τ) (Pipeline.ucRefs τ sig) (W5 m c) ∗ ∃ r, prngReg c r) : sProp 𝕄) ∗ SI s')
      ⊢ |={Set.univ}=> iprop(⌜∀ b ∈ Pipeline.ucRefs τ sig, s'.mem.mem (((c : Thread nD τ)).1, b) = W5 m c b⌝ ∗ SI s') := by
  unfold StableHlo.held
  iintro ⟨⟨Hheld, -⟩, Hst⟩
  imodintro
  iapply (pointsTo_read_all (Pipeline.ucRefs τ sig) (fun b => (((c : Thread nD τ)).1, b)) (W5 m c) s')
  isplitl [Hheld]
  · iexact Hheld
  iexact Hst

/-- After the last item: the buffers and the register on one side, the record of owing nothing on the other. -/
theorem between_end (c : Dev nD) :
    between (W5 m c) c
      ⊢ (iprop(iprop(StableHlo.held (c : Thread nD τ) (Pipeline.ucRefs τ sig) (W5 m c) ∗ ∃ r, prngReg c r)
          ∗ ∃ W, owes (c : Thread nD τ) (0 : CellTallies nD τ sig Unit) W) : sProp 𝕄) := by
  iintro ⟨Hheld, Hreg, Howe⟩
  isplitr [Howe]
  · isplitl [Hheld]
    · iexact Hheld
    iexact Hreg
  iexact Howe

set_option backward.isDefEq.respectTransparency.types false in
/-- THE RUN. From any memory with zero counters every weakly fair execution of @main terminates, nothing faulting, and
    every final memory has each core's unscoped buffers at `W5`. -/
theorem run : θ_run defs (onTc (τ := τ) (main (F := F))) ⟨m, fun _ => 0, ρ⟩
    (fun r => ∀ c : Dev nD, ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => between (W0 m c) c)
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => between_end m c⟩)
    (hinit := Pipeline.initEach L lv fun c => launch_core m ρ c)
    (QY := fun c s => ∀ b ∈ Pipeline.ucRefs τ sig, s.mem (((c : Thread nD τ)).1, b) = W5 m c b)
    (hfin := fun c s' => final_read m c s')
    (hQ := fun s h => h)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c),
      (h c _ (mem_uc main_arg8 (by decide))).trans (W5_main_arg8 m c)⟩) (run m ρ)

/-- The result array ends at what the last pallas_call's write-backs leave, and every argument array as launched. -/
theorem run_result : θ_run defs (onTc (τ := τ) (main (F := F))) ⟨m, fun _ => 0, ρ⟩ (fun r => ∀ c : Dev nD,
      r.2.mem ((c.tc : Thread nD τ).loc main_v14) = (dat2 (V4 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v14 (by decide))).trans (W5_arr m c 3),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c),
      (h c _ (mem_uc main_arg8 (by decide))).trans (W5_main_arg8 m c)⟩) (run m ρ)

end Cert.KernelIdeal.Fr

end
-- ==== Proof.Spec.lean ====
/-
  The mathematics this certificate rests on, over the reals and over the extended reals, with no program in sight.

  Single-head attention with NO softmax: with Q = x·Wqᵀ + bq, K = x·Wkᵀ + bk, V = x·Wvᵀ + bv (each [4, 4096, 1024]),
  the reference computes  out = ((Q·Kᵀ)·V)·Woᵀ + bo  — scores of shape [4096, 4096] per batch —, while the kernel
  computes  out = Q·((Kᵀ·V)·Woᵀ) + bo  — a [1024, 1024] matrix per batch, the product Kᵀ·V accumulated over four
  tiles of 1024 rows. Over the reals the two are equal: matrix multiplication is associative (distributivity and
  exchange of finite sums). Over the extended reals these laws fail at the infinities, which is why the
  certificate's precondition (every input finite) is USED: on finite inputs every intermediate is a real number.
-/
import Idealize.ShloMosaic.PureOps.Ideal
import Idealize.ShloMosaic.Lib.ValueIdx

noncomputable section

open scoped BigOperators

namespace Cert.Attn

open Idealize.ShloMosaic Idealize.ShloMosaic.ValueIdx

/-! ## Over the reals -/

/-- A linear layer `x·Wᵀ + b` at batch `bb`, row `s`, output feature `f`. -/
def lin (x : Fin 4 → Fin 4096 → Fin 1024 → ℝ) (W : Fin 1024 → Fin 1024 → ℝ) (b : Fin 1024 → ℝ)
    (bb : Fin 4) (s : Fin 4096) (f : Fin 1024) : ℝ :=
  ∑ e, x bb s e * W f e + b f

/-- The reference's order of evaluation: the scores `Q·Kᵀ`, then `scores·V`, then the output layer. -/
def refOut (q k v : Fin 4 → Fin 4096 → Fin 1024 → ℝ) (Wo : Fin 1024 → Fin 1024 → ℝ) (bo : Fin 1024 → ℝ)
    (bb : Fin 4) (s : Fin 4096) (f : Fin 1024) : ℝ :=
  ∑ j, (∑ r, (∑ i, q bb s i * k bb r i) * v bb r j) * Wo f j + bo f

/-- `Kᵀ·V` of one batch: entry `(i, j)` sums over the 4096 rows. -/
def kTv (k v : Fin 4 → Fin 4096 → Fin 1024 → ℝ) (bb : Fin 4) (i j : Fin 1024) : ℝ :=
  ∑ r, k bb r i * v bb r j

/-- The kernel's per-batch matrix `M = (Kᵀ·V)·Woᵀ`. -/
def mixM (k v : Fin 4 → Fin 4096 → Fin 1024 → ℝ) (Wo : Fin 1024 → Fin 1024 → ℝ) (bb : Fin 4) (i f : Fin 1024) : ℝ :=
  ∑ j, kTv k v bb i j * Wo f j

/-- The kernel's order of evaluation: `Q·M + bo`. -/
def kerOut (q k v : Fin 4 → Fin 4096 → Fin 1024 → ℝ) (Wo : Fin 1024 → Fin 1024 → ℝ) (bo : Fin 1024 → ℝ)
    (bb : Fin 4) (s : Fin 4096) (f : Fin 1024) : ℝ :=
  ∑ i, q bb s i * mixM k v Wo bb i f + bo f

/-- Row `r'` of tile `t` of the 4096 rows (four tiles of 1024). -/
def tileRow (t : Fin 4) (r' : Fin 1024) : Fin 4096 := ⟨t.val * 1024 + r'.val, by omega⟩

/-- A sum over the 4096 rows is the sum over the four tiles of the sums over each tile's 1024 rows. -/
theorem sum_tiles (g : Fin 4096 → ℝ) : ∑ r, g r = ∑ t : Fin 4, ∑ r' : Fin 1024, g (tileRow t r') := by
  -- Division with remainder by 1024 is a bijection between the pairs (t, r') with t < 4, r' < 1024 and the
  -- numbers below 4096 = 4·1024; it sends (t, r') to r' + 1024·t, which is the row t·1024 + r' of `tileRow`.
  -- A sum is unchanged by reindexing along a bijection, so the sum over the pairs equals the sum over the rows.
  have hpair : (∑ p : Fin 4 × Fin 1024, g (tileRow p.1 p.2)) = ∑ r : Fin 4096, g r :=
    Fintype.sum_equiv (finProdFinEquiv (m := 4) (n := 1024)) (fun p => g (tileRow p.1 p.2)) g
      (fun p => congrArg g (Fin.ext (by simp [tileRow, finProdFinEquiv]; omega)))
  -- And a sum over pairs is the iterated sum: first over t, then over r'.
  rw [← hpair, Fintype.sum_prod_type]

/-- Associativity of a triple matrix product, entrywise, for one row vector `a` (a row of Q), two matrices `b`, `c`
    with 4096 rows (K and V) and one column vector `w` (a row of Wo):
    `a·((bᵀ·c)·w) = ((a·bᵀ)·c)·w`. Both sides are the triple sum of `a i · b r i · c r j · w j` over all `(i, r, j)`;
    they differ only in the order in which the three finite sums are taken. -/
private theorem triple_assoc (a : Fin 1024 → ℝ) (b c : Fin 4096 → Fin 1024 → ℝ) (w : Fin 1024 → ℝ) :
    ∑ i, a i * (∑ j, (∑ r, b r i * c r j) * w j) = ∑ j, (∑ r, (∑ i, a i * b r i) * c r j) * w j := by
  -- Distribute every factor into the sums next to it: the left side becomes the sum over i, j, r and the right side
  -- the sum over j, r, i of products of the same four factors.
  simp only [Finset.mul_sum, Finset.sum_mul]
  -- Bring j to the outside on the left …
  rw [Finset.sum_comm]
  refine Finset.sum_congr rfl fun j _ => ?_
  -- … then r before i; what is left is the same product, written with another bracketing.
  rw [Finset.sum_comm]
  refine Finset.sum_congr rfl fun r _ => Finset.sum_congr rfl fun i _ => ?_
  ring

/-- ASSOCIATIVITY: the kernel's order and the reference's order give the same real number. -/
theorem kerOut_eq_refOut (q k v : Fin 4 → Fin 4096 → Fin 1024 → ℝ) (Wo : Fin 1024 → Fin 1024 → ℝ) (bo : Fin 1024 → ℝ)
    (bb : Fin 4) (s : Fin 4096) (f : Fin 1024) : kerOut q k v Wo bo bb s f = refOut q k v Wo bo bb s f := by
  -- Both sides add the same bias `bo f`; without it they are the two bracketings of Q·Kᵀ·V·Woᵀ at entry (s, f).
  unfold kerOut mixM kTv refOut
  rw [triple_assoc (q bb s) (k bb) (v bb) (Wo f)]

/-! ## Extended reals that are real numbers -/

/-- A finite sum of real numbers, each read as an extended real, is the real sum read as an extended real. -/
theorem coe_sum {ι : Type} (s : Finset ι) (g : ι → ℝ) : (∑ i ∈ s, ((g i : ℝ) : EReal)) = ((∑ i ∈ s, g i : ℝ) : EReal) := by
  -- Induction on the index set. The empty sum is 0 on both sides, and reading a real as an extended real respects
  -- 0 and + (no infinity occurs among real summands), so adding one more index keeps the two sides equal.
  classical
  refine Finset.induction_on s ?_ ?_
  · rw [Finset.sum_empty, Finset.sum_empty, EReal.coe_zero]
  · intro a s ha ih
    rw [Finset.sum_insert ha, Finset.sum_insert ha, ih, EReal.coe_add]

/-- Every entry of an array of extended reals is a real number. -/
def AllReal {ι : Type} (a : ι → EReal) : Prop := ∀ i, a i = (((a i).toReal : ℝ) : EReal)

theorem AllReal.of_abs_lt_top {ι : Type} {a : ι → EReal} (h : ∀ i, a i ≠ ⊤ ∧ a i ≠ ⊥) : AllReal a := by
  -- An extended real that is neither +∞ nor −∞ is the real number `toReal` returns for it.
  intro i
  exact (EReal.coe_toReal (h i).1 (h i).2).symm

/-- The real arrays behind the nine arguments. -/
def re3 (a : (⟨3, ![4, 4096, 1024]⟩ : Shape).Idx → EReal) : Fin 4 → Fin 4096 → Fin 1024 → ℝ :=
  fun bb s e => (a (ix3 bb s e)).toReal
def re2 (a : (⟨2, ![1024, 1024]⟩ : Shape).Idx → EReal) : Fin 1024 → Fin 1024 → ℝ :=
  fun i j => (a (ix2 i j)).toReal
def re1 (a : (⟨1, ![1024]⟩ : Shape).Idx → EReal) : Fin 1024 → ℝ :=
  fun i => (a (ix1 i)).toReal

/-- THE RESULT: what both programs leave in the result array on finite arguments, entry by entry — the reference's real
    number, read as an extended real. -/
def G (x : (⟨3, ![4, 4096, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨3, ![4, 4096, 1024]⟩ : Shape).Idx → EReal :=
  fun idx => ((refOut (lin (re3 x) (re2 Wq) (re1 bq)) (lin (re3 x) (re2 Wk) (re1 bk)) (lin (re3 x) (re2 Wv) (re1 bv))
    (re2 Wo) (re1 bo) (idx 0) (idx 1) (idx 2) : ℝ) : EReal)

end Cert.Attn

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Val.Pay.lean ====
/-
  The arithmetic of the three kernel bodies read at ONE entry, at the ideal values (a float an extended real, every
  operation exact, a change of float format the identity).

  * The fused projection: one [512, 1024] × [1024, 3072] product plus a bias row; its three column bands of width 1024
    are the Q, K and V rows of the tile.
  * The Kᵀ·V step: the 1024 rows of a K tile against the same rows of a V tile, contracted over the ROW coordinate of
    both, added to what was accumulated before; the accumulator's reset is the zero matrix.
  * The closing product of the accumulated Kᵀ·V with Woᵀ, and the output tile Q·M plus the output bias.
-/
import proofs.«176229_j4294967296116_1_alg».proof.Proof.Gen.KernelIdeal.Skeleton
import proofs.«176229_j4294967296116_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.Pay

open Cert.KernelIdeal Cert.KernelIdeal.Gen

/-- Column `q` of band `t` (0: Q, 1: K, 2: V) of the fused 3072 columns. -/
def bandCol (t : Fin 3) (q : Fin 1024) : Fin 3072 := ⟨t.val * 1024 + q.val, by omega⟩

/-- A slice of all 512 rows and of the 1024 columns that start at column `o`, where `o` is the start of band `t`: its entry
(p, q) is the sliced matrix's entry in row p and column q of that band. -/
theorem band_read {α : Type} (t : Fin 3) (o : Nat) (ho : o = t.val * 1024) (y : S512x3072.Idx → α)
    (h : S512x3072.Slices ![0, o] S512x1024) (p : Fin 512) (q : Fin 1024) :
    extractStridedSlice S512x1024 ![0, o] y h (ix2 p q) = y (ix2 p (bandCol t q)) := by
  refine extractStridedSlice_apply _ y h _ _ fun a => ?_
  match a with
  | ⟨0, _⟩ =>
    show p.val = 0 + p.val
    rw [Nat.zero_add]
  | ⟨1, _⟩ =>
    show t.val * 1024 + q.val = o + q.val
    rw [ho]

/-! ## A product contracted over the ROW coordinate of both operands

A [K, M] matrix against a [K, N] matrix, each contracted on its axis 0, the free axis 1 of the left operand giving the
result's rows and the free axis 1 of the right operand giving its columns: accumulated into the zero matrix, the entry
(i, j) is the sum over the shared row r of lhs (r, i) · rhs (r, j) — the transpose of the left operand times the right one.
The contraction index has one axis, and the sum over it is re-indexed through that axis's coordinate. -/

namespace RowContracted

variable {K M N : Nat}

/-- These dimension numbers as a record, over any evidence that they are well formed. -/
abbrev dims (wf : DotDims.WF (⟨2, ![K, M]⟩ : Shape) ⟨2, ![K, N]⟩ ⟨2, ![M, N]⟩ [0] [0] [1] [1] [] []) :
    DotDims (⟨2, ![K, M]⟩ : Shape) ⟨2, ![K, N]⟩ ⟨2, ![M, N]⟩ where
  lhsContracting := [0]
  rhsContracting := [0]
  lhsNonContracting := [1]
  rhsNonContracting := [1]
  lhsBatch := []
  rhsBatch := []
  wf := wf

variable (wf : DotDims.WF (⟨2, ![K, M]⟩ : Shape) ⟨2, ![K, N]⟩ ⟨2, ![M, N]⟩ [0] [0] [1] [1] [] [])

/-- The left operand's row coordinate is the contraction coordinate. -/
theorem lhs_row (j : (⟨2, ![M, N]⟩ : Shape).Idx) (q : (dims wf).contr.Idx) :
    ((dims wf).lhsIdx j q 0).val = (q ⟨0, Nat.one_pos⟩).val :=
  (dims wf).lhsIdx_val_of_single rfl j q

/-- The left operand's column coordinate is the result's ROW coordinate. -/
theorem lhs_col (j : (⟨2, ![M, N]⟩ : Shape).Idx) (q : (dims wf).contr.Idx) : ((dims wf).lhsIdx j q 1).val = (j 0).val := by
  unfold DotDims.lhsIdx
  rw [dif_neg (show ¬(1 : Fin (⟨2, ![K, M]⟩ : Shape).rank) ∈ (dims wf).lhsBatch from List.not_mem_nil),
    dif_pos (show (1 : Fin (⟨2, ![K, M]⟩ : Shape).rank) ∈ (dims wf).lhsNonContracting from List.mem_singleton.mpr rfl)]
  rfl

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The row-contracted product into the zero matrix at entry (i, j): the sum over r of lhs (r, i) · rhs (r, j). -/
theorem apply_dims (prec : Option ContractPrecision) {φ₁ φ₂ : FTy} (lhs : FVec Ideal ⟨2, ![K, M]⟩ φ₁)
    (rhs : FVec Ideal ⟨2, ![K, N]⟩ φ₂) (i : Fin M) (j : Fin N) :
    FloatOps.matmul (dims wf) prec lhs rhs (constant (F := Ideal) ⟨2, ![M, N]⟩ .f32 0x00000000#32) (ix2 i j)
      = ∑ r : Fin K, lhs (ix2 r i) * rhs (ix2 r j) := by
  rw [Ideal.matmul_constant_zero_apply, ← Equiv.sum_comp (contrEquiv1 (dims wf) K rfl rfl).symm]
  refine Finset.sum_congr rfl fun r _ => ?_
  have hr := contrEquiv1_symm_val (dims wf) K rfl rfl r
  have el : (dims wf).lhsIdx (ix2 i j) ((contrEquiv1 (dims wf) K rfl rfl).symm r) = ix2 r i := funext fun a => Fin.ext (by
    match a with
    | ⟨0, _⟩ => exact (lhs_row wf _ _).trans hr
    | ⟨1, _⟩ => exact lhs_col wf _ _)
  have er : (dims wf).rhsIdx (ix2 i j) ((contrEquiv1 (dims wf) K rfl rfl).symm r) = ix2 r j := funext fun a => Fin.ext (by
    match a with
    | ⟨0, _⟩ => exact (rhs_row wf _ _).trans hr
    | ⟨1, _⟩ => exact rhs_col wf _ _)
  rw [el, er]

/-- The same for any record with these dimension numbers. -/
theorem apply (d : DotDims (⟨2, ![K, M]⟩ : Shape) ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) {φ₁ φ₂ : FTy} (lhs : FVec Ideal ⟨2, ![K, M]⟩ φ₁)
    (rhs : FVec Ideal ⟨2, ![K, N]⟩ φ₂) (i : Fin M) (j : Fin N) :
    FloatOps.matmul d prec lhs rhs (constant (F := Ideal) ⟨2, ![M, N]⟩ .f32 0x00000000#32) (ix2 i j)
      = ∑ r : Fin K, lhs (ix2 r i) * rhs (ix2 r j) := by
  obtain ⟨lc, rc, ln, rn, lb, rb, wf⟩ := d
  dsimp only at hlc hrc hln hrn hlb hrb
  subst hlc hrc hln hrn hlb hrb
  exact apply_dims wf prec lhs rhs i j

end RowContracted

/-! ## The three bodies at one entry -/

/-- The fused projection's entry (p, q): row p of the x tile against column q of the fused weights, plus the fused bias. -/
theorem proj_apply (x : Vec Ideal S512x1024 .f32) (w : Vec Ideal S1024x3072 .bf16) (b : Vec Ideal S3072 .f32)
    (p : Fin 512) (q : Fin 3072) :
    k0_pay1 (F := Ideal) x w b (ix2 p q) = (∑ e : Fin 1024, x (ix2 p e) * w (ix2 e q)) + b (ix1 q) := by
  unfold k0_pay1
  simp only [matmul]
  rw [addf_apply, shapeCast_self, shapeCast_self, shapeCast_self,
    Cert.Lib.PlainMatmul.apply _ rfl rfl rfl rfl rfl rfl, Cert.Lib.PlainMatmul.rowSpread_apply, shapeCast_a_1a_apply]
  rfl

/-- The Q band of the tile. -/
theorem q_apply (x : Vec Ideal S512x1024 .f32) (w : Vec Ideal S1024x3072 .bf16) (b : Vec Ideal S3072 .f32)
    (p : Fin 512) (q : Fin 1024) :
    k0_pay2 (F := Ideal) x w b (ix2 p q) = (∑ e : Fin 1024, x (ix2 p e) * w (ix2 e (bandCol 0 q))) + b (ix1 (bandCol 0 q)) := by
  unfold k0_pay2
  rw [truncf_apply, band_read 0 0 rfl, proj_apply]

/-- The K band of the tile. -/
theorem k_apply (x : Vec Ideal S512x1024 .f32) (w : Vec Ideal S1024x3072 .bf16) (b : Vec Ideal S3072 .f32)
    (p : Fin 512) (q : Fin 1024) :
    k0_pay3 (F := Ideal) x w b (ix2 p q) = (∑ e : Fin 1024, x (ix2 p e) * w (ix2 e (bandCol 1 q))) + b (ix1 (bandCol 1 q)) := by
  unfold k0_pay3
  rw [truncf_apply, band_read 1 1024 rfl, proj_apply]

/-- The V band of the tile. -/
theorem v_apply (x : Vec Ideal S512x1024 .f32) (w : Vec Ideal S1024x3072 .bf16) (b : Vec Ideal S3072 .f32)
    (p : Fin 512) (q : Fin 1024) :
    k0_pay4 (F := Ideal) x w b (ix2 p q) = (∑ e : Fin 1024, x (ix2 p e) * w (ix2 e (bandCol 2 q))) + b (ix1 (bandCol 2 q)) := by
  unfold k0_pay4
  rw [truncf_apply, band_read 2 2048 rfl, proj_apply]

/-- The accumulator's reset is the zero matrix. -/
theorem reset_apply (j : S1024x1024.Idx) : k1_pay1 (F := Ideal) j = 0 := by
  unfold k1_pay1
  rw [shapeCast_self, broadcast_apply]
  exact Ideal.ofBits_zero_f32

/-- One Kᵀ·V step at entry (i, j): what was accumulated, plus the sum over the tile's rows r of K (r, i) · V (r, j). -/
theorem kTv_step_apply (kb vb : Vec Ideal S1x1024x1024 .bf16) (acc : Vec Ideal S1024x1024 .f32) (i j : Fin 1024) :
    k1_pay2 (F := Ideal) kb vb acc (ix2 i j)
      = acc (ix2 i j) + ∑ r : Fin 1024, kb (ix3 (0 : Fin 1) r i) * vb (ix3 (0 : Fin 1) r j) := by
  unfold k1_pay2
  simp only [matmul]
  rw [shapeCast_self, addf_apply, RowContracted.apply _ rfl rfl rfl rfl rfl rfl]
  refine congrArg (acc (ix2 i j) + ·) (Finset.sum_congr rfl fun r _ => ?_)
  rw [shapeCast_1ab_ab_apply, shapeCast_1ab_ab_apply]

/-- The closing product at entry (i, f): the accumulated Kᵀ·V row i against column f of Woᵀ. -/
theorem mix_apply (acc : Vec Ideal S1024x1024 .f32) (wo : Vec Ideal S1024x1024 .bf16) (i f : Fin 1024) :
    k1_pay3 (F := Ideal) acc wo (ix3 (0 : Fin 1) i f) = ∑ j : Fin 1024, acc (ix2 i j) * wo (ix2 j f) := by
  unfold k1_pay3
  simp only [matmul]
  rw [shapeCast_ab_1ab_apply, truncf_apply, shapeCast_self, Cert.Lib.PlainMatmul.apply _ rfl rfl rfl rfl rfl rfl]
  rfl

/-- The output tile at entry (r, f): row r of the Q tile against column f of M, plus the output bias. -/
theorem out_apply (qb mb : Vec Ideal S1x1024x1024 .bf16) (bo : Vec Ideal S1024 .f32) (r f : Fin 1024) :
    k2_pay1 (F := Ideal) qb mb bo (ix3 (0 : Fin 1) r f)
      = (∑ i : Fin 1024, qb (ix3 (0 : Fin 1) r i) * mb (ix3 (0 : Fin 1) i f)) + bo (ix1 f) := by
  unfold k2_pay1
  simp only [matmul]
  rw [shapeCast_ab_1ab_apply, addf_apply, Cert.Lib.PlainMatmul.apply _ rfl rfl rfl rfl rfl rfl,
    Cert.Lib.PlainMatmul.rowSpread_apply, shapeCast_a_1a_apply]
  refine congrArg (· + bo (ix1 f)) (Finset.sum_congr rfl fun i _ => ?_)
  rw [shapeCast_1ab_ab_apply, shapeCast_1ab_ab_apply]

end Cert.KernelIdeal.Pay

end
-- ==== Proof.Val.Chain.lean ====
/-
  The kernel's chain of five stages, with every program stripped away: IF the host operations hand the three
  pallas_calls real numbers (the flattened input, the fused transposed weights and biases, Woᵀ), and the three calls
  compute what their bodies say (fused projection; Kᵀ·V accumulated over four row tiles from zero, then times Woᵀ; Q·M
  plus the output bias), with the reshapes in between, THEN every entry of the result is the real number the REFERENCE's
  order of evaluation gives. All sums stay among real numbers, so the extended reals' arithmetic is the reals', and the
  two orders agree by associativity of matrix multiplication.
-/
import proofs.«176229_j4294967296116_1_alg».proof.Proof.Spec
import proofs.«176229_j4294967296116_1_alg».proof.Proof.Val.Pay

noncomputable section

open scoped BigOperators

namespace Cert.Attn

open Cert.KernelIdeal.Pay (bandCol)

/-- Row `s` of batch `b` among the 16384 flattened rows. -/
def flatRow (b : Fin 4) (s : Fin 4096) : Fin 16384 := ⟨b.val * 4096 + s.val, by omega⟩

/-- The batch and the row inside it of a flattened row. -/
def rowBatch (r : Fin 16384) : Fin 4 := ⟨r.val / 4096, by omega⟩
def rowIn (r : Fin 16384) : Fin 4096 := ⟨r.val % 4096, Nat.mod_lt _ (by decide)⟩

/-! ## Flattening and unflattening the rows -/

/-- Flattening a row and reading its batch back gives the batch: `(4096·b + s) / 4096 = b` for `s < 4096`. -/
theorem rowBatch_flatRow (b : Fin 4) (s : Fin 4096) : rowBatch (flatRow b s) = b := by
  apply Fin.ext
  show (b.val * 4096 + s.val) / 4096 = b.val
  omega

/-- … and reading its place inside the batch back gives the place: `(4096·b + s) % 4096 = s`. -/
theorem rowIn_flatRow (b : Fin 4) (s : Fin 4096) : rowIn (flatRow b s) = s := by
  apply Fin.ext
  show (b.val * 4096 + s.val) % 4096 = s.val
  omega

/-! ## Sums of real numbers, taken among the extended reals

Reading a real number as an extended real respects products and sums, so a dot product of real vectors, with or without
a real number added to it, is the same number whether it is computed among the reals or among the extended reals. -/

/-- A dot product of two real vectors. -/
theorem coe_dot {ι : Type} [Fintype ι] (a c : ι → ℝ) :
    (∑ i, ((a i : ℝ) : EReal) * ((c i : ℝ) : EReal)) = ((∑ i, a i * c i : ℝ) : EReal) := by
  simp only [← EReal.coe_mul]
  exact coe_sum Finset.univ _

/-- A dot product of two real vectors plus a real number. -/
theorem coe_dot_add {ι : Type} [Fintype ι] (a c : ι → ℝ) (z : ℝ) :
    (∑ i, ((a i : ℝ) : EReal) * ((c i : ℝ) : EReal)) + ((z : ℝ) : EReal) = ((∑ i, a i * c i + z : ℝ) : EReal) := by
  rw [coe_dot, ← EReal.coe_add]

/-! ## Stage 1: a band of the fused projection -/

/-- Band `t` of the fused projection at flattened row `r`, column `q`: when the band's columns of the fused weight are
    the transposed weight `W` and its entries of the fused bias are `bias`, the entry is the linear layer
    `x·Wᵀ + bias` at the row's batch and place. -/
theorem band_real (xr : Fin 4 → Fin 4096 → Fin 1024 → ℝ) (W : Fin 1024 → Fin 1024 → ℝ) (bias : Fin 1024 → ℝ)
    (x0 : Fin 16384 → Fin 1024 → EReal) (w5 : Fin 1024 → Fin 3072 → EReal) (b6 : Fin 3072 → EReal) (t : Fin 3)
    (hx0 : ∀ r e, x0 r e = ((xr (rowBatch r) (rowIn r) e : ℝ) : EReal))
    (hw : ∀ e q, w5 e (bandCol t q) = ((W q e : ℝ) : EReal))
    (hb : ∀ q, b6 (bandCol t q) = ((bias q : ℝ) : EReal))
    (r : Fin 16384) (q : Fin 1024) :
    (∑ e : Fin 1024, x0 r e * w5 e (bandCol t q)) + b6 (bandCol t q)
      = ((lin xr W bias (rowBatch r) (rowIn r) q : ℝ) : EReal) := by
  simp only [hx0, hw, hb]
  rw [coe_dot_add]
  rfl

/-! ## Stage 2: the band reshaped by batch -/

/-- Entry `(b, s, i)` of a band reshaped to `[4, 4096, 1024]` is the flattened band's entry at row `4096·b + s`, whose
    batch and place are `b` and `s`: the linear layer at `(b, s, i)`. -/
theorem band3_real (xr : Fin 4 → Fin 4096 → Fin 1024 → ℝ) (W : Fin 1024 → Fin 1024 → ℝ) (bias : Fin 1024 → ℝ)
    (x0 : Fin 16384 → Fin 1024 → EReal) (w5 : Fin 1024 → Fin 3072 → EReal) (b6 : Fin 3072 → EReal) (t : Fin 3)
    (hx0 : ∀ r e, x0 r e = ((xr (rowBatch r) (rowIn r) e : ℝ) : EReal))
    (hw : ∀ e q, w5 e (bandCol t q) = ((W q e : ℝ) : EReal))
    (hb : ∀ q, b6 (bandCol t q) = ((bias q : ℝ) : EReal))
    (Bf : Fin 16384 → Fin 1024 → EReal)
    (hBf : ∀ r q, Bf r q = (∑ e : Fin 1024, x0 r e * w5 e (bandCol t q)) + b6 (bandCol t q))
    (B3 : Fin 4 → Fin 4096 → Fin 1024 → EReal) (hB3 : ∀ b s i, B3 b s i = Bf (flatRow b s) i)
    (b : Fin 4) (s : Fin 4096) (i : Fin 1024) : B3 b s i = ((lin xr W bias b s i : ℝ) : EReal) := by
  rw [hB3, hBf, band_real xr W bias x0 w5 b6 t hx0 hw hb, rowBatch_flatRow, rowIn_flatRow]

/-! ## Stage 3: Kᵀ·V over four tiles of rows, then times Woᵀ -/

/-- `Kᵀ·V` at `(i, j)` is the sum of its four tile sums: rows `0…1023`, `1024…2047`, `2048…3071`, `3072…4095`. -/
theorem kTv_tiles (k v : Fin 4 → Fin 4096 → Fin 1024 → ℝ) (b : Fin 4) (i j : Fin 1024) :
    kTv k v b i j = ∑ t : Fin 4, ∑ r : Fin 1024, k b (tileRow t r) i * v b (tileRow t r) j := by
  unfold kTv
  exact sum_tiles (fun r => k b r i * v b r j)

/-- The accumulator after the four tiles, started from zero: `0 + T₀ = T₀` and every later addition is an addition of
    real numbers, so the accumulator ends at the real number `Kᵀ·V` at `(i, j)`. -/
theorem acc_tiles_real (k v : Fin 4 → Fin 4096 → Fin 1024 → ℝ) (b : Fin 4) (i j : Fin 1024) :
    ((((0 : EReal) + ((∑ r : Fin 1024, k b (tileRow 0 r) i * v b (tileRow 0 r) j : ℝ) : EReal))
        + ((∑ r : Fin 1024, k b (tileRow 1 r) i * v b (tileRow 1 r) j : ℝ) : EReal))
        + ((∑ r : Fin 1024, k b (tileRow 2 r) i * v b (tileRow 2 r) j : ℝ) : EReal))
        + ((∑ r : Fin 1024, k b (tileRow 3 r) i * v b (tileRow 3 r) j : ℝ) : EReal)
      = ((kTv k v b i j : ℝ) : EReal) := by
  rw [kTv_tiles, Fin.sum_univ_four, zero_add, ← EReal.coe_add, ← EReal.coe_add, ← EReal.coe_add]

/-- The per-batch matrix: with K and V real, each tile sum is a real dot product over the tile's rows, the accumulator
    ends at `Kᵀ·V`, and its product with `Woᵀ` is the real matrix `M = (Kᵀ·V)·Woᵀ`. -/
theorem mix_real (k v : Fin 4 → Fin 4096 → Fin 1024 → ℝ) (Wor : Fin 1024 → Fin 1024 → ℝ)
    (K3 V3 : Fin 4 → Fin 4096 → Fin 1024 → EReal) (w8 : Fin 1024 → Fin 1024 → EReal)
    (hK : ∀ b s i, K3 b s i = ((k b s i : ℝ) : EReal)) (hV : ∀ b s j, V3 b s j = ((v b s j : ℝ) : EReal))
    (hwo : ∀ j f, w8 j f = ((Wor f j : ℝ) : EReal)) (b : Fin 4) (i f : Fin 1024) :
    (∑ j : Fin 1024,
      ((((0 + ∑ r : Fin 1024, K3 b (tileRow 0 r) i * V3 b (tileRow 0 r) j)
          + ∑ r : Fin 1024, K3 b (tileRow 1 r) i * V3 b (tileRow 1 r) j)
          + ∑ r : Fin 1024, K3 b (tileRow 2 r) i * V3 b (tileRow 2 r) j)
          + ∑ r : Fin 1024, K3 b (tileRow 3 r) i * V3 b (tileRow 3 r) j) * w8 j f)
      = ((mixM k v Wor b i f : ℝ) : EReal) := by
  simp only [hK, hV, hwo, coe_dot, acc_tiles_real]
  rfl

/-! ## Stage 4: Q·M plus the output bias -/

/-- With Q and M real, the output entry is the real number the kernel's order of evaluation gives. -/
theorem out_real (q k v : Fin 4 → Fin 4096 → Fin 1024 → ℝ) (Wor : Fin 1024 → Fin 1024 → ℝ) (bor : Fin 1024 → ℝ)
    (Q3 : Fin 4 → Fin 4096 → Fin 1024 → EReal) (M : Fin 4 → Fin 1024 → Fin 1024 → EReal) (bo8 : Fin 1024 → EReal)
    (hQ : ∀ b s i, Q3 b s i = ((q b s i : ℝ) : EReal)) (hM : ∀ b i f, M b i f = ((mixM k v Wor b i f : ℝ) : EReal))
    (hbo : ∀ f, bo8 f = ((bor f : ℝ) : EReal)) (b : Fin 4) (s : Fin 4096) (f : Fin 1024) :
    (∑ i : Fin 1024, Q3 b s i * M b i f) + bo8 f = ((kerOut q k v Wor bor b s f : ℝ) : EReal) := by
  simp only [hQ, hM, hbo]
  rw [coe_dot_add]
  rfl

/-- THE CHAIN. `x0`, `w5`, `b6`, `w8`, `bo8`: what the host operations leave (real numbers, by `hx0` … `hbo`);
    `Qf`, `Kf`, `Vf`: the fused projection's three bands over the flattened rows; `Q3`, `K3`, `V3`: the same reshaped
    by batch; `M`: per batch, the four-tile accumulation of Kᵀ·V from zero times Woᵀ; `O`: the output. -/
theorem chain_real
    (xr : Fin 4 → Fin 4096 → Fin 1024 → ℝ) (Wqr Wkr Wvr Wor : Fin 1024 → Fin 1024 → ℝ) (bqr bkr bvr bor : Fin 1024 → ℝ)
    (x0 : Fin 16384 → Fin 1024 → EReal) (w5 : Fin 1024 → Fin 3072 → EReal) (b6 : Fin 3072 → EReal)
    (w8 : Fin 1024 → Fin 1024 → EReal) (bo8 : Fin 1024 → EReal)
    (hx0 : ∀ r e, x0 r e = ((xr (rowBatch r) (rowIn r) e : ℝ) : EReal))
    (hwq : ∀ e q, w5 e (bandCol 0 q) = ((Wqr q e : ℝ) : EReal))
    (hwk : ∀ e q, w5 e (bandCol 1 q) = ((Wkr q e : ℝ) : EReal))
    (hwv : ∀ e q, w5 e (bandCol 2 q) = ((Wvr q e : ℝ) : EReal))
    (hbq : ∀ q, b6 (bandCol 0 q) = ((bqr q : ℝ) : EReal))
    (hbk : ∀ q, b6 (bandCol 1 q) = ((bkr q : ℝ) : EReal))
    (hbv : ∀ q, b6 (bandCol 2 q) = ((bvr q : ℝ) : EReal))
    (hwo : ∀ j f, w8 j f = ((Wor f j : ℝ) : EReal))
    (hbo : ∀ f, bo8 f = ((bor f : ℝ) : EReal))
    (Qf Kf Vf : Fin 16384 → Fin 1024 → EReal)
    (hQf : ∀ r q, Qf r q = (∑ e : Fin 1024, x0 r e * w5 e (bandCol 0 q)) + b6 (bandCol 0 q))
    (hKf : ∀ r q, Kf r q = (∑ e : Fin 1024, x0 r e * w5 e (bandCol 1 q)) + b6 (bandCol 1 q))
    (hVf : ∀ r q, Vf r q = (∑ e : Fin 1024, x0 r e * w5 e (bandCol 2 q)) + b6 (bandCol 2 q))
    (Q3 K3 V3 : Fin 4 → Fin 4096 → Fin 1024 → EReal)
    (hQ3 : ∀ b s i, Q3 b s i = Qf (flatRow b s) i)
    (hK3 : ∀ b s i, K3 b s i = Kf (flatRow b s) i)
    (hV3 : ∀ b s i, V3 b s i = Vf (flatRow b s) i)
    (M : Fin 4 → Fin 1024 → Fin 1024 → EReal)
    (hM : ∀ b i f, M b i f = ∑ j : Fin 1024,
      ((((0 + ∑ r : Fin 1024, K3 b (tileRow 0 r) i * V3 b (tileRow 0 r) j)
          + ∑ r : Fin 1024, K3 b (tileRow 1 r) i * V3 b (tileRow 1 r) j)
          + ∑ r : Fin 1024, K3 b (tileRow 2 r) i * V3 b (tileRow 2 r) j)
          + ∑ r : Fin 1024, K3 b (tileRow 3 r) i * V3 b (tileRow 3 r) j) * w8 j f)
    (O : Fin 4 → Fin 4096 → Fin 1024 → EReal)
    (hO : ∀ b s f, O b s f = (∑ i : Fin 1024, Q3 b s i * M b i f) + bo8 f)
    (b : Fin 4) (s : Fin 4096) (f : Fin 1024) :
    O b s f = ((refOut (lin xr Wqr bqr) (lin xr Wkr bkr) (lin xr Wvr bvr) Wor bor b s f : ℝ) : EReal) := by
  -- the three bands, reshaped by batch, are the three linear layers
  have hQ := band3_real xr Wqr bqr x0 w5 b6 0 hx0 hwq hbq Qf hQf Q3 hQ3
  have hK := band3_real xr Wkr bkr x0 w5 b6 1 hx0 hwk hbk Kf hKf K3 hK3
  have hV := band3_real xr Wvr bvr x0 w5 b6 2 hx0 hwv hbv Vf hVf V3 hV3
  -- the per-batch matrix is the real (Kᵀ·V)·Woᵀ
  have hMr : ∀ b i f, M b i f = ((mixM (lin xr Wkr bkr) (lin xr Wvr bvr) Wor b i f : ℝ) : EReal) := fun b i f => by
    rw [hM]
    exact mix_real (lin xr Wkr bkr) (lin xr Wvr bvr) Wor K3 V3 w8 hK hV hwo b i f
  -- the output is the kernel's real number, which associativity turns into the reference's
  rw [hO, out_real (lin xr Wqr bqr) (lin xr Wkr bkr) (lin xr Wvr bvr) Wor bor Q3 M bo8 hQ hMr hbo b s f,
    kerOut_eq_refOut]

end Cert.Attn

end
-- ==== Proof.Val.Host.lean ====
/-
  What the host-side operations of the program leave in the buffers its three kernels read, entry by entry, at the
  ideal values (a float an extended real; a change of float format the identity).

  Before the first kernel:
  * the activations [4, 4096, 1024] are laid out as 16384 rows of 1024: row r is row r mod 4096 of batch r div 4096;
  * the three projection weights (Q, K, V), each [1024, 1024], are transposed and laid side by side as the columns of
    one [1024, 3072] matrix: column t·1024 + q of the fused matrix is column q of the t-th transposed weight, that is,
    ROW q of the t-th weight as given;
  * the three bias rows are laid end to end into one row of 3072: entry t·1024 + q is entry q of the t-th bias;
  * the output weight is transposed;
  * the output bias is not touched.
  After the first kernel its three results, 16384 rows of 1024 each, are cut back into 4 batches of 4096 rows: row s of
  batch b is row b·4096 + s; nothing else changes.
-/
import proofs.«176229_j4294967296116_1_alg».proof.Proof.Gen.KernelIdeal.Launch
import proofs.«176229_j4294967296116_1_alg».proof.Proof.Val.Pay
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Val

open Cert.KernelIdeal Cert.KernelIdeal.Gen
open Idealize.ShloMosaic Idealize.ShloMosaic.ValueIdx Idealize.ShloMosaic.TcCoe

/-! ## The layout changes read at one entry, over any contents -/

section Layout
variable {α : Type}

/-- 4 batches of 4096 rows read as 16384 rows: row `r` is row `r % 4096` of batch `r / 4096` (both sides sit at the same
    place when the entries are counted row by row). -/
theorem rows_of_batches (x : S4x4096x1024.Idx → α) (h : S4x4096x1024.ShapeCasts S16384x1024) (r : Fin 16384) (e : Fin 1024) :
    shapeCast S16384x1024 x h (ix2 r e)
      = x (ix3 (⟨r.val / 4096, by omega⟩ : Fin 4) (⟨r.val % 4096, by omega⟩ : Fin 4096) e) := by
  refine shapeCast_apply x h _ _ ?_
  rw [Shape.rowMajor_val_three, Shape.rowMajor_val_two]
  show (r.val / 4096 * 4096 + r.val % 4096) * 1024 + e.val = r.val * 1024 + e.val
  omega

/-- 16384 rows read as 4 batches of 4096 rows: row `s` of batch `b` is row `b * 4096 + s`. -/
theorem batches_of_rows (x : S16384x1024.Idx → α) (h : S16384x1024.ShapeCasts S4x4096x1024)
    (b : Fin 4) (s : Fin 4096) (i : Fin 1024) :
    shapeCast S4x4096x1024 x h (ix3 b s i) = x (ix2 (⟨b.val * 4096 + s.val, by omega⟩ : Fin 16384) i) := by
  refine shapeCast_apply x h _ _ ?_
  rw [Shape.rowMajor_val_three, Shape.rowMajor_val_two]
  rfl

/-- Three square matrices side by side: column `t * 1024 + q` of the wide matrix is column `q` of matrix `t`. -/
theorem cols_of_three (x : Fin 3 → (S1024x1024.Idx → α))
    (h : Shape.Concatenates [S1024x1024, S1024x1024, S1024x1024] S1024x3072 1) (t : Fin 3) (e q : Fin 1024) :
    concatenate S1024x3072 1 [⟨S1024x1024, x 0⟩, ⟨S1024x1024, x 1⟩, ⟨S1024x1024, x 2⟩] h (ix2 e (Pay.bandCol t q))
      = x t (ix2 e q) :=
  concatenate_ofFn_apply (t := S1024x3072) (s₁ := S1024x1024) 1 x h rfl 1024 rfl (ix2 e (Pay.bandCol t q)) t
    (by show (t.val * 1024 + q.val) / 1024 = t.val; omega) (ix2 e q)
    (by show q.val = (t.val * 1024 + q.val) % 1024; omega)
    (fun b hb => match b with | ⟨0, _⟩ => rfl | ⟨1, _⟩ => absurd rfl hb)

/-- Three rows of 1024 end to end: entry `t * 1024 + q` of the long row is entry `q` of row `t`. -/
theorem entries_of_three (x : Fin 3 → (S1024.Idx → α))
    (h : Shape.Concatenates [S1024, S1024, S1024] S3072 0) (t : Fin 3) (q : Fin 1024) :
    concatenate S3072 0 [⟨S1024, x 0⟩, ⟨S1024, x 1⟩, ⟨S1024, x 2⟩] h (ix1 (Pay.bandCol t q)) = x t (ix1 q) :=
  concatenate_ofFn_apply (t := S3072) (s₁ := S1024) 0 x h rfl 1024 rfl (ix1 (Pay.bandCol t q)) t
    (by show (t.val * 1024 + q.val) / 1024 = t.val; omega) (ix1 q)
    (by show q.val = (t.val * 1024 + q.val) % 1024; omega)
    (fun b hb => match b with | ⟨0, _⟩ => absurd rfl hb)

end Layout

/-! ## Before the first kernel -/

variable (m : (ℓ : Loc nD τ sig) → Buf (Elt Ideal) ℓ) (c : Dev nD)

/-- The device's buffers once the operations before the first kernel have run from the launch contents. -/
abbrev E0 : Valuation τ sig (Elt Ideal) := StableHlo.after (hostOps0 (F := Ideal)) (fun b => m (c, b))

/-- The Q, K and V weights, each transposed. -/
def wT : Fin 3 → Vec Ideal S1024x1024 .f32 :=
  ![transpose S1024x1024 [1, 0] (m ((c.tc : Thread nD τ).loc main_arg1)) transposes_S1024x1024_S1024x1024_1_0,
    transpose S1024x1024 [1, 0] (m ((c.tc : Thread nD τ).loc main_arg3)) transposes_S1024x1024_S1024x1024_1_0,
    transpose S1024x1024 [1, 0] (m ((c.tc : Thread nD τ).loc main_arg5)) transposes_S1024x1024_S1024x1024_1_0]

/-- The Q, K and V bias rows. -/
def bias3 : Fin 3 → Vec Ideal S1024 .f32 :=
  ![m ((c.tc : Thread nD τ).loc main_arg2), m ((c.tc : Thread nD τ).loc main_arg4), m ((c.tc : Thread nD τ).loc main_arg6)]

/-- The activations' buffer is the launch activations re-laid as rows. -/
theorem x_term : (E0 m c (Proc.devRef .tc main_v0) : Vec Ideal S16384x1024 .f32)
    = shapeCast S16384x1024 (m ((c.tc : Thread nD τ).loc main_arg0)) shapeCasts_S4x4096x1024_S16384x1024 := by
  show StableHlo.after hostOps0 _ (Proc.devRef .tc main_v0) = _
  after_results
  rfl

/-- The fused weight is the three transposed weights side by side, its format changed. -/
theorem w_term : (E0 m c (Proc.devRef .tc main_v5) : FVec Ideal S1024x3072 .bf16)
    = truncf (F := Ideal) .bf16 (concatenate S1024x3072 1
        [⟨S1024x1024, wT m c 0⟩, ⟨S1024x1024, wT m c 1⟩, ⟨S1024x1024, wT m c 2⟩]
        concatenates_S1024x1024_S1024x1024_S1024x1024_S1024x3072_d1) bitsLt_bf16_f32 := by
  show StableHlo.after hostOps0 _ (Proc.devRef .tc main_v5) = _
  after_results
  rfl

/-- The fused bias is the three bias rows end to end. -/
theorem b_term : (E0 m c (Proc.devRef .tc main_v6) : Vec Ideal S3072 .f32)
    = concatenate S3072 0 [⟨S1024, bias3 m c 0⟩, ⟨S1024, bias3 m c 1⟩, ⟨S1024, bias3 m c 2⟩]
        concatenates_S1024_S1024_S1024_S3072_d0 := by
  show StableHlo.after hostOps0 _ (Proc.devRef .tc main_v6) = _
  after_results
  rfl

/-- The output weight's buffer is the output weight transposed, its format changed. -/
theorem wo_term : (E0 m c (Proc.devRef .tc main_v8) : FVec Ideal S1024x1024 .bf16)
    = truncf (F := Ideal) .bf16
        (transpose S1024x1024 [1, 0] (m ((c.tc : Thread nD τ).loc main_arg7)) transposes_S1024x1024_S1024x1024_1_0)
        bitsLt_bf16_f32 := by
  show StableHlo.after hostOps0 _ (Proc.devRef .tc main_v8) = _
  after_results

/-- Row `r` of the activations' buffer is row `r % 4096` of batch `r / 4096`. -/
theorem host_x (r : Fin 16384) (e : Fin 1024) :
    E0 m c (Proc.devRef .tc main_v0) (ix2 r e)
      = m ((c.tc : Thread nD τ).loc main_arg0)
          (ix3 (⟨r.val / 4096, by omega⟩ : Fin 4) (⟨r.val % 4096, by omega⟩ : Fin 4096) e) :=
  (congrFun (x_term m c) (ix2 r e)).trans (rows_of_batches _ _ r e)

/-- Column `q` of band `t` of the fused weight is column `q` of the `t`-th transposed weight. -/
theorem host_w (t : Fin 3) (e q : Fin 1024) :
    E0 m c (Proc.devRef .tc main_v5) (ix2 e (Pay.bandCol t q)) = wT m c t (ix2 e q) :=
  (congrFun (w_term m c) (ix2 e (Pay.bandCol t q))).trans (cols_of_three (wT m c) concatenates_S1024x1024_S1024x1024_S1024x1024_S1024x3072_d1 t e q)

/-- The Q band of the fused weight holds the Q weight with rows and columns exchanged. -/
theorem host_wq (e q : Fin 1024) :
    E0 m c (Proc.devRef .tc main_v5) (ix2 e (Pay.bandCol 0 q)) = m ((c.tc : Thread nD τ).loc main_arg1) (ix2 q e) :=
  (host_w m c 0 e q).trans (transpose_ix2_apply _ _ e q)

/-- The K band of the fused weight holds the K weight with rows and columns exchanged. -/
theorem host_wk (e q : Fin 1024) :
    E0 m c (Proc.devRef .tc main_v5) (ix2 e (Pay.bandCol 1 q)) = m ((c.tc : Thread nD τ).loc main_arg3) (ix2 q e) :=
  (host_w m c 1 e q).trans (transpose_ix2_apply _ _ e q)

/-- The V band of the fused weight holds the V weight with rows and columns exchanged. -/
theorem host_wv (e q : Fin 1024) :
    E0 m c (Proc.devRef .tc main_v5) (ix2 e (Pay.bandCol 2 q)) = m ((c.tc : Thread nD τ).loc main_arg5) (ix2 q e) :=
  (host_w m c 2 e q).trans (transpose_ix2_apply _ _ e q)

/-- Entry `q` of band `t` of the fused bias is entry `q` of the `t`-th bias. -/
theorem host_b (t : Fin 3) (q : Fin 1024) :
    E0 m c (Proc.devRef .tc main_v6) (ix1 (Pay.bandCol t q)) = bias3 m c t (ix1 q) :=
  (congrFun (b_term m c) (ix1 (Pay.bandCol t q))).trans (entries_of_three (bias3 m c) concatenates_S1024_S1024_S1024_S3072_d0 t q)

/-- The Q band of the fused bias is the Q bias. -/
theorem host_bq (q : Fin 1024) :
    E0 m c (Proc.devRef .tc main_v6) (ix1 (Pay.bandCol 0 q)) = m ((c.tc : Thread nD τ).loc main_arg2) (ix1 q) :=
  host_b m c 0 q

/-- The K band of the fused bias is the K bias. -/
theorem host_bk (q : Fin 1024) :
    E0 m c (Proc.devRef .tc main_v6) (ix1 (Pay.bandCol 1 q)) = m ((c.tc : Thread nD τ).loc main_arg4) (ix1 q) :=
  host_b m c 1 q

/-- The V band of the fused bias is the V bias. -/
theorem host_bv (q : Fin 1024) :
    E0 m c (Proc.devRef .tc main_v6) (ix1 (Pay.bandCol 2 q)) = m ((c.tc : Thread nD τ).loc main_arg6) (ix1 q) :=
  host_b m c 2 q

/-- The output weight's buffer holds the output weight with rows and columns exchanged. -/
theorem host_wo (j f : Fin 1024) :
    E0 m c (Proc.devRef .tc main_v8) (ix2 j f) = m ((c.tc : Thread nD τ).loc main_arg7) (ix2 f j) :=
  (congrFun (wo_term m c) (ix2 j f)).trans (transpose_ix2_apply _ _ j f)

/-- The output bias is as launched: none of these operations writes it. -/
theorem host_bo : E0 m c (Proc.devRef .tc main_arg8) = m ((c.tc : Thread nD τ).loc main_arg8) := by
  show StableHlo.after hostOps0 _ (Proc.devRef .tc main_arg8) = _
  after_results

/-! ## Between the first kernel and the second -/

variable (W : Valuation τ sig (Elt Ideal))

/-- Q in batches is the first kernel's Q result re-laid; likewise K and V below. -/
theorem q_term : (StableHlo.after (hostOps1 (F := Ideal)) W (Proc.devRef .tc main_v10) : Vec Ideal S4x4096x1024 .f32)
    = shapeCast S4x4096x1024 (W (Proc.devRef .tc main_v9_0)) shapeCasts_S16384x1024_S4x4096x1024 := by
  after_results
  rfl

theorem k_term : (StableHlo.after (hostOps1 (F := Ideal)) W (Proc.devRef .tc main_v11) : Vec Ideal S4x4096x1024 .f32)
    = shapeCast S4x4096x1024 (W (Proc.devRef .tc main_v9_1)) shapeCasts_S16384x1024_S4x4096x1024 := by
  after_results
  rfl

theorem v_term : (StableHlo.after (hostOps1 (F := Ideal)) W (Proc.devRef .tc main_v12) : Vec Ideal S4x4096x1024 .f32)
    = shapeCast S4x4096x1024 (W (Proc.devRef .tc main_v9_2)) shapeCasts_S16384x1024_S4x4096x1024 := by
  after_results
  rfl

/-- Row `s` of batch `b` of Q is row `b * 4096 + s` of the first kernel's Q result. -/
theorem host1_q (b : Fin 4) (s : Fin 4096) (i : Fin 1024) :
    StableHlo.after (hostOps1 (F := Ideal)) W (Proc.devRef .tc main_v10) (ix3 b s i)
      = W (Proc.devRef .tc main_v9_0) (ix2 (⟨b.val * 4096 + s.val, by omega⟩ : Fin 16384) i) :=
  (congrFun (q_term W) (ix3 b s i)).trans (batches_of_rows _ _ b s i)

/-- Row `s` of batch `b` of K is row `b * 4096 + s` of the first kernel's K result. -/
theorem host1_k (b : Fin 4) (s : Fin 4096) (i : Fin 1024) :
    StableHlo.after (hostOps1 (F := Ideal)) W (Proc.devRef .tc main_v11) (ix3 b s i)
      = W (Proc.devRef .tc main_v9_1) (ix2 (⟨b.val * 4096 + s.val, by omega⟩ : Fin 16384) i) :=
  (congrFun (k_term W) (ix3 b s i)).trans (batches_of_rows _ _ b s i)

/-- Row `s` of batch `b` of V is row `b * 4096 + s` of the first kernel's V result. -/
theorem host1_v (b : Fin 4) (s : Fin 4096) (i : Fin 1024) :
    StableHlo.after (hostOps1 (F := Ideal)) W (Proc.devRef .tc main_v12) (ix3 b s i)
      = W (Proc.devRef .tc main_v9_2) (ix2 (⟨b.val * 4096 + s.val, by omega⟩ : Fin 16384) i) :=
  (congrFun (v_term W) (ix3 b s i)).trans (batches_of_rows _ _ b s i)

/-- The transposed output weight is not written between the two kernels. -/
theorem host1_keep_wo :
    StableHlo.after (hostOps1 (F := Ideal)) W (Proc.devRef .tc main_v8) = W (Proc.devRef .tc main_v8) := by
  after_results

/-- The output bias is not written between the two kernels. -/
theorem host1_keep_bo :
    StableHlo.after (hostOps1 (F := Ideal)) W (Proc.devRef .tc main_arg8) = W (Proc.devRef .tc main_arg8) := by
  after_results

end Cert.KernelIdeal.Val
-- ==== Proof.Val.Arr0.lean ====
/-
  From the tiles to the arrays: what the fused projection leaves in its three output arrays, entry by entry.

  The region has 32 points. Point t reads rows 512·t … 512·t + 511 of the flattened input together with the whole of the
  fused weights and of the fused bias, and writes back three tiles of 512 rows: rows 512·t … 512·t + 511 of the Q, K and
  V arrays. Each tile is the restriction, to its rows, of ONE function of the three whole input arrays — band 0, 1 or 2 of
  the affine map x ↦ x·W + b — and the 32 tiles of an output array cover all its 16384 rows. So after the write-backs
  each output array holds that function of the input arrays as the region found them.
-/
import proofs.«176229_j4294967296116_1_alg».proof.Proof.KI.Reg0
import proofs.«176229_j4294967296116_1_alg».proof.Proof.Val.Pay
import Idealize.ShloMosaic.Lib.Pipeline.Value
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.KernelIdeal.Fr

variable (V : (c : Dev nD) → (b : Ref sig .tc) → Buf (Elt Ideal) ((c : Thread nD τ).loc b))

/-- The offsets of a rectangle that starts at the origin, in two coordinates and in one. -/
theorem noOffset2 : (![0, 0] : Fin 2 → Nat) = fun _ => 0 := funext fun a => by fin_cases a <;> rfl
theorem noOffset1 : (![0] : Fin 1 → Nat) = fun _ => 0 := funext fun a => by fin_cases a <;> rfl

/-- The region's three input arrays as it finds them on core `c`: the flattened input rows, the fused weights, the fused bias. -/
abbrev xIn (c : Dev nD) : S16384x1024.Idx → EReal := V c main_v0
abbrev wIn (c : Dev nD) : S1024x3072.Idx → EReal := V c main_v5
abbrev bIn (c : Dev nD) : S3072.Idx → EReal := V c main_v6

/-- Band `s` (0: Q, 1: K, 2: V) of the projection as one function of the whole arrays: at row r and column q, row r of the
    input against column q of band `s` of the weights, plus that column's bias. -/
def band (s : Fin 3) (x : S16384x1024.Idx → EReal) (w : S1024x3072.Idx → EReal) (b : S3072.Idx → EReal) :
    S16384x1024.Idx → EReal := fun i =>
  (∑ e : Fin 1024, x (ix2 (i 0) e) * w (ix2 e (Pay.bandCol s (i 1)))) + b (ix1 (Pay.bandCol s (i 1)))

/-- Where each window's block sits at point `t`, decided over the 32 points: the row tiles (the input's and the three
    outputs') are at block row `t`, the weights and the bias are their one whole block. -/
theorem tilePlace : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The three input blocks of a point, as parts of their arrays -/

/-- The input tile of point `t` is rows `512·t …` of the flattened input. -/
theorem xBlock_apply (c : Dev nD) (t : Fin cfg0.N) (y : S512x1024.Idx) (k : S16384x1024.Idx)
    (h0 : (k 0).val = 512 * t.val + (y 0).val) (h1 : (k 1).val = (y 1).val) :
    (blk0 V c 0 t : Vec Ideal S512x1024 .f32) y = (V c main_v0 : S16384x1024.Idx → EReal) k := by
  obtain ⟨e0, e1, -⟩ := tilePlace t
  unfold blk0
  rw [View.read_apply]
  show V c main_v0 _ = V c main_v0 _
  refine congrArg (V c main_v0) (funext fun a => Fin.ext ?_)
  match a with
  | ⟨0, _⟩ =>
    show win0_0.index t (0 : Fin 2) * 512 + 1 * (y 0).val = (k 0).val
    rw [e0, h0]; omega
  | ⟨1, _⟩ =>
    show win0_0.index t (1 : Fin 2) * 1024 + 1 * (y 1).val = (k 1).val
    rw [e1, h1]; omega

/-- The weights' block at any point is the whole of the fused weights. -/
theorem wBlock_apply (c : Dev nD) (t : Fin cfg0.N) (y : S1024x3072.Idx) :
    (blk0 V c 1 t : Vec Ideal S1024x3072 .bf16) y = (V c main_v5 : S1024x3072.Idx → EReal) y := by
  obtain ⟨-, -, e0, e1, -⟩ := tilePlace t
  unfold blk0
  rw [View.read_apply]
  show V c main_v5 _ = V c main_v5 _
  refine congrArg (V c main_v5) (funext fun a => Fin.ext ?_)
  match a with
  | ⟨0, _⟩ =>
    show win0_1.index t (0 : Fin 2) * 1024 + 1 * (y 0).val = (y 0).val
    rw [e0]; omega
  | ⟨1, _⟩ =>
    show win0_1.index t (1 : Fin 2) * 3072 + 1 * (y 1).val = (y 1).val
    rw [e1]; omega

/-- The bias's block at any point is the whole of the fused bias. -/
theorem bBlock_apply (c : Dev nD) (t : Fin cfg0.N) (y : S3072.Idx) :
    (blk0 V c 2 t : Vec Ideal S3072 .f32) y = (V c main_v6 : S3072.Idx → EReal) y := by
  obtain ⟨-, -, -, -, e0, -⟩ := tilePlace t
  unfold blk0
  rw [View.read_apply]
  show V c main_v6 _ = V c main_v6 _
  refine congrArg (V c main_v6) (funext fun a => Fin.ext ?_)
  match a with
  | ⟨0, _⟩ =>
    show win0_2.index t (0 : Fin 1) * 3072 + 1 * (y 0).val = (y 0).val
    rw [e0]; omega

/-- Band `s` computed from point `t`'s three blocks at tile row p is band `s` of the whole arrays at row `512·t + p`. -/
theorem bandOfBlocks (s : Fin 3) (c : Dev nD) (t : Fin cfg0.N)
    (x : Vec Ideal S512x1024 .f32) (w : Vec Ideal S1024x3072 .bf16) (b : Vec Ideal S3072 .f32)
    (hx : x = blk0 V c 0 t) (hw : w = blk0 V c 1 t) (hb : b = blk0 V c 2 t)
    (p : Fin 512) (q : Fin 1024) (r : Fin 16384) (hr : r.val = 512 * t.val + p.val) :
    (∑ e : Fin 1024, x (ix2 p e) * w (ix2 e (Pay.bandCol s q))) + b (ix1 (Pay.bandCol s q))
      = band s (xIn V c) (wIn V c) (bIn V c) (ix2 r q) := by
  subst hx hw hb
  show _ = (∑ e : Fin 1024, xIn V c (ix2 r e) * wIn V c (ix2 e (Pay.bandCol s q))) + bIn V c (ix1 (Pay.bandCol s q))
  rw [bBlock_apply]
  refine congrArg (· + bIn V c (ix1 (Pay.bandCol s q))) (Finset.sum_congr rfl fun e _ => ?_)
  rw [xBlock_apply V c t (ix2 p e) (ix2 r e) hr rfl, wBlock_apply]

/-! ## The Q array -/

/-- What the body leaves in the Q tile at an entry: band 0 of the tile's projection. -/
theorem qOut_apply (x : Vec Ideal S512x1024 .f32) (w : Vec Ideal S1024x3072 .bf16) (b : Vec Ideal S3072 .f32)
    (p : Fin 512) (q : Fin 1024) :
    qOut0 x w b (ix2 p q)
      = (∑ e : Fin 1024, x (ix2 p e) * w (ix2 e (Pay.bandCol 0 q))) + b (ix1 (Pay.bandCol 0 q)) := by
  unfold qOut0
  rw [View.canon_unit_zero noOffset2]
  simp only [View.ld_unit_zero (S := S512x1024) noOffset2, View.ld_unit_zero (S := S1024x3072) noOffset2,
    View.ld_unit_zero (S := S3072) noOffset1]
  exact Pay.q_apply x w b p q

/-- The Q tile of point `t` at the entry `y` is band 0 of the whole arrays at the entry `k` that lies `512·t` rows
    further down. -/
theorem qTile_apply (c : Dev nD) (t : Fin cfg0.N) (y : S512x1024.Idx) (k : S16384x1024.Idx)
    (h0 : (k 0).val = 512 * t.val + (y 0).val) (h1 : (k 1).val = (y 1).val) :
    qOut0 (blk0 V c 0 t) (blk0 V c 1 t) (blk0 V c 2 t) y
      = band 0 (xIn V c) (wIn V c) (bIn V c) k := by
  obtain ⟨p, q, rfl⟩ : ∃ (p : Fin 512) (q : Fin 1024), y = ix2 p q := ⟨y 0, y 1, eq_ix2 y⟩
  obtain ⟨r, q', rfl⟩ : ∃ (r : Fin 16384) (q' : Fin 1024), k = ix2 r q' := ⟨k 0, k 1, eq_ix2 k⟩
  obtain rfl : q' = q := Fin.ext h1
  rw [qOut_apply]
  exact bandOfBlocks V 0 c t _ _ _ rfl rfl rfl p q' r h0

/-- What point `t` writes back to the Q array is its block of band 0 of the whole arrays. -/
theorem qFlushed (c : Dev nD) (t : Fin cfg0.N) :
    (dat0 V c).flushed 3 t
      = ((cfg0.win 3).blk t).view.read (Elt Ideal) (band 0 (xIn V c) (wIn V c) (bIn V c)) := by
  obtain ⟨-, -, -, -, -, e0, e1, -⟩ := tilePlace t
  show (cfg0.win 3).cut (grid0.coords t) ((dat0 V c).after 3 t) = _
  rw [dat0_after_3]
  funext j
  refine qTile_apply V c t _ _ ?_ ?_
  · show win0_3.index t (0 : Fin 2) * 512 + 1 * (j 0).val = 512 * t.val + (j 0).val
    rw [e0]; omega
  · show win0_3.index t (1 : Fin 2) * 1024 + 1 * (j 1).val = (j 1).val
    rw [e1]; omega

/-- An entry of the Q array is in point `t`'s block iff each coordinate is in the block's range on its axis. -/
theorem mem_qBlock (t : Fin cfg0.N) (i : S16384x1024.Idx) :
    i ∈ ((cfg0.win 3).blk t).view.set
      ↔ ∀ a : Fin 2, win0_3.index t a * S512x1024.size a ≤ (i a).val
          ∧ (i a).val < win0_3.index t a * S512x1024.size a + S512x1024.size a := by
  show i ∈ ((View.whole main_v9_0).slice (win0_3.rect t)).set ↔ _
  rw [View.set_slice_whole, Rect.mem_set_unit]
  exact Iff.rfl

/-- Every entry of the Q array is written back by some point: row `r` by point `r / 512`. -/
theorem qCovered (i : S16384x1024.Idx) :
    ∃ t : Fin cfg0.N, (cfg0.win 3).flush t = true ∧ i ∈ ((cfg0.win 3).blk t).view.set := by
  have hr : (i 0).val < 16384 := (i 0).isLt
  have hq : (i 1).val < 1024 := (i 1).isLt
  obtain ⟨t, ht⟩ : ∃ t : Fin cfg0.N, t.val = (i 0).val / 512 :=
    ⟨⟨(i 0).val / 512, by show _ < grid0.N; rw [N_0]; omega⟩, rfl⟩
  obtain ⟨-, -, -, -, -, e0, e1, -⟩ := tilePlace t
  refine ⟨t, flush0_3 t, ?_⟩
  rw [mem_qBlock]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 1024 ≤ (i 1).val ∧ (i 1).val < win0_3.index t (1 : Fin 2) * 1024 + 1024
    rw [e1]; omega

/-- After the region's write-backs the Q array is band 0 of the whole arrays. -/
theorem qArr_eq (c : Dev nD) :
    (dat0 V c).arrAt 3 cfg0.N = band 0 (xIn V c) (wIn V c) (bIn V c) :=
  (dat0 V c).arrAt_eq_of_cover 3 _ (fun t _ => qFlushed V c t) qCovered

/-- Entry (r, q) of the Q array after the region: row r of the flattened input against column q of band 0 of the fused
    weights, plus that column's bias. -/
theorem qArr (c : Dev nD) (r : Fin 16384) (q : Fin 1024) :
    ((dat0 V c).arrAt 3 cfg0.N : S16384x1024.Idx → EReal) (ix2 r q)
      = (∑ e : Fin 1024, xIn V c (ix2 r e) * wIn V c (ix2 e (Pay.bandCol 0 q))) + bIn V c (ix1 (Pay.bandCol 0 q)) := by
  rw [qArr_eq]
  rfl

/-! ## The K array -/

/-- What the body leaves in the K tile at an entry: band 1 of the tile's projection. -/
theorem kOut_apply (x : Vec Ideal S512x1024 .f32) (w : Vec Ideal S1024x3072 .bf16) (b : Vec Ideal S3072 .f32)
    (p : Fin 512) (q : Fin 1024) :
    kOut0 x w b (ix2 p q)
      = (∑ e : Fin 1024, x (ix2 p e) * w (ix2 e (Pay.bandCol 1 q))) + b (ix1 (Pay.bandCol 1 q)) := by
  unfold kOut0
  rw [View.canon_unit_zero noOffset2]
  simp only [View.ld_unit_zero (S := S512x1024) noOffset2, View.ld_unit_zero (S := S1024x3072) noOffset2,
    View.ld_unit_zero (S := S3072) noOffset1]
  exact Pay.k_apply x w b p q

/-- The K tile of point `t` at the entry `y` is band 1 of the whole arrays at the entry `k` that lies `512·t` rows
    further down. -/
theorem kTile_apply (c : Dev nD) (t : Fin cfg0.N) (y : S512x1024.Idx) (k : S16384x1024.Idx)
    (h0 : (k 0).val = 512 * t.val + (y 0).val) (h1 : (k 1).val = (y 1).val) :
    kOut0 (blk0 V c 0 t) (blk0 V c 1 t) (blk0 V c 2 t) y
      = band 1 (xIn V c) (wIn V c) (bIn V c) k := by
  obtain ⟨p, q, rfl⟩ : ∃ (p : Fin 512) (q : Fin 1024), y = ix2 p q := ⟨y 0, y 1, eq_ix2 y⟩
  obtain ⟨r, q', rfl⟩ : ∃ (r : Fin 16384) (q' : Fin 1024), k = ix2 r q' := ⟨k 0, k 1, eq_ix2 k⟩
  obtain rfl : q' = q := Fin.ext h1
  rw [kOut_apply]
  exact bandOfBlocks V 1 c t _ _ _ rfl rfl rfl p q' r h0

/-- What point `t` writes back to the K array is its block of band 1 of the whole arrays. -/
theorem kFlushed (c : Dev nD) (t : Fin cfg0.N) :
    (dat0 V c).flushed 4 t
      = ((cfg0.win 4).blk t).view.read (Elt Ideal) (band 1 (xIn V c) (wIn V c) (bIn V c)) := by
  obtain ⟨-, -, -, -, -, -, -, e0, e1, -⟩ := tilePlace t
  show (cfg0.win 4).cut (grid0.coords t) ((dat0 V c).after 4 t) = _
  rw [dat0_after_4]
  funext j
  refine kTile_apply V c t _ _ ?_ ?_
  · show win0_4.index t (0 : Fin 2) * 512 + 1 * (j 0).val = 512 * t.val + (j 0).val
    rw [e0]; omega
  · show win0_4.index t (1 : Fin 2) * 1024 + 1 * (j 1).val = (j 1).val
    rw [e1]; omega

/-- An entry of the K array is in point `t`'s block iff each coordinate is in the block's range on its axis. -/
theorem mem_kBlock (t : Fin cfg0.N) (i : S16384x1024.Idx) :
    i ∈ ((cfg0.win 4).blk t).view.set
      ↔ ∀ a : Fin 2, win0_4.index t a * S512x1024.size a ≤ (i a).val
          ∧ (i a).val < win0_4.index t a * S512x1024.size a + S512x1024.size a := by
  show i ∈ ((View.whole main_v9_1).slice (win0_4.rect t)).set ↔ _
  rw [View.set_slice_whole, Rect.mem_set_unit]
  exact Iff.rfl

/-- Every entry of the K array is written back by some point: row `r` by point `r / 512`. -/
theorem kCovered (i : S16384x1024.Idx) :
    ∃ t : Fin cfg0.N, (cfg0.win 4).flush t = true ∧ i ∈ ((cfg0.win 4).blk t).view.set := by
  have hr : (i 0).val < 16384 := (i 0).isLt
  have hq : (i 1).val < 1024 := (i 1).isLt
  obtain ⟨t, ht⟩ : ∃ t : Fin cfg0.N, t.val = (i 0).val / 512 :=
    ⟨⟨(i 0).val / 512, by show _ < grid0.N; rw [N_0]; omega⟩, rfl⟩
  obtain ⟨-, -, -, -, -, -, -, e0, e1, -⟩ := tilePlace t
  refine ⟨t, flush0_4 t, ?_⟩
  rw [mem_kBlock]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 1024 ≤ (i 1).val ∧ (i 1).val < win0_4.index t (1 : Fin 2) * 1024 + 1024
    rw [e1]; omega

/-- After the region's write-backs the K array is band 1 of the whole arrays. -/
theorem kArr_eq (c : Dev nD) :
    (dat0 V c).arrAt 4 cfg0.N = band 1 (xIn V c) (wIn V c) (bIn V c) :=
  (dat0 V c).arrAt_eq_of_cover 4 _ (fun t _ => kFlushed V c t) kCovered

/-- Entry (r, q) of the K array after the region: row r of the flattened input against column q of band 1 of the fused
    weights, plus that column's bias. -/
theorem kArr (c : Dev nD) (r : Fin 16384) (q : Fin 1024) :
    ((dat0 V c).arrAt 4 cfg0.N : S16384x1024.Idx → EReal) (ix2 r q)
      = (∑ e : Fin 1024, xIn V c (ix2 r e) * wIn V c (ix2 e (Pay.bandCol 1 q))) + bIn V c (ix1 (Pay.bandCol 1 q)) := by
  rw [kArr_eq]
  rfl

/-! ## The V array -/

/-- What the body leaves in the V tile at an entry: band 2 of the tile's projection. -/
theorem vOut_apply (x : Vec Ideal S512x1024 .f32) (w : Vec Ideal S1024x3072 .bf16) (b : Vec Ideal S3072 .f32)
    (p : Fin 512) (q : Fin 1024) :
    vOut0 x w b (ix2 p q)
      = (∑ e : Fin 1024, x (ix2 p e) * w (ix2 e (Pay.bandCol 2 q))) + b (ix1 (Pay.bandCol 2 q)) := by
  unfold vOut0
  rw [View.canon_unit_zero noOffset2]
  simp only [View.ld_unit_zero (S := S512x1024) noOffset2, View.ld_unit_zero (S := S1024x3072) noOffset2,
    View.ld_unit_zero (S := S3072) noOffset1]
  exact Pay.v_apply x w b p q

/-- The V tile of point `t` at the entry `y` is band 2 of the whole arrays at the entry `k` that lies `512·t` rows
    further down. -/
theorem vTile_apply (c : Dev nD) (t : Fin cfg0.N) (y : S512x1024.Idx) (k : S16384x1024.Idx)
    (h0 : (k 0).val = 512 * t.val + (y 0).val) (h1 : (k 1).val = (y 1).val) :
    vOut0 (blk0 V c 0 t) (blk0 V c 1 t) (blk0 V c 2 t) y
      = band 2 (xIn V c) (wIn V c) (bIn V c) k := by
  obtain ⟨p, q, rfl⟩ : ∃ (p : Fin 512) (q : Fin 1024), y = ix2 p q := ⟨y 0, y 1, eq_ix2 y⟩
  obtain ⟨r, q', rfl⟩ : ∃ (r : Fin 16384) (q' : Fin 1024), k = ix2 r q' := ⟨k 0, k 1, eq_ix2 k⟩
  obtain rfl : q' = q := Fin.ext h1
  rw [vOut_apply]
  exact bandOfBlocks V 2 c t _ _ _ rfl rfl rfl p q' r h0

/-- What point `t` writes back to the V array is its block of band 2 of the whole arrays. -/
theorem vFlushed (c : Dev nD) (t : Fin cfg0.N) :
    (dat0 V c).flushed 5 t
      = ((cfg0.win 5).blk t).view.read (Elt Ideal) (band 2 (xIn V c) (wIn V c) (bIn V c)) := by
  obtain ⟨-, -, -, -, -, -, -, -, -, e0, e1⟩ := tilePlace t
  show (cfg0.win 5).cut (grid0.coords t) ((dat0 V c).after 5 t) = _
  rw [dat0_after_5]
  funext j
  refine vTile_apply V c t _ _ ?_ ?_
  · show win0_5.index t (0 : Fin 2) * 512 + 1 * (j 0).val = 512 * t.val + (j 0).val
    rw [e0]; omega
  · show win0_5.index t (1 : Fin 2) * 1024 + 1 * (j 1).val = (j 1).val
    rw [e1]; omega

/-- An entry of the V array is in point `t`'s block iff each coordinate is in the block's range on its axis. -/
theorem mem_vBlock (t : Fin cfg0.N) (i : S16384x1024.Idx) :
    i ∈ ((cfg0.win 5).blk t).view.set
      ↔ ∀ a : Fin 2, win0_5.index t a * S512x1024.size a ≤ (i a).val
          ∧ (i a).val < win0_5.index t a * S512x1024.size a + S512x1024.size a := by
  show i ∈ ((View.whole main_v9_2).slice (win0_5.rect t)).set ↔ _
  rw [View.set_slice_whole, Rect.mem_set_unit]
  exact Iff.rfl

/-- Every entry of the V array is written back by some point: row `r` by point `r / 512`. -/
theorem vCovered (i : S16384x1024.Idx) :
    ∃ t : Fin cfg0.N, (cfg0.win 5).flush t = true ∧ i ∈ ((cfg0.win 5).blk t).view.set := by
  have hr : (i 0).val < 16384 := (i 0).isLt
  have hq : (i 1).val < 1024 := (i 1).isLt
  obtain ⟨t, ht⟩ : ∃ t : Fin cfg0.N, t.val = (i 0).val / 512 :=
    ⟨⟨(i 0).val / 512, by show _ < grid0.N; rw [N_0]; omega⟩, rfl⟩
  obtain ⟨-, -, -, -, -, -, -, -, -, e0, e1⟩ := tilePlace t
  refine ⟨t, flush0_5 t, ?_⟩
  rw [mem_vBlock]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 1024 ≤ (i 1).val ∧ (i 1).val < win0_5.index t (1 : Fin 2) * 1024 + 1024
    rw [e1]; omega

/-- After the region's write-backs the V array is band 2 of the whole arrays. -/
theorem vArr_eq (c : Dev nD) :
    (dat0 V c).arrAt 5 cfg0.N = band 2 (xIn V c) (wIn V c) (bIn V c) :=
  (dat0 V c).arrAt_eq_of_cover 5 _ (fun t _ => vFlushed V c t) vCovered

/-- Entry (r, q) of the V array after the region: row r of the flattened input against column q of band 2 of the fused
    weights, plus that column's bias. -/
theorem vArr (c : Dev nD) (r : Fin 16384) (q : Fin 1024) :
    ((dat0 V c).arrAt 5 cfg0.N : S16384x1024.Idx → EReal) (ix2 r q)
      = (∑ e : Fin 1024, xIn V c (ix2 r e) * wIn V c (ix2 e (Pay.bandCol 2 q))) + bIn V c (ix1 (Pay.bandCol 2 q)) := by
  rw [vArr_eq]
  rfl

end Cert.KernelIdeal.Val

end
-- ==== Proof.Val.Arr1.lean ====
/-
  From blocks to the array, for the second region of the kernel program (M = (Kᵀ·V)·Woᵀ per batch), at the ideal values.

  The region's 16 points are 4 batches × 4 row tiles: point t works on batch t / 4 and on the tile t % 4 of 1024 of the
  4096 rows. At a point the body reads the tile's 1024 rows of K and of V and the whole matrix Woᵀ; it adds the
  tile's Kᵀ·V to a running matrix that restarts from zero at a batch's first tile; at a batch's last tile it multiplies
  the finished running matrix by Woᵀ, and only then is the batch's block of the output array written. So every entry
  (b, i, f) of the output array is written exactly once, at point 4·b + 3, and holds

      ∑ j, ((((0 + T₀) + T₁) + T₂) + T₃)(i, j) · Woᵀ(j, f),     Tₛ(i, j) = ∑ r, K[b, 1024·s + r, i] · V[b, 1024·s + r, j],

  the four tiles' contributions added in the order of the points.
-/
import proofs.«176229_j4294967296116_1_alg».proof.Proof.KI.Reg1
import proofs.«176229_j4294967296116_1_alg».proof.Proof.Val.Pay
import proofs.«176229_j4294967296116_1_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The three arrays the region reads, as it finds them, under their literal types (an entry is an extended real):
    K and V of shape [4, 4096, 1024], Woᵀ of shape [1024, 1024]. -/
abbrev kRows (c : Dev nD) : S4x4096x1024.Idx → EReal := V c main_v11
abbrev vRows (c : Dev nD) : S4x4096x1024.Idx → EReal := V c main_v12
abbrev woMat (c : Dev nD) : S1024x1024.Idx → EReal := V c main_v8

/-- Kᵀ·V over tile s of batch b, entry (i, j). -/
def tileKtV (c : Dev nD) (b s : Fin 4) (i j : Fin 1024) : EReal :=
  ∑ r : Fin 1024, kRows V c (ix3 b (Cert.Attn.tileRow s r) i) * vRows V c (ix3 b (Cert.Attn.tileRow s r) j)

/-- What the output array holds in the end, entry by entry: the four tiles' Kᵀ·V of the entry's batch, added to zero
    in the order of the tiles, times Woᵀ. -/
def mixArr (c : Dev nD) : S4x1024x1024.Idx → EReal := fun idx =>
  ∑ j : Fin 1024, ((((0 + tileKtV V c (idx 0) 0 (idx 1) j) + tileKtV V c (idx 0) 1 (idx 1) j) + tileKtV V c (idx 0) 2 (idx 1) j)
    + tileKtV V c (idx 0) 3 (idx 1) j) * woMat V c (ix2 j (idx 2))

/-- The blocks a point reads, under their literal types: the tile of K, the tile of V, and Woᵀ. -/
abbrev kTile (c : Dev nD) (t : Fin cfg1.N) : Vec Ideal S1x1024x1024 .bf16 := blk1 V c 0 t
abbrev vTile (c : Dev nD) (t : Fin cfg1.N) : Vec Ideal S1x1024x1024 .bf16 := blk1 V c 1 t
abbrev woTile (c : Dev nD) (t : Fin cfg1.N) : Vec Ideal S1024x1024 .bf16 := blk1 V c 2 t

/-! ## Where a point's blocks lie in their arrays -/

/-- The block indices of the four windows at every point, decided over the 16 points: the K and V tiles are block
    (t / 4, t % 4, 0) of their arrays, Woᵀ is read whole, the output block is block (t / 4, 0, 0). -/
theorem kvBlockIndex : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 2) = 0 ∧ win1_2.index t (1 : Fin 2) = 0
    ∧ win1_3.index t (0 : Fin 3) = t.val / 4 ∧ win1_3.index t (1 : Fin 3) = 0 ∧ win1_3.index t (2 : Fin 3) = 0 :=
  (by decide +kernel : ∀ t : Fin grid1.N, _)

/-- Row r, feature i of the K tile at point t = 4·b + s is K[b, 1024·s + r, i]: an element of a block sits, on each
    axis, at the block's index times the block's size plus its own coordinate. -/
theorem kRowsTile_apply (c : Dev nD) (t : Fin cfg1.N) (b s : Fin 4) (ht : t.val = 4 * b.val + s.val) (r i : Fin 1024) :
    kTile V c t (ix3 (0 : Fin 1) r i) = kRows V c (ix3 b (Cert.Attn.tileRow s r) i) := by
  obtain ⟨e0, e1, e2, -⟩ := kvBlockIndex t
  show (V c main_v11) (((cfg1.win 0).blk t).view.emb (ix3 (0 : Fin 1) r i)) = _
  refine congrArg (V c main_v11) (funext fun a => Fin.ext ?_)
  have hb := b.isLt
  have hs := s.isLt
  match a with
  | ⟨0, _⟩ => show win1_0.index t (0 : Fin 3) * 1 + 1 * 0 = b.val; omega
  | ⟨1, _⟩ => show win1_0.index t (1 : Fin 3) * 1024 + 1 * r.val = s.val * 1024 + r.val; omega
  | ⟨2, _⟩ => show win1_0.index t (2 : Fin 3) * 1024 + 1 * i.val = i.val; omega

/-- The same for the V tile. -/
theorem vRowsTile_apply (c : Dev nD) (t : Fin cfg1.N) (b s : Fin 4) (ht : t.val = 4 * b.val + s.val) (r j : Fin 1024) :
    vTile V c t (ix3 (0 : Fin 1) r j) = vRows V c (ix3 b (Cert.Attn.tileRow s r) j) := by
  obtain ⟨-, -, -, e0, e1, e2, -⟩ := kvBlockIndex t
  show (V c main_v12) (((cfg1.win 1).blk t).view.emb (ix3 (0 : Fin 1) r j)) = _
  refine congrArg (V c main_v12) (funext fun a => Fin.ext ?_)
  have hb := b.isLt
  have hs := s.isLt
  match a with
  | ⟨0, _⟩ => show win1_1.index t (0 : Fin 3) * 1 + 1 * 0 = b.val; omega
  | ⟨1, _⟩ => show win1_1.index t (1 : Fin 3) * 1024 + 1 * r.val = s.val * 1024 + r.val; omega
  | ⟨2, _⟩ => show win1_1.index t (2 : Fin 3) * 1024 + 1 * j.val = j.val; omega

/-- Woᵀ is read whole at every point: its block is the array. -/
theorem woTile_apply (c : Dev nD) (t : Fin cfg1.N) (j f : Fin 1024) :
    woTile V c t (ix2 j f) = woMat V c (ix2 j f) := by
  obtain ⟨-, -, -, -, -, -, e0, e1, -⟩ := kvBlockIndex t
  show (V c main_v8) (((cfg1.win 2).blk t).view.emb (ix2 j f)) = _
  refine congrArg (V c main_v8) (funext fun a => Fin.ext ?_)
  match a with
  | ⟨0, _⟩ => show win1_2.index t (0 : Fin 2) * 1024 + 1 * j.val = j.val; omega
  | ⟨1, _⟩ => show win1_2.index t (1 : Fin 2) * 1024 + 1 * f.val = f.val; omega

/-! ## The running matrix over the four tiles of a batch -/

/-- What a point adds to the running matrix at entry (i, j): at point t = 4·b + s, tile s's Kᵀ·V of batch b. -/
theorem kvAddend_eq (c : Dev nD) (t : Fin cfg1.N) (b s : Fin 4) (ht : t.val = 4 * b.val + s.val) (i j : Fin 1024) :
    (∑ r : Fin 1024, kTile V c t (ix3 (0 : Fin 1) r i) * vTile V c t (ix3 (0 : Fin 1) r j)) = tileKtV V c b s i j :=
  Finset.sum_congr rfl fun r _ => congrArg₂ (· * ·) (kRowsTile_apply V c t b s ht r i) (vRowsTile_apply V c t b s ht r j)

/-- The running matrix depends on the point's number only, not on how the number or its bound is written. -/
theorem kvAcc_congr (c : Dev nD) {n n' : ℕ} (e : n = n') (h : n < cfg1.N) (h' : n' < cfg1.N) :
    accAt V c n h = accAt V c n' h' := by
  subst e; rfl

/-- At the first tile of batch b the running matrix is zero plus tile 0's Kᵀ·V. -/
theorem kvAcc_first (c : Dev nD) (t : Fin cfg1.N) (b : Fin 4) (ht : t.val = 4 * b.val + (0 : Fin 4).val) (i j : Fin 1024) :
    (accAt V c t.val t.isLt : Vec Ideal S1024x1024 .f32) (ix2 i j) = 0 + tileKtV V c b 0 i j := by
  rw [accAt_reset V c t (by rw [ht]; show (4 * b.val + 0) % 4 = 0; omega)]
  refine (Pay.kTv_step_apply _ _ _ i j).trans ?_
  exact congrArg₂ (· + ·) (Pay.reset_apply (ix2 i j)) (kvAddend_eq V c t b 0 ht i j)

/-- At a later tile s of batch b it is what the point before (number n, with n + 1 the point's own number) left, plus tile
    s's Kᵀ·V. -/
theorem kvAcc_next (c : Dev nD) (t : Fin cfg1.N) (b s : Fin 4) (ht : t.val = 4 * b.val + s.val) (hs : s.val ≠ 0)
    (n : ℕ) (hn : n < cfg1.N) (hnt : n + 1 = t.val) (i j : Fin 1024) :
    (accAt V c t.val t.isLt : Vec Ideal S1024x1024 .f32) (ix2 i j)
      = (accAt V c n hn : Vec Ideal S1024x1024 .f32) (ix2 i j) + tileKtV V c b s i j := by
  have hs4 := s.isLt
  rw [accAt_step V c t (by omega), kvAcc_congr V c (show t.val - 1 = n by omega) _ hn]
  refine (Pay.kTv_step_apply _ _ _ i j).trans ?_
  exact congrArg₂ (· + ·) rfl (kvAddend_eq V c t b s ht i j)

/-- After the last tile of batch b (point 4·b + 3) the running matrix is the four tiles' Kᵀ·V added to zero in order. -/
theorem kvAcc_last (c : Dev nD) (t : Fin cfg1.N) (b : Fin 4) (ht : t.val = 4 * b.val + 3) (i j : Fin 1024) :
    (accAt V c t.val t.isLt : Vec Ideal S1024x1024 .f32) (ix2 i j)
      = (((0 + tileKtV V c b 0 i j) + tileKtV V c b 1 i j) + tileKtV V c b 2 i j) + tileKtV V c b 3 i j := by
  have hN : cfg1.N = 16 := N_1
  have hb := b.isLt
  -- the batch's four points
  have h0 : 4 * b.val + 0 < cfg1.N := by omega
  have h1 : 4 * b.val + 1 < cfg1.N := by omega
  have h2 : 4 * b.val + 2 < cfg1.N := by omega
  have p0 := kvAcc_first V c ⟨4 * b.val + 0, h0⟩ b rfl i j
  have p1 := kvAcc_next V c ⟨4 * b.val + 1, h1⟩ b 1 rfl (by decide) (4 * b.val + 0) h0 rfl i j
  have p2 := kvAcc_next V c ⟨4 * b.val + 2, h2⟩ b 2 rfl (by decide) (4 * b.val + 1) h1 rfl i j
  have p3 := kvAcc_next V c t b 3 ht (by decide) (4 * b.val + 2) h2 (by omega) i j
  rw [p3, p2, p1, p0]

/-! ## What is written back, and where -/

/-- WHAT A BATCH'S LAST POINT WRITES BACK is its block of `mixArr`: the closing product of the finished running matrix
    with Woᵀ, at the entries (t / 4, i, f) of the output array. -/
theorem mix_flushed_eq (c : Dev nD) (t : Fin cfg1.N) (h3 : t.val % 4 = 3) :
    (dat1 V c).flushed 3 t = ((cfg1.win 3).blk t).view.read (Elt Ideal) (mixArr V c) := by
  have hN : cfg1.N = 16 := N_1
  have ht := t.isLt
  obtain ⟨-, -, -, -, -, -, -, -, e0, e1, e2⟩ := kvBlockIndex t
  show (cfg1.win 3).cut (grid1.coords t) ((dat1 V c).after 3 t) = _
  rw [dat1_after_3]
  funext y
  obtain ⟨z, i, f, rfl⟩ : ∃ (z : Fin 1) (i f : Fin 1024), y = ix3 z i f := ⟨y 0, y 1, y 2, @eq_ix3 1 1024 1024 y⟩
  obtain rfl : z = 0 := Subsingleton.elim _ _
  -- the entry's place in the output array: batch t / 4, row i, column f
  have hplace : ((cfg1.win 3).blk t).view.emb (ix3 (0 : Fin 1) i f) = ix3 (⟨t.val / 4, by omega⟩ : Fin 4) i f :=
    funext fun a => Fin.ext (by
      match a with
      | ⟨0, _⟩ => show win1_3.index t (0 : Fin 3) * 1 + 1 * 0 = t.val / 4; omega
      | ⟨1, _⟩ => show win1_3.index t (1 : Fin 3) * 1024 + 1 * i.val = i.val; omega
      | ⟨2, _⟩ => show win1_3.index t (2 : Fin 3) * 1024 + 1 * f.val = f.val; omega)
  show k1_pay3 (accAt V c t.val t.isLt) (blk1 V c 2 t) (ix3 (0 : Fin 1) i f)
    = mixArr V c (((cfg1.win 3).blk t).view.emb (ix3 (0 : Fin 1) i f))
  rw [hplace]
  refine (Pay.mix_apply _ _ i f).trans ?_
  exact Finset.sum_congr rfl fun j _ =>
    congrArg₂ (· * ·) (kvAcc_last V c t ⟨t.val / 4, by omega⟩ (by show t.val = 4 * (t.val / 4) + 3; omega) i j) (woTile_apply V c t j f)

/-- An entry of the output array lies in point t's block iff each coordinate lies in the block's range on its axis. -/
theorem mem_mixBlock (t : Fin cfg1.N) (i : S4x1024x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v13).slice (win1_3.rect t)).set ↔ _
  rw [View.set_slice_whole, Rect.mem_set_unit]
  exact Iff.rfl

/-- THE COVER: entry (b, i, f) lies in the block of point 4·b + 3, and that point writes its block back. -/
theorem mix_covered (i : S4x1024x1024.Idx) :
    ∃ t : Fin cfg1.N, (cfg1.win 3).flush t = true ∧ i ∈ ((cfg1.win 3).blk t).view.set := by
  have hN : cfg1.N = 16 := N_1
  have hi0 : (i 0).val < 4 := (i 0).isLt
  have hi1 : (i 1).val < 1024 := (i 1).isLt
  have hi2 : (i 2).val < 1024 := (i 2).isLt
  obtain ⟨t, htv⟩ : ∃ t : Fin cfg1.N, t.val = 4 * (i 0).val + 3 := ⟨⟨4 * (i 0).val + 3, by omega⟩, rfl⟩
  obtain ⟨-, -, -, -, -, -, -, -, e0, e1, e2⟩ := kvBlockIndex t
  refine ⟨t, (flush1_3 t).mpr (by omega), ?_⟩
  rw [mem_mixBlock]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 1024 ≤ (i 2).val ∧ (i 2).val < win1_3.index t (2 : Fin 3) * 1024 + 1024
    omega

/-! ## The array after the region -/

/-- The output array after the region is `mixArr`. -/
theorem mixArr_eq (c : Dev nD) : (dat1 V c).arrAt 3 cfg1.N = mixArr V c :=
  (dat1 V c).arrAt_eq_of_cover 3 (mixArr V c) (fun t hf => mix_flushed_eq V c t ((flush1_3 t).mp hf)) mix_covered

/-- Entry (b, i, f) of the output array after the region. -/
theorem mArr (c : Dev nD) (b : Fin 4) (i f : Fin 1024) :
    (dat1 V c).arrAt 3 cfg1.N (ix3 b i f)
      = ∑ j : Fin 1024, ((((0 + tileKtV V c b 0 i j) + tileKtV V c b 1 i j) + tileKtV V c b 2 i j) + tileKtV V c b 3 i j)
          * woMat V c (ix2 j f) :=
  congrFun (mixArr_eq V c) (ix3 b i f)

end Cert.KernelIdeal.Val

end
-- ==== Proof.Val.Arr2.lean ====
/-
  From the tiles to the array: what the output projection leaves in its result array, entry by entry.

  The region has 16 points, one for each of the 4 batches and, inside a batch, each of the 4 tiles of 1024 rows: point
  t = 4·b + s. It reads rows 1024·s … 1024·s + 1023 of batch b of Q, the whole matrix M of batch b and the whole output
  bias, and writes back rows 1024·s … 1024·s + 1023 of batch b of the result. Every tile written back is the restriction,
  to its batch and rows, of ONE function of the three whole input arrays — in each batch the affine map q ↦ q·M + bo — and
  the 16 tiles cover the 4 × 4096 rows of the result. So after the write-backs the result array holds that function of the
  input arrays as the region found them.
-/
import proofs.«176229_j4294967296116_1_alg».proof.Proof.KI.Reg2
import proofs.«176229_j4294967296116_1_alg».proof.Proof.Val.Pay
import Idealize.ShloMosaic.Lib.Pipeline.Value
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.KernelIdeal.Fr

variable (V : (c : Dev nD) → (b : Ref sig .tc) → Buf (Elt Ideal) ((c : Thread nD τ).loc b))

/-- The offsets of a rectangle that starts at the origin, in three coordinates and in one. -/
theorem originOff3 : (![0, 0, 0] : Fin 3 → Nat) = fun _ => 0 := funext fun a => by fin_cases a <;> rfl
theorem originOff1 : (![0] : Fin 1 → Nat) = fun _ => 0 := funext fun a => by fin_cases a <;> rfl

/-- The region's three input arrays as it finds them on core `c`: Q by batch, the matrices M by batch, the output bias. -/
abbrev qIn (c : Dev nD) : S4x4096x1024.Idx → EReal := V c main_v10
abbrev mIn (c : Dev nD) : S4x1024x1024.Idx → EReal := V c main_v13
abbrev boIn (c : Dev nD) : S1024.Idx → EReal := V c main_arg8

/-- The output projection as one function of the whole arrays: in batch b, at row s and column f, row s of that batch's Q
    against column f of that batch's M, plus the bias of column f. -/
def outProj (qA : S4x4096x1024.Idx → EReal) (mA : S4x1024x1024.Idx → EReal) (bo : S1024.Idx → EReal) :
    S4x4096x1024.Idx → EReal := fun i =>
  (∑ e : Fin 1024, qA (ix3 (i 0) (i 1) e) * mA (ix3 (i 0) e (i 2))) + bo (ix1 (i 2))

/-- Where each window's block sits at point `t`, decided over the 16 points: the Q tile and the result tile are in batch
    `t / 4` at block row `t % 4`, the matrix is batch `t / 4`'s one block, the bias is its one whole block. -/
theorem tilePlace2 : ∀ t : Fin cfg2.N,
    win2_0.index t (0 : Fin 3) = t.val / 4 ∧ win2_0.index t (1 : Fin 3) = t.val % 4 ∧ win2_0.index t (2 : Fin 3) = 0
    ∧ win2_1.index t (0 : Fin 3) = t.val / 4 ∧ win2_1.index t (1 : Fin 3) = 0 ∧ win2_1.index t (2 : Fin 3) = 0
    ∧ win2_2.index t (0 : Fin 1) = 0
    ∧ win2_3.index t (0 : Fin 3) = t.val / 4 ∧ win2_3.index t (1 : Fin 3) = t.val % 4 ∧ win2_3.index t (2 : Fin 3) = 0 :=
  (by decide +kernel : ∀ t : Fin grid2.N, _)

/-! ## The three input blocks of a point, as parts of their arrays -/

/-- The Q tile of point `t` is rows `1024·(t % 4) …` of batch `t / 4` of Q. -/
theorem qBlock_apply (c : Dev nD) (t : Fin cfg2.N) (y : S1x1024x1024.Idx) (k : S4x4096x1024.Idx)
    (h0 : (k 0).val = t.val / 4 + (y 0).val) (h1 : (k 1).val = 1024 * (t.val % 4) + (y 1).val)
    (h2 : (k 2).val = (y 2).val) :
    (blk2 V c 0 t : Vec Ideal S1x1024x1024 .bf16) y = (V c main_v10 : S4x4096x1024.Idx → EReal) k := by
  obtain ⟨e0, e1, e2, -⟩ := tilePlace2 t
  unfold blk2
  rw [View.read_apply]
  show V c main_v10 _ = V c main_v10 _
  refine congrArg (V c main_v10) (funext fun a => Fin.ext ?_)
  match a with
  | ⟨0, _⟩ =>
    show win2_0.index t (0 : Fin 3) * 1 + 1 * (y 0).val = (k 0).val
    rw [e0, h0]; omega
  | ⟨1, _⟩ =>
    show win2_0.index t (1 : Fin 3) * 1024 + 1 * (y 1).val = (k 1).val
    rw [e1, h1]; omega
  | ⟨2, _⟩ =>
    show win2_0.index t (2 : Fin 3) * 1024 + 1 * (y 2).val = (k 2).val
    rw [e2, h2]; omega

/-- The matrix block of point `t` is the whole matrix M of batch `t / 4`. -/
theorem mBlock_apply (c : Dev nD) (t : Fin cfg2.N) (y : S1x1024x1024.Idx) (k : S4x1024x1024.Idx)
    (h0 : (k 0).val = t.val / 4 + (y 0).val) (h1 : (k 1).val = (y 1).val) (h2 : (k 2).val = (y 2).val) :
    (blk2 V c 1 t : Vec Ideal S1x1024x1024 .bf16) y = (V c main_v13 : S4x1024x1024.Idx → EReal) k := by
  obtain ⟨-, -, -, e0, e1, e2, -⟩ := tilePlace2 t
  unfold blk2
  rw [View.read_apply]
  show V c main_v13 _ = V c main_v13 _
  refine congrArg (V c main_v13) (funext fun a => Fin.ext ?_)
  match a with
  | ⟨0, _⟩ =>
    show win2_1.index t (0 : Fin 3) * 1 + 1 * (y 0).val = (k 0).val
    rw [e0, h0]; omega
  | ⟨1, _⟩ =>
    show win2_1.index t (1 : Fin 3) * 1024 + 1 * (y 1).val = (k 1).val
    rw [e1, h1]; omega
  | ⟨2, _⟩ =>
    show win2_1.index t (2 : Fin 3) * 1024 + 1 * (y 2).val = (k 2).val
    rw [e2, h2]; omega

/-- The bias's block at any point is the whole output bias. -/
theorem boBlock_apply (c : Dev nD) (t : Fin cfg2.N) (y : S1024.Idx) :
    (blk2 V c 2 t : Vec Ideal S1024 .f32) y = (V c main_arg8 : S1024.Idx → EReal) y := by
  obtain ⟨-, -, -, -, -, -, e0, -⟩ := tilePlace2 t
  unfold blk2
  rw [View.read_apply]
  show V c main_arg8 _ = V c main_arg8 _
  refine congrArg (V c main_arg8) (funext fun a => Fin.ext ?_)
  match a with
  | ⟨0, _⟩ =>
    show win2_2.index t (0 : Fin 1) * 1024 + 1 * (y 0).val = (y 0).val
    rw [e0]; omega

/-- The output projection computed from point `t`'s three blocks at tile row r is the projection of the whole arrays in
    batch `t / 4` at row `1024·(t % 4) + r`. -/
theorem outProjOfBlocks (c : Dev nD) (t : Fin cfg2.N)
    (x w : Vec Ideal S1x1024x1024 .bf16) (b : Vec Ideal S1024 .f32)
    (hx : x = blk2 V c 0 t) (hw : w = blk2 V c 1 t) (hb : b = blk2 V c 2 t)
    (r f : Fin 1024) (bt : Fin 4) (s : Fin 4096) (hbt : bt.val = t.val / 4) (hs : s.val = 1024 * (t.val % 4) + r.val) :
    (∑ e : Fin 1024, x (ix3 (0 : Fin 1) r e) * w (ix3 (0 : Fin 1) e f)) + b (ix1 f)
      = outProj (qIn V c) (mIn V c) (boIn V c) (ix3 bt s f) := by
  subst hx hw hb
  show _ = (∑ e : Fin 1024, qIn V c (ix3 bt s e) * mIn V c (ix3 bt e f)) + boIn V c (ix1 f)
  rw [boBlock_apply]
  refine congrArg (· + boIn V c (ix1 f)) (Finset.sum_congr rfl fun e _ => ?_)
  rw [qBlock_apply V c t (ix3 (0 : Fin 1) r e) (ix3 bt s e) (by rw [hbt]; rfl) hs rfl,
    mBlock_apply V c t (ix3 (0 : Fin 1) e f) (ix3 bt e f) (by rw [hbt]; rfl) rfl rfl]

/-! ## The result array -/

/-- What the body leaves in the result tile at an entry: the tile's row against the matrix's column, plus the bias. -/
theorem oOut_apply (x w : Vec Ideal S1x1024x1024 .bf16) (b : Vec Ideal S1024 .f32) (r f : Fin 1024) :
    oOut2 x w b (ix3 (0 : Fin 1) r f)
      = (∑ e : Fin 1024, x (ix3 (0 : Fin 1) r e) * w (ix3 (0 : Fin 1) e f)) + b (ix1 f) := by
  unfold oOut2
  rw [View.canon_unit_zero originOff3]
  simp only [View.ld_unit_zero (S := S1x1024x1024) originOff3, View.ld_unit_zero (S := S1024) originOff1]
  exact Pay.out_apply x w b r f

/-- The result tile of point `t` at the entry `y` is the projection of the whole arrays at the entry `k` of batch `t / 4`
    that lies `1024·(t % 4)` rows further down. -/
theorem oTile_apply (c : Dev nD) (t : Fin cfg2.N) (y : S1x1024x1024.Idx) (k : S4x4096x1024.Idx)
    (h0 : (k 0).val = t.val / 4 + (y 0).val) (h1 : (k 1).val = 1024 * (t.val % 4) + (y 1).val)
    (h2 : (k 2).val = (y 2).val) :
    oOut2 (blk2 V c 0 t) (blk2 V c 1 t) (blk2 V c 2 t) y = outProj (qIn V c) (mIn V c) (boIn V c) k := by
  obtain ⟨u, r, f, rfl⟩ : ∃ (u : Fin 1) (r f : Fin 1024), y = ix3 u r f := ⟨y 0, y 1, y 2, eq_ix3 y⟩
  obtain ⟨bt, s, f', rfl⟩ : ∃ (bt : Fin 4) (s : Fin 4096) (f' : Fin 1024), k = ix3 bt s f' := ⟨k 0, k 1, k 2, eq_ix3 k⟩
  obtain rfl : f' = f := Fin.ext h2
  obtain rfl : u = 0 := Subsingleton.elim _ _
  rw [oOut_apply]
  exact outProjOfBlocks V c t _ _ _ rfl rfl rfl r f' bt s (by have := h0; simpa using this) h1

/-- What point `t` writes back to the result array is its block of the projection of the whole arrays. -/
theorem oFlushed (c : Dev nD) (t : Fin cfg2.N) :
    (dat2 V c).flushed 3 t
      = ((cfg2.win 3).blk t).view.read (Elt Ideal) (outProj (qIn V c) (mIn V c) (boIn V c)) := by
  obtain ⟨-, -, -, -, -, -, -, e0, e1, e2⟩ := tilePlace2 t
  show (cfg2.win 3).cut (grid2.coords t) ((dat2 V c).after 3 t) = _
  rw [dat2_after_3]
  funext j
  refine oTile_apply V c t _ _ ?_ ?_ ?_
  · show win2_3.index t (0 : Fin 3) * 1 + 1 * (j 0).val = t.val / 4 + (j 0).val
    rw [e0]; omega
  · show win2_3.index t (1 : Fin 3) * 1024 + 1 * (j 1).val = 1024 * (t.val % 4) + (j 1).val
    rw [e1]; omega
  · show win2_3.index t (2 : Fin 3) * 1024 + 1 * (j 2).val = (j 2).val
    rw [e2]; omega

/-- An entry of the result array is in point `t`'s block iff each coordinate is in the block's range on its axis. -/
theorem mem_oBlock (t : Fin cfg2.N) (i : S4x4096x1024.Idx) :
    i ∈ ((cfg2.win 3).blk t).view.set
      ↔ ∀ a : Fin 3, win2_3.index t a * S1x1024x1024.size a ≤ (i a).val
          ∧ (i a).val < win2_3.index t a * S1x1024x1024.size a + S1x1024x1024.size a := by
  show i ∈ ((View.whole main_v14).slice (win2_3.rect t)).set ↔ _
  rw [View.set_slice_whole, Rect.mem_set_unit]
  exact Iff.rfl

/-- Every entry of the result array is written back by some point: row `s` of batch `b` by point `4·b + s / 1024`. -/
theorem oCovered (i : S4x4096x1024.Idx) :
    ∃ t : Fin cfg2.N, (cfg2.win 3).flush t = true ∧ i ∈ ((cfg2.win 3).blk t).view.set := by
  have hb : (i 0).val < 4 := (i 0).isLt
  have hs : (i 1).val < 4096 := (i 1).isLt
  have hf : (i 2).val < 1024 := (i 2).isLt
  obtain ⟨t, ht⟩ : ∃ t : Fin cfg2.N, t.val = 4 * (i 0).val + (i 1).val / 1024 :=
    ⟨⟨4 * (i 0).val + (i 1).val / 1024, by show _ < grid2.N; rw [N_2]; omega⟩, rfl⟩
  obtain ⟨-, -, -, -, -, -, -, e0, e1, e2⟩ := tilePlace2 t
  refine ⟨t, flush2_3 t, ?_⟩
  rw [mem_oBlock]
  intro a
  match a with
  | ⟨0, _⟩ =>
    show win2_3.index t (0 : Fin 3) * 1 ≤ (i 0).val ∧ (i 0).val < win2_3.index t (0 : Fin 3) * 1 + 1
    rw [e0, ht]; omega
  | ⟨1, _⟩ =>
    show win2_3.index t (1 : Fin 3) * 1024 ≤ (i 1).val ∧ (i 1).val < win2_3.index t (1 : Fin 3) * 1024 + 1024
    rw [e1, ht]; omega
  | ⟨2, _⟩ =>
    show win2_3.index t (2 : Fin 3) * 1024 ≤ (i 2).val ∧ (i 2).val < win2_3.index t (2 : Fin 3) * 1024 + 1024
    rw [e2]; omega

/-- After the region's write-backs the result array is the output projection of the whole arrays. -/
theorem oArr_eq (c : Dev nD) :
    (dat2 V c).arrAt 3 cfg2.N = outProj (qIn V c) (mIn V c) (boIn V c) :=
  (dat2 V c).arrAt_eq_of_cover 3 _ (fun t _ => oFlushed V c t) oCovered

/-- Entry (b, s, f) of the result array after the region: row s of batch b of Q against column f of batch b's matrix M,
    plus the bias of column f. -/
theorem oArr (c : Dev nD) (b : Fin 4) (s : Fin 4096) (f : Fin 1024) :
    ((dat2 V c).arrAt 3 cfg2.N : S4x4096x1024.Idx → EReal) (ix3 b s f)
      = (∑ i : Fin 1024, qIn V c (ix3 b s i) * mIn V c (ix3 b i f)) + boIn V c (ix1 f) := by
  rw [oArr_eq]
  rfl

end Cert.KernelIdeal.Val

end
-- ==== Proof.Val.Compose.lean ====
/-
  The value of the kernel program on real arguments: the result array after @main, entry by entry, is the real number
  the reference's order of evaluation gives (`Cert.Attn.G` of the nine arguments).

  @main is five items in a row: host operations (flatten the input to 16384 rows; transpose the three projection
  weights, put them side by side as one 1024 x 3072 matrix and the three biases end to end; transpose the output
  weights), the fused projection, three reshapes back to four batches of 4096 rows, the per-batch matrix
  (Kᵀ·V)·Woᵀ accumulated over four row tiles, and the output Q·M + bo. Each item's effect on the arrays it writes is a
  fact about that item alone. Here those facts are put end to end: every array an item reads is followed back to the
  item that wrote it, until only the nine arguments are left, and the resulting chain of formulas is the one whose value
  was computed over the reals with no program in sight.
-/
import proofs.«176229_j4294967296116_1_alg».proof.Proof.Spec
import proofs.«176229_j4294967296116_1_alg».proof.Proof.Val.Chain
import proofs.«176229_j4294967296116_1_alg».proof.Proof.Val.Pay
import proofs.«176229_j4294967296116_1_alg».proof.Proof.KI.Reg0
import proofs.«176229_j4294967296116_1_alg».proof.Proof.KI.Reg1
import proofs.«176229_j4294967296116_1_alg».proof.Proof.KI.Reg2
import proofs.«176229_j4294967296116_1_alg».proof.Proof.KI.Run
import proofs.«176229_j4294967296116_1_alg».proof.Proof.Val.Host
import proofs.«176229_j4294967296116_1_alg».proof.Proof.Val.Arr0
import proofs.«176229_j4294967296116_1_alg».proof.Proof.Val.Arr1
import proofs.«176229_j4294967296116_1_alg».proof.Proof.Val.Arr2

noncomputable section

open scoped BigOperators

namespace Cert.KernelIdeal.Val

open Cert.KernelIdeal Cert.KernelIdeal.Gen Cert.KernelIdeal.Fr
open Cert.Attn
open Cert.KernelIdeal.Pay (bandCol)
open Idealize.ShloMosaic Idealize.ShloMosaic.TcCoe Idealize.ShloMosaic.ValueIdx
open Idealize.ShloMosaic.Pipeline (Dat)

/-! ## Entries as extended reals

At the ideal instance an f32 or a bf16 entry of an array is an extended real, but only after the array's type has been
looked up; arithmetic on entries is written more plainly over these readers, whose values are extended reals as stated. -/

/-- Entry `i` of a vector, entry `(i, j)` of a matrix, entry `(i, j, k)` of a rank-3 array of extended reals. -/
abbrev at1 {n : Nat} (a : (⟨1, ![n]⟩ : Shape).Idx → EReal) (i : Fin n) : EReal := a (ix1 i)
abbrev at2 {n0 n1 : Nat} (a : (⟨2, ![n0, n1]⟩ : Shape).Idx → EReal) (i : Fin n0) (j : Fin n1) : EReal := a (ix2 i j)
abbrev at3 {n0 n1 n2 : Nat} (a : (⟨3, ![n0, n1, n2]⟩ : Shape).Idx → EReal) (i : Fin n0) (j : Fin n1) (k : Fin n2) : EReal :=
  a (ix3 i j k)

/-! ## The five items end to end, over any three entry contents

`V1`, `V3`, `V4`: the arrays as the projection, the per-batch matrix and the output call find them. The hypotheses say, item
by item, what each array holds in terms of the arrays before it; nothing is assumed about how the contents came about. -/

/-- If the first host stretch leaves the flattened input, the fused transposed weights and biases and the transposed
    output weights (`e_*`), the projection writes its three bands (`p_q`, `p_k`, `p_v`), the second host stretch regroups
    them by batch and keeps the output weights (`r_*`), the second call writes the four-tile accumulation of Kᵀ·V from
    zero times Woᵀ (`p_m`), the third call finds Q, that matrix and the output bias (`s_*`) and writes Q·M + bo
    (`p_o`), and the nine arguments are real numbers (`a0` … `a8`), then each entry of the third call's result is the
    reference's real number. All the work is in the pure chain; here its hypotheses are matched one by one. -/
theorem out_entry_of_items
    (m : (ℓ : Loc nD τ sig) → Buf (Elt Ideal) ℓ) (c : Dev nD)
    (V1 V3 V4 : (c : Dev nD) → (b : Ref sig .tc) → Buf (Elt Ideal) ((c : Thread nD τ).loc b))
    (a0 : AllReal (m ((c.tc : Thread nD τ).loc main_arg0))) (a1 : AllReal (m ((c.tc : Thread nD τ).loc main_arg1))) (a2 : AllReal (m ((c.tc : Thread nD τ).loc main_arg2))) (a3 : AllReal (m ((c.tc : Thread nD τ).loc main_arg3))) (a4 : AllReal (m ((c.tc : Thread nD τ).loc main_arg4)))
    (a5 : AllReal (m ((c.tc : Thread nD τ).loc main_arg5))) (a6 : AllReal (m ((c.tc : Thread nD τ).loc main_arg6))) (a7 : AllReal (m ((c.tc : Thread nD τ).loc main_arg7))) (a8 : AllReal (m ((c.tc : Thread nD τ).loc main_arg8)))
    -- the first host stretch
    (e_x : ∀ (r : Fin 16384) (e : Fin 1024), at2 (V1 c main_v0) r e = at3 (m ((c.tc : Thread nD τ).loc main_arg0)) (rowBatch r) (rowIn r) e)
    (e_wq : ∀ (e q : Fin 1024), at2 (V1 c main_v5) e (bandCol 0 q) = at2 (m ((c.tc : Thread nD τ).loc main_arg1)) q e)
    (e_wk : ∀ (e q : Fin 1024), at2 (V1 c main_v5) e (bandCol 1 q) = at2 (m ((c.tc : Thread nD τ).loc main_arg3)) q e)
    (e_wv : ∀ (e q : Fin 1024), at2 (V1 c main_v5) e (bandCol 2 q) = at2 (m ((c.tc : Thread nD τ).loc main_arg5)) q e)
    (e_bq : ∀ q : Fin 1024, at1 (V1 c main_v6) (bandCol 0 q) = at1 (m ((c.tc : Thread nD τ).loc main_arg2)) q)
    (e_bk : ∀ q : Fin 1024, at1 (V1 c main_v6) (bandCol 1 q) = at1 (m ((c.tc : Thread nD τ).loc main_arg4)) q)
    (e_bv : ∀ q : Fin 1024, at1 (V1 c main_v6) (bandCol 2 q) = at1 (m ((c.tc : Thread nD τ).loc main_arg6)) q)
    (e_wo : ∀ j f : Fin 1024, at2 (V1 c main_v8) j f = at2 (m ((c.tc : Thread nD τ).loc main_arg7)) f j)
    -- the fused projection
    (p_q : ∀ (r : Fin 16384) (q : Fin 1024), at2 ((dat0 V1 c).arrAt 3 cfg0.N) r q
      = (∑ e : Fin 1024, at2 (V1 c main_v0) r e * at2 (V1 c main_v5) e (bandCol 0 q)) + at1 (V1 c main_v6) (bandCol 0 q))
    (p_k : ∀ (r : Fin 16384) (q : Fin 1024), at2 ((dat0 V1 c).arrAt 4 cfg0.N) r q
      = (∑ e : Fin 1024, at2 (V1 c main_v0) r e * at2 (V1 c main_v5) e (bandCol 1 q)) + at1 (V1 c main_v6) (bandCol 1 q))
    (p_v : ∀ (r : Fin 16384) (q : Fin 1024), at2 ((dat0 V1 c).arrAt 5 cfg0.N) r q
      = (∑ e : Fin 1024, at2 (V1 c main_v0) r e * at2 (V1 c main_v5) e (bandCol 2 q)) + at1 (V1 c main_v6) (bandCol 2 q))
    -- the second host stretch
    (r_q : ∀ (b : Fin 4) (s : Fin 4096) (i : Fin 1024), at3 (V3 c main_v10) b s i = at2 ((dat0 V1 c).arrAt 3 cfg0.N) (flatRow b s) i)
    (r_k : ∀ (b : Fin 4) (s : Fin 4096) (i : Fin 1024), at3 (V3 c main_v11) b s i = at2 ((dat0 V1 c).arrAt 4 cfg0.N) (flatRow b s) i)
    (r_v : ∀ (b : Fin 4) (s : Fin 4096) (i : Fin 1024), at3 (V3 c main_v12) b s i = at2 ((dat0 V1 c).arrAt 5 cfg0.N) (flatRow b s) i)
    (r_wo : ∀ j f : Fin 1024, at2 (V3 c main_v8) j f = at2 (V1 c main_v8) j f)
    -- the per-batch matrix
    (p_m : ∀ (b : Fin 4) (i f : Fin 1024), at3 ((dat1 V3 c).arrAt 3 cfg1.N) b i f = ∑ j : Fin 1024,
      ((((0 + ∑ r : Fin 1024, at3 (V3 c main_v11) b (tileRow 0 r) i * at3 (V3 c main_v12) b (tileRow 0 r) j)
          + ∑ r : Fin 1024, at3 (V3 c main_v11) b (tileRow 1 r) i * at3 (V3 c main_v12) b (tileRow 1 r) j)
          + ∑ r : Fin 1024, at3 (V3 c main_v11) b (tileRow 2 r) i * at3 (V3 c main_v12) b (tileRow 2 r) j)
          + ∑ r : Fin 1024, at3 (V3 c main_v11) b (tileRow 3 r) i * at3 (V3 c main_v12) b (tileRow 3 r) j)
        * at2 (V3 c main_v8) j f)
    -- what the output call finds
    (s_q : ∀ (b : Fin 4) (s : Fin 4096) (i : Fin 1024), at3 (V4 c main_v10) b s i = at3 (V3 c main_v10) b s i)
    (s_m : ∀ (b : Fin 4) (i f : Fin 1024), at3 (V4 c main_v13) b i f = at3 ((dat1 V3 c).arrAt 3 cfg1.N) b i f)
    (s_bo : ∀ f : Fin 1024, at1 (V4 c main_arg8) f = at1 (m ((c.tc : Thread nD τ).loc main_arg8)) f)
    -- the output call
    (p_o : ∀ (b : Fin 4) (s : Fin 4096) (f : Fin 1024), at3 ((dat2 V4 c).arrAt 3 cfg2.N) b s f
      = (∑ i : Fin 1024, at3 (V4 c main_v10) b s i * at3 (V4 c main_v13) b i f) + at1 (V4 c main_arg8) f)
    (b : Fin 4) (s : Fin 4096) (f : Fin 1024) :
    at3 ((dat2 V4 c).arrAt 3 cfg2.N) b s f
      = ((refOut (lin (re3 (m ((c.tc : Thread nD τ).loc main_arg0))) (re2 (m ((c.tc : Thread nD τ).loc main_arg1))) (re1 (m ((c.tc : Thread nD τ).loc main_arg2)))) (lin (re3 (m ((c.tc : Thread nD τ).loc main_arg0))) (re2 (m ((c.tc : Thread nD τ).loc main_arg3))) (re1 (m ((c.tc : Thread nD τ).loc main_arg4))))
          (lin (re3 (m ((c.tc : Thread nD τ).loc main_arg0))) (re2 (m ((c.tc : Thread nD τ).loc main_arg5))) (re1 (m ((c.tc : Thread nD τ).loc main_arg6)))) (re2 (m ((c.tc : Thread nD τ).loc main_arg7))) (re1 (m ((c.tc : Thread nD τ).loc main_arg8))) b s f : ℝ) : EReal) :=
  chain_real (re3 (m ((c.tc : Thread nD τ).loc main_arg0))) (re2 (m ((c.tc : Thread nD τ).loc main_arg1))) (re2 (m ((c.tc : Thread nD τ).loc main_arg3))) (re2 (m ((c.tc : Thread nD τ).loc main_arg5))) (re2 (m ((c.tc : Thread nD τ).loc main_arg7)))
    (re1 (m ((c.tc : Thread nD τ).loc main_arg2))) (re1 (m ((c.tc : Thread nD τ).loc main_arg4))) (re1 (m ((c.tc : Thread nD τ).loc main_arg6))) (re1 (m ((c.tc : Thread nD τ).loc main_arg8)))
    (fun r e => at2 (V1 c main_v0) r e) (fun e q => at2 (V1 c main_v5) e q) (fun q => at1 (V1 c main_v6) q)
    (fun j f => at2 (V1 c main_v8) j f) (fun f => at1 (m ((c.tc : Thread nD τ).loc main_arg8)) f)
    -- an argument's entry is the real number behind it
    (fun r e => (e_x r e).trans (a0 _))
    (fun e q => (e_wq e q).trans (a1 _)) (fun e q => (e_wk e q).trans (a3 _)) (fun e q => (e_wv e q).trans (a5 _))
    (fun q => (e_bq q).trans (a2 _)) (fun q => (e_bk q).trans (a4 _)) (fun q => (e_bv q).trans (a6 _))
    (fun j f => (e_wo j f).trans (a7 _))
    (fun f => a8 _)
    (fun r q => at2 ((dat0 V1 c).arrAt 3 cfg0.N) r q) (fun r q => at2 ((dat0 V1 c).arrAt 4 cfg0.N) r q)
    (fun r q => at2 ((dat0 V1 c).arrAt 5 cfg0.N) r q)
    p_q p_k p_v
    (fun b s i => at3 (V3 c main_v10) b s i) (fun b s i => at3 (V3 c main_v11) b s i) (fun b s i => at3 (V3 c main_v12) b s i)
    r_q r_k r_v
    (fun b i f => at3 ((dat1 V3 c).arrAt 3 cfg1.N) b i f)
    -- the output weights the second call reads are the ones the first host stretch left
    (fun b i f => (p_m b i f).trans (by simp only [r_wo]))
    (fun b s f => at3 ((dat2 V4 c).arrAt 3 cfg2.N) b s f)
    -- the third call reads Q as regrouped, the second call's matrix, and the bias argument itself
    (fun b s f => (p_o b s f).trans (by simp only [s_q, s_m, s_bo]))
    b s f

/-! ## The result array as a whole

The same, for the whole array at once, with the projection's three bands no longer assumed: they hold over any entry
contents. An index of the result is its three coordinates, and the reference's value at an index is by definition the
real number at those coordinates. -/

/-- The third call's result array is the reference's result, given only how the arrays are handed from item to item
    (`e_*`, `r_*`, `s_*`) and what the second and third calls write (`p_m`, `p_o`). -/
theorem out_array_of_items
    (m : (ℓ : Loc nD τ sig) → Buf (Elt Ideal) ℓ) (c : Dev nD)
    (V1 V3 V4 : (c : Dev nD) → (b : Ref sig .tc) → Buf (Elt Ideal) ((c : Thread nD τ).loc b))
    (a0 : AllReal (m ((c.tc : Thread nD τ).loc main_arg0))) (a1 : AllReal (m ((c.tc : Thread nD τ).loc main_arg1))) (a2 : AllReal (m ((c.tc : Thread nD τ).loc main_arg2))) (a3 : AllReal (m ((c.tc : Thread nD τ).loc main_arg3))) (a4 : AllReal (m ((c.tc : Thread nD τ).loc main_arg4)))
    (a5 : AllReal (m ((c.tc : Thread nD τ).loc main_arg5))) (a6 : AllReal (m ((c.tc : Thread nD τ).loc main_arg6))) (a7 : AllReal (m ((c.tc : Thread nD τ).loc main_arg7))) (a8 : AllReal (m ((c.tc : Thread nD τ).loc main_arg8)))
    -- the first host stretch
    (e_x : ∀ (r : Fin 16384) (e : Fin 1024), at2 (V1 c main_v0) r e = at3 (m ((c.tc : Thread nD τ).loc main_arg0)) (rowBatch r) (rowIn r) e)
    (e_wq : ∀ (e q : Fin 1024), at2 (V1 c main_v5) e (bandCol 0 q) = at2 (m ((c.tc : Thread nD τ).loc main_arg1)) q e)
    (e_wk : ∀ (e q : Fin 1024), at2 (V1 c main_v5) e (bandCol 1 q) = at2 (m ((c.tc : Thread nD τ).loc main_arg3)) q e)
    (e_wv : ∀ (e q : Fin 1024), at2 (V1 c main_v5) e (bandCol 2 q) = at2 (m ((c.tc : Thread nD τ).loc main_arg5)) q e)
    (e_bq : ∀ q : Fin 1024, at1 (V1 c main_v6) (bandCol 0 q) = at1 (m ((c.tc : Thread nD τ).loc main_arg2)) q)
    (e_bk : ∀ q : Fin 1024, at1 (V1 c main_v6) (bandCol 1 q) = at1 (m ((c.tc : Thread nD τ).loc main_arg4)) q)
    (e_bv : ∀ q : Fin 1024, at1 (V1 c main_v6) (bandCol 2 q) = at1 (m ((c.tc : Thread nD τ).loc main_arg6)) q)
    (e_wo : ∀ j f : Fin 1024, at2 (V1 c main_v8) j f = at2 (m ((c.tc : Thread nD τ).loc main_arg7)) f j)
    -- the second host stretch
    (r_q : ∀ (b : Fin 4) (s : Fin 4096) (i : Fin 1024), at3 (V3 c main_v10) b s i = at2 ((dat0 V1 c).arrAt 3 cfg0.N) (flatRow b s) i)
    (r_k : ∀ (b : Fin 4) (s : Fin 4096) (i : Fin 1024), at3 (V3 c main_v11) b s i = at2 ((dat0 V1 c).arrAt 4 cfg0.N) (flatRow b s) i)
    (r_v : ∀ (b : Fin 4) (s : Fin 4096) (i : Fin 1024), at3 (V3 c main_v12) b s i = at2 ((dat0 V1 c).arrAt 5 cfg0.N) (flatRow b s) i)
    (r_wo : ∀ j f : Fin 1024, at2 (V3 c main_v8) j f = at2 (V1 c main_v8) j f)
    -- what the output call finds
    (s_q : ∀ (b : Fin 4) (s : Fin 4096) (i : Fin 1024), at3 (V4 c main_v10) b s i = at3 (V3 c main_v10) b s i)
    (s_m : ∀ (b : Fin 4) (i f : Fin 1024), at3 (V4 c main_v13) b i f = at3 ((dat1 V3 c).arrAt 3 cfg1.N) b i f)
    (s_bo : ∀ f : Fin 1024, at1 (V4 c main_arg8) f = at1 (m ((c.tc : Thread nD τ).loc main_arg8)) f) :
    (dat2 V4 c).arrAt 3 cfg2.N = Cert.Attn.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext idx
  rw [eq_ix3 idx]
  exact out_entry_of_items m c V1 V3 V4 a0 a1 a2 a3 a4 a5 a6 a7 a8 e_x e_wq e_wk e_wv e_bq e_bk e_bv e_wo
    (qArr V1 c) (kArr V1 c) (vArr V1 c) r_q r_k r_v r_wo (mArr V3 c) s_q s_m s_bo (oArr V4 c) (idx 0) (idx 1) (idx 2)

/-! ## Following each array back to the item that wrote it

From here on the three entry contents are the program's own: the arrays after the first host stretch, after the second,
and after the second call (`Fr.V1 m`, `Fr.V3 m`, `Fr.V4 m`). A call changes its own arrays and no other; a host stretch
changes what its operations write and nothing else. So an array read at some item is found, going back, at the last item
that wrote it. -/

section Traced

variable (m : (ℓ : Loc nD τ sig) → Buf (Elt Ideal) ℓ) (c : Dev nD)

/-- The output call reads Q where the second host stretch put it: the second call does not write it. -/
theorem q_untouched (b : Fin 4) (s : Fin 4096) (i : Fin 1024) :
    at3 (Fr.V4 m c main_v10) b s i = at3 (Fr.V3 m c main_v10) b s i :=
  congrFun (W4_of_ne m c main_v10 (by decide)) _

/-- The per-batch matrix it reads is the second call's result array. -/
theorem mix_handed (b : Fin 4) (i f : Fin 1024) :
    at3 (Fr.V4 m c main_v13) b i f = at3 ((dat1 (Fr.V3 m) c).arrAt 3 cfg1.N) b i f :=
  congrFun (W4_arr m c 3) _

/-- The output bias it reads is the ninth argument: neither call before it and neither host stretch writes it. -/
theorem bias_is_argument (f : Fin 1024) : at1 (Fr.V4 m c main_arg8) f = at1 (m ((c.tc : Thread nD τ).loc main_arg8)) f :=
  congrFun ((W4_of_ne m c main_arg8 (by decide)).trans ((host1_keep_bo (W2 m c)).trans
    ((W2_of_ne m c main_arg8 (by decide)).trans (host_bo m c)))) _

/-- The second host stretch regroups the projection's Q band by batch: row `s` of batch `b` is flattened row
    `b·4096 + s` of the first call's first result array. -/
theorem q_regrouped (b : Fin 4) (s : Fin 4096) (i : Fin 1024) :
    at3 (Fr.V3 m c main_v10) b s i = at2 ((dat0 (Fr.V1 m) c).arrAt 3 cfg0.N) (flatRow b s) i :=
  (host1_q (W2 m c) b s i).trans (congrFun (W2_arr m c 3) _)
/-- Likewise the K band, from the second result array, -/
theorem k_regrouped (b : Fin 4) (s : Fin 4096) (i : Fin 1024) :
    at3 (Fr.V3 m c main_v11) b s i = at2 ((dat0 (Fr.V1 m) c).arrAt 4 cfg0.N) (flatRow b s) i :=
  (host1_k (W2 m c) b s i).trans (congrFun (W2_arr m c 4) _)
/-- and the V band, from the third. -/
theorem v_regrouped (b : Fin 4) (s : Fin 4096) (i : Fin 1024) :
    at3 (Fr.V3 m c main_v12) b s i = at2 ((dat0 (Fr.V1 m) c).arrAt 5 cfg0.N) (flatRow b s) i :=
  (host1_v (W2 m c) b s i).trans (congrFun (W2_arr m c 5) _)

/-- The transposed output weights the second call reads are the first host stretch's: the first call does not write
    them and the second host stretch keeps them. -/
theorem out_weights_kept (j f : Fin 1024) : at2 (Fr.V3 m c main_v8) j f = at2 (Fr.V1 m c main_v8) j f :=
  congrFun ((host1_keep_wo (W2 m c)).trans (W2_of_ne m c main_v8 (by decide))) _

end Traced

/-! ## The program's result -/

/-- THE VALUE: on real arguments, the third call's result array — which is what @main leaves in its result — is the
    reference's result. Every hand-over between items is one of the facts above or one of the first host stretch's; what
    the three calls write holds over any entry contents. -/
theorem result_G (m : (ℓ : Loc nD τ sig) → Buf (Elt Ideal) ℓ) (c : Dev nD)
    (h0 : AllReal (m ((c.tc : Thread nD τ).loc main_arg0))) (h1 : AllReal (m ((c.tc : Thread nD τ).loc main_arg1))) (h2 : AllReal (m ((c.tc : Thread nD τ).loc main_arg2))) (h3 : AllReal (m ((c.tc : Thread nD τ).loc main_arg3))) (h4 : AllReal (m ((c.tc : Thread nD τ).loc main_arg4)))
    (h5 : AllReal (m ((c.tc : Thread nD τ).loc main_arg5))) (h6 : AllReal (m ((c.tc : Thread nD τ).loc main_arg6))) (h7 : AllReal (m ((c.tc : Thread nD τ).loc main_arg7))) (h8 : AllReal (m ((c.tc : Thread nD τ).loc main_arg8))) :
    (dat2 (Fr.V4 m) c).arrAt 3 cfg2.N = Cert.Attn.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  out_array_of_items m c (Fr.V1 m) (Fr.V3 m) (Fr.V4 m) h0 h1 h2 h3 h4 h5 h6 h7 h8
    (host_x m c) (host_wq m c) (host_wk m c) (host_wv m c) (host_bq m c) (host_bk m c) (host_bv m c) (host_wo m c)
    (q_regrouped m c) (k_regrouped m c) (v_regrouped m c) (out_weights_kept m c)
    (q_untouched m c) (mix_handed m c) (bias_is_argument m c)

/-- THE RUN: started on memory `m` whose nine arguments are real numbers on every core, @main ends with the result array
    at the reference's result and the nine arguments as they were. The run itself ends with the result array at the
    third call's result array; that array is the reference's result by the theorem above. -/
theorem run_G (m : (ℓ : Loc nD τ sig) → Buf (Elt Ideal) ℓ) (ρ : Dev nD → PrngReg)
    (hreal : ∀ c : Dev nD, AllReal (m ((c.tc : Thread nD τ).loc main_arg0))
      ∧ AllReal (m ((c.tc : Thread nD τ).loc main_arg1))
      ∧ AllReal (m ((c.tc : Thread nD τ).loc main_arg2))
      ∧ AllReal (m ((c.tc : Thread nD τ).loc main_arg3))
      ∧ AllReal (m ((c.tc : Thread nD τ).loc main_arg4))
      ∧ AllReal (m ((c.tc : Thread nD τ).loc main_arg5))
      ∧ AllReal (m ((c.tc : Thread nD τ).loc main_arg6))
      ∧ AllReal (m ((c.tc : Thread nD τ).loc main_arg7))
      ∧ AllReal (m ((c.tc : Thread nD τ).loc main_arg8))) :
    θ_run (Cert.KernelIdeal.defs (F := Ideal)) (onTc (τ := τ) (main (F := Ideal))) ⟨m, fun _ => 0, ρ⟩ fun r => ∀ c : Dev nD,
      r.2.mem ((c.tc : Thread nD τ).loc main_v14) = Cert.Attn.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun _ h c => ⟨(h c).1.trans (result_G m c (hreal c).1 (hreal c).2.1 (hreal c).2.2.1 (hreal c).2.2.2.1
      (hreal c).2.2.2.2.1 (hreal c).2.2.2.2.2.1 (hreal c).2.2.2.2.2.2.1 (hreal c).2.2.2.2.2.2.2.1 (hreal c).2.2.2.2.2.2.2.2), (h c).2⟩)
    (Fr.run_result (F := Ideal) m ρ)

end Cert.KernelIdeal.Val

end
-- ==== Proof.RefValue.lean ====
/-
  The reference program, read as mathematics. Its eighteen operations are three linear layers of the same input
  (Q, K, V), the scores Q·Kᵀ, the product scores·V, the output layer and its bias. Entry by entry each operation is a
  finite sum of products, or a sum of two entries. When every argument entry is a real number, every such
  intermediate is again a real number (finite sums and products of reals are real), so the extended-real arithmetic
  the program is written in coincides with real arithmetic, and the result array is the function `G` of the
  specification: the reference's order of evaluation, over the reals, read back as extended reals.
-/
import proofs.«176229_j4294967296116_1_alg».proof.Proof.Gen.ReferenceIdeal.Run
import proofs.«176229_j4294967296116_1_alg».proof.Proof.Gen.ReferenceIdeal.Read
import proofs.«176229_j4294967296116_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.Attn Idealize.ShloMosaic Idealize.ShloMosaic.TcCoe Idealize.SL.Sem
open Idealize.ShloMosaic.ValueIdx

/-! ## The three linear layers

Queries, keys and values are the same operation `x·Wᵀ + b` applied to three pairs (W, b). -/

/-- A linear layer on real arguments: entry `(bb, s, f)` of `x·Wᵀ + b` is the real number
    `∑ e, x[bb,s,e]·W[f,e] + b[f]`. The contraction runs over the last axis of `x` and the last axis of `W`; the bias is
    a vector of length 1024 repeated along the batch and row axes, so only its coordinate `f` is read. -/
theorem linear_real (x : (⟨S4x4096x1024, .f32⟩ : BufTy).Contents (Elt Ideal)) (W : (⟨S1024x1024, .f32⟩ : BufTy).Contents (Elt Ideal)) (b : (⟨S1024, .f32⟩ : BufTy).Contents (Elt Ideal))
    (hx : AllReal x) (hW : AllReal W) (hb : AllReal b) (bb : Fin 4) (s : Fin 4096) (f : Fin 1024) :
    Read.val_main_v3 (F := Ideal) x W b (ix3 bb s f) = ((lin (re3 x) (re2 W) (re1 b) bb s f : ℝ) : EReal) := by
  -- where the e-th term of the contraction reads its two operands, and where the bias is read
  have hl : ∀ e : Fin 1024, Read.lidx_main_v0 (ix3 bb s f) e = ix3 bb s e := fun e => funext fun a => Fin.ext (by
    match a with | ⟨0, _⟩ => rfl | ⟨1, _⟩ => rfl | ⟨2, _⟩ => rfl)
  have hr : ∀ e : Fin 1024, Read.ridx_main_v0 (ix3 bb s f) e = ix2 f e := fun e => funext fun a => Fin.ext (by
    match a with | ⟨0, _⟩ => rfl | ⟨1, _⟩ => rfl)
  have hbias : Read.idx_main_v1 (Read.idx_main_v2 (ix3 bb s f)) = ix1 f := funext fun a => Fin.ext (by
    match a with | ⟨0, _⟩ => rfl)
  rw [Read.val_main_v3_apply, Read.val_main_v0_apply, Read.val_main_v2_apply, Read.val_main_v1_apply, Ideal.addf_def,
    hbias]
  unfold lin
  -- a real sum plus a real, read as an extended real, is the sum of the terms read as extended reals plus the bias
  rw [EReal.coe_add, ← coe_sum]
  refine congrArg₂ (· + ·) (Finset.sum_congr rfl fun e _ => ?_) (hb _)
  rw [hl e, hr e, EReal.coe_mul]
  exact congrArg₂ (· * ·) (hx _) (hW _)

/-- The key layer is the same operation as the query layer, on its own weights. -/
theorem key_real (x : (⟨S4x4096x1024, .f32⟩ : BufTy).Contents (Elt Ideal)) (W : (⟨S1024x1024, .f32⟩ : BufTy).Contents (Elt Ideal)) (b : (⟨S1024, .f32⟩ : BufTy).Contents (Elt Ideal))
    (hx : AllReal x) (hW : AllReal W) (hb : AllReal b) (bb : Fin 4) (s : Fin 4096) (f : Fin 1024) :
    Read.val_main_v7 (F := Ideal) x W b (ix3 bb s f) = ((lin (re3 x) (re2 W) (re1 b) bb s f : ℝ) : EReal) :=
  linear_real x W b hx hW hb bb s f

/-- The value layer is the same operation as the query layer, on its own weights. -/
theorem value_real (x : (⟨S4x4096x1024, .f32⟩ : BufTy).Contents (Elt Ideal)) (W : (⟨S1024x1024, .f32⟩ : BufTy).Contents (Elt Ideal)) (b : (⟨S1024, .f32⟩ : BufTy).Contents (Elt Ideal))
    (hx : AllReal x) (hW : AllReal W) (hb : AllReal b) (bb : Fin 4) (s : Fin 4096) (f : Fin 1024) :
    Read.val_main_v11 (F := Ideal) x W b (ix3 bb s f) = ((lin (re3 x) (re2 W) (re1 b) bb s f : ℝ) : EReal) :=
  linear_real x W b hx hW hb bb s f

/-! ## Scores, scores·V, output layer -/

section
variable (x0 : (⟨S4x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal))
  (h0 : AllReal x0) (h1 : AllReal x1) (h2 : AllReal x2) (h3 : AllReal x3) (h4 : AllReal x4) (h5 : AllReal x5)
  (h6 : AllReal x6) (h7 : AllReal x7)
include h0 h1 h2 h3 h4

/-- The score of query row `s` against key row `r` in batch `bb` is the real inner product of the two rows:
    both operands are contracted over their feature axis, the batch axis is shared. -/
theorem scores_real (bb : Fin 4) (s r : Fin 4096) :
    Read.val_main_v12 (F := Ideal) x0 x1 x2 x3 x4 (ix3 bb s r)
      = ((∑ i, lin (re3 x0) (re2 x1) (re1 x2) bb s i * lin (re3 x0) (re2 x3) (re1 x4) bb r i : ℝ) : EReal) := by
  have hl : ∀ i : Fin 1024, Read.lidx_main_v12 (ix3 bb s r) i = ix3 bb s i := fun i => funext fun a => Fin.ext (by
    match a with | ⟨0, _⟩ => rfl | ⟨1, _⟩ => rfl | ⟨2, _⟩ => rfl)
  have hr : ∀ i : Fin 1024, Read.ridx_main_v12 (ix3 bb s r) i = ix3 bb r i := fun i => funext fun a => Fin.ext (by
    match a with | ⟨0, _⟩ => rfl | ⟨1, _⟩ => rfl | ⟨2, _⟩ => rfl)
  rw [Read.val_main_v12_apply, ← coe_sum]
  refine Finset.sum_congr rfl fun i _ => ?_
  rw [hl i, hr i, linear_real x0 x1 x2 h0 h1 h2, key_real x0 x3 x4 h0 h3 h4, EReal.coe_mul]

include h5 h6

/-- Entry `(bb, s, j)` of scores·V: the scores of row `s` against all 4096 key rows, each times the value row's
    coordinate `j`, summed over the key rows. -/
theorem weighted_real (bb : Fin 4) (s : Fin 4096) (j : Fin 1024) :
    Read.val_main_v13 (F := Ideal) x0 x1 x2 x3 x4 x5 x6 (ix3 bb s j)
      = ((∑ r, (∑ i, lin (re3 x0) (re2 x1) (re1 x2) bb s i * lin (re3 x0) (re2 x3) (re1 x4) bb r i)
            * lin (re3 x0) (re2 x5) (re1 x6) bb r j : ℝ) : EReal) := by
  have hl : ∀ r : Fin 4096, Read.lidx_main_v13 (ix3 bb s j) r = ix3 bb s r := fun r => funext fun a => Fin.ext (by
    match a with | ⟨0, _⟩ => rfl | ⟨1, _⟩ => rfl | ⟨2, _⟩ => rfl)
  have hr : ∀ r : Fin 4096, Read.ridx_main_v13 (ix3 bb s j) r = ix3 bb r j := fun r => funext fun a => Fin.ext (by
    match a with | ⟨0, _⟩ => rfl | ⟨1, _⟩ => rfl | ⟨2, _⟩ => rfl)
  rw [Read.val_main_v13_apply, ← coe_sum]
  refine Finset.sum_congr rfl fun r _ => ?_
  rw [hl r, hr r, scores_real x0 x1 x2 x3 x4 h0 h1 h2 h3 h4, value_real x0 x5 x6 h0 h5 h6, EReal.coe_mul]

include h7

/-- Entry `(bb, s, f)` of the output layer before its bias: row `s` of scores·V against row `f` of `Wo`. -/
theorem projected_real (bb : Fin 4) (s : Fin 4096) (f : Fin 1024) :
    Read.val_main_v14 (F := Ideal) x0 x1 x2 x3 x4 x5 x6 x7 (ix3 bb s f)
      = ((∑ j, (∑ r, (∑ i, lin (re3 x0) (re2 x1) (re1 x2) bb s i * lin (re3 x0) (re2 x3) (re1 x4) bb r i)
            * lin (re3 x0) (re2 x5) (re1 x6) bb r j) * re2 x7 f j : ℝ) : EReal) := by
  have hl : ∀ j : Fin 1024, Read.lidx_main_v14 (ix3 bb s f) j = ix3 bb s j := fun j => funext fun a => Fin.ext (by
    match a with | ⟨0, _⟩ => rfl | ⟨1, _⟩ => rfl | ⟨2, _⟩ => rfl)
  have hr : ∀ j : Fin 1024, Read.ridx_main_v14 (ix3 bb s f) j = ix2 f j := fun j => funext fun a => Fin.ext (by
    match a with | ⟨0, _⟩ => rfl | ⟨1, _⟩ => rfl)
  rw [Read.val_main_v14_apply, ← coe_sum]
  refine Finset.sum_congr rfl fun j _ => ?_
  rw [hl j, hr j, weighted_real x0 x1 x2 x3 x4 x5 x6 h0 h1 h2 h3 h4 h5 h6, EReal.coe_mul]
  exact congrArg₂ (· * ·) rfl (h7 _)

end

/-! ## The result -/

/-- On arguments whose entries are all real numbers, the reference's result array is G of the arguments. -/
theorem result_eq (x0 : (⟨S4x4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))
    (h0 : AllReal x0) (h1 : AllReal x1) (h2 : AllReal x2) (h3 : AllReal x3) (h4 : AllReal x4) (h5 : AllReal x5) (h6 : AllReal x6) (h7 : AllReal x7) (h8 : AllReal x8) :
    Cert.ReferenceIdeal.Read.val_main_v17 (F := Ideal) x0 x1 x2 x3 x4 x5 x6 x7 x8 = G x0 x1 x2 x3 x4 x5 x6 x7 x8 := by
  funext i
  obtain ⟨bb, s, f, rfl⟩ : ∃ (bb : Fin 4) (s : Fin 4096) (f : Fin 1024), i = ix3 bb s f := ⟨i 0, i 1, i 2, eq_ix3 i⟩
  -- the output bias is read at coordinate f only
  have hbias : Read.idx_main_v15 (Read.idx_main_v16 (ix3 bb s f)) = ix1 f := funext fun a => Fin.ext (by
    match a with | ⟨0, _⟩ => rfl)
  rw [Read.val_main_v17_apply, projected_real x0 x1 x2 x3 x4 x5 x6 x7 h0 h1 h2 h3 h4 h5 h6 h7, Read.val_main_v16_apply,
    Read.val_main_v15_apply, hbias, Ideal.addf_def]
  -- G at this entry is the reference's real number: the projected sum plus the bias, both real
  show _ = ((refOut (lin (re3 x0) (re2 x1) (re1 x2)) (lin (re3 x0) (re2 x3) (re1 x4)) (lin (re3 x0) (re2 x5) (re1 x6))
    (re2 x7) (re1 x8) bb s f : ℝ) : EReal)
  unfold refOut
  rw [EReal.coe_add]
  exact congrArg₂ (· + ·) rfl (h8 _)

/-- The reference's run with its result named: on real arguments every weakly fair execution ends with main_v17 at G of the arguments, the arguments unchanged. -/
theorem run_G (m : (ℓ : Loc nD τ sig) → Buf (Elt Ideal) ℓ) (ρ : Dev nD → PrngReg)
    (hreal : ∀ c : Dev nD, AllReal (m ((c.tc : Thread nD τ).loc main_arg0)) ∧ AllReal (m ((c.tc : Thread nD τ).loc main_arg1)) ∧ AllReal (m ((c.tc : Thread nD τ).loc main_arg2)) ∧ AllReal (m ((c.tc : Thread nD τ).loc main_arg3)) ∧ AllReal (m ((c.tc : Thread nD τ).loc main_arg4)) ∧ AllReal (m ((c.tc : Thread nD τ).loc main_arg5)) ∧ AllReal (m ((c.tc : Thread nD τ).loc main_arg6)) ∧ AllReal (m ((c.tc : Thread nD τ).loc main_arg7)) ∧ AllReal (m ((c.tc : Thread nD τ).loc main_arg8))) :
    θ_run (Cert.ReferenceIdeal.defs (F := Ideal)) (onTc (τ := τ) (main (F := Ideal))) ⟨m, fun _ => 0, ρ⟩ fun r => ∀ c : Dev nD,
      r.2.mem ((c.tc : Thread nD τ).loc main_v17) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (Cert.ReferenceIdeal.defs (F := Ideal)) _ _).mono (fun _ h c =>
      ⟨by rw [(h c).1, Read.val_main_v17_eq, result_eq _ _ _ _ _ _ _ _ _ (hreal c).1 (hreal c).2.1 (hreal c).2.2.1 (hreal c).2.2.2.1 (hreal c).2.2.2.2.1 (hreal c).2.2.2.2.2.1 (hreal c).2.2.2.2.2.2.1 (hreal c).2.2.2.2.2.2.2.1 (hreal c).2.2.2.2.2.2.2.2],
        (h c).2⟩)
    (Cert.ReferenceIdeal.Value.run (F := Ideal) m ρ)

end Cert.ReferenceIdeal.RefValue

end
-- ==== Proof.Finite.lean ====
/-
  From the certificate's precondition to real numbers. The precondition says, of each of the nine arguments, that the
  absolute value of every entry is below +∞ (a conjunction of nine "all entries" tests). At the ideal values an entry
  is an extended real, and an extended real whose absolute value is below +∞ is neither +∞ nor −∞: it is a real number.
-/
import proofs.«176229_j4294967296116_1_alg».proof.Pre_finite_inputs
import proofs.«176229_j4294967296116_1_alg».proof.Proof.Gen.Pre_finite_inputs
import proofs.«176229_j4294967296116_1_alg».proof.Proof.Spec
import Idealize.ShloMosaic.Lib.ReduceAll
import Idealize.ShloMosaic.Lib.ValueIdx

noncomputable section

open Idealize.ShloMosaic

namespace Cert.Finite

open Cert.Pre_finite_inputs Cert.Attn

/-- The word 0x7F800000 (sign 0, exponent all ones, fraction 0) denotes +∞. -/
theorem inf_word : Ideal.ofBits .f32 0x7F800000#32 = (⊤ : EReal) := by
  simp [Ideal.ofBits, Ideal.ieee]

/-- An extended real `v` with max v (−v) < +∞ is neither +∞ nor −∞: at v = +∞ the maximum is +∞ itself, at v = −∞ it is
    −(−∞) = +∞, and in both cases the strict comparison fails; a real number is trivially neither. -/
theorem ne_top_bot_of_abs_lt_top (v : EReal) (h : Ideal.cmp .olt (max v (-v)) (⊤ : EReal) = 1#1) : v ≠ ⊤ ∧ v ≠ ⊥ := by
  induction v using EReal.rec with
  | bot => simp [Ideal.cmp] at h
  | top => simp [Ideal.cmp] at h
  | coe r => exact ⟨EReal.coe_ne_top r, EReal.coe_ne_bot r⟩

/-- The rank-0 shape has exactly one index (the empty tuple). -/
instance scalarIdx_subsingleton : Subsingleton S_.Idx := ⟨fun a b => funext fun d => d.elim0⟩

/-- One "all entries" test, for an array of any shape `s`: if the conjunction over all axes of the bits
    "|a i| < +∞" (the bound being the scalar +∞ spread over `s`) comes out 1, then every bit is 1, so every entry of `a`
    is a real number. -/
theorem allReal_of_all_lt_inf {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi (cmpf .olt (Host.absf a) (broadcastInDim s ![] hb (constant S_ .f32 0x7F800000#32)))
      init hr hu j = 1#1) :
    AllReal a := by
  refine AllReal.of_abs_lt_top fun i => ?_
  -- the bit at index i: max (a i) (−(a i)) < the value of the word 0x7F800000
  have hi := Host.reduce_andi_all _ init hr hu j e i
  refine ne_top_bot_of_abs_lt_top (a i) ?_
  rw [← inf_word]
  exact hi

/-- If the precondition holds of the nine arrays (its one bit is set), every entry of each of them is a real number. -/
theorem args_real [Cert.Pre_finite_inputs.Facts]
    (x : FVec Ideal S4x4096x1024 .f32) (Wq : FVec Ideal S1024x1024 .f32) (bq : FVec Ideal S1024 .f32)
    (Wk : FVec Ideal S1024x1024 .f32) (bk : FVec Ideal S1024 .f32) (Wv : FVec Ideal S1024x1024 .f32) (bv : FVec Ideal S1024 .f32)
    (Wo : FVec Ideal S1024x1024 .f32) (bo : FVec Ideal S1024 .f32)
    (h : Cert.Pre_finite_inputs.fn (F := Ideal) x Wq bq Wk bk Wv bv Wo bo = fun _ => 1#1) :
    AllReal x ∧ AllReal Wq ∧ AllReal bq ∧ AllReal Wk ∧ AllReal bk ∧ AllReal Wv ∧ AllReal bv ∧ AllReal Wo ∧ AllReal bo := by
  -- The result has one index; there the bit is a left-nested conjunction of the nine tests, and a conjunction of
  -- bits is 1 exactly when both are.
  have h0 := congrFun h ValueIdx.ix0
  simp only [fn, fn_part1, fn_part2, andi, IntOp.andi_eq_one] at h0
  obtain ⟨⟨⟨⟨⟨⟨⟨⟨e0, e1⟩, e2⟩, e3⟩, e4⟩, e5⟩, e6⟩, e7⟩, e8⟩ := h0
  exact ⟨allReal_of_all_lt_inf _ _ _ _ _ _ e0, allReal_of_all_lt_inf _ _ _ _ _ _ e1,
    allReal_of_all_lt_inf _ _ _ _ _ _ e2, allReal_of_all_lt_inf _ _ _ _ _ _ e3,
    allReal_of_all_lt_inf _ _ _ _ _ _ e4, allReal_of_all_lt_inf _ _ _ _ _ _ e5,
    allReal_of_all_lt_inf _ _ _ _ _ _ e6, allReal_of_all_lt_inf _ _ _ _ _ _ e7,
    allReal_of_all_lt_inf _ _ _ _ _ _ e8⟩

end Cert.Finite

end
-- ==== Proof.lean ====
/-
  The certificate of `Cert.Claim`: frame_Kernel ∧ frame_KernelIdeal ∧ frame_ReferenceIdeal ∧ preserves_Kernel_KernelIdeal ∧
  algebraic_KernelIdeal_ReferenceIdeal, for single-head attention WITHOUT softmax.

  The reference computes out = ((Q·Kᵀ)·V)·Woᵀ + bo with Q, K, V the three linear layers of x; the kernel computes
  out = Q·((Kᵀ·V)·Woᵀ) + bo in three pallas_calls: the fused projection, the per-batch matrix M = (Kᵀ·V)·Woᵀ with Kᵀ·V
  accumulated over four row tiles in a scratch buffer, and Q·M + bo. At the ideal values the changes of float format are
  the identity and the two orders of evaluation agree by associativity of matrix multiplication — a law of the REAL
  numbers, which fails at the infinities of the extended reals: so the precondition (every input finite) is used, every
  intermediate is then a real number, and both programs end at the same array `Cert.Attn.G` of the arguments.

  The frames of the two kernel programs are one text read at both float instances: each pallas_call as a pipeline region
  (its proof data and its body's obligation at every grid point; the second call's invariant names what its scratch
  buffer holds after each point), and @main's five items run in order with the buffers' contents named at every boundary.
  The reference's frame is its run with the result dropped. The ideal pass rewrote nothing, so `preserves` asks nothing.
-/
import proofs.«176229_j4294967296116_1_alg».proof.Defs
import proofs.«176229_j4294967296116_1_alg».proof.Proof.Gen.Kernel
import proofs.«176229_j4294967296116_1_alg».proof.Proof.Gen.KernelIdeal
import proofs.«176229_j4294967296116_1_alg».proof.Proof.Gen.ReferenceIdeal
import proofs.«176229_j4294967296116_1_alg».proof.Proof.Gen.ReferenceIdeal.Run
import proofs.«176229_j4294967296116_1_alg».proof.Proof.Gen.Pre_finite_inputs
import proofs.«176229_j4294967296116_1_alg».proof.Proof.K.Run
import proofs.«176229_j4294967296116_1_alg».proof.Proof.KI.Run
import proofs.«176229_j4294967296116_1_alg».proof.Proof.Val.Compose
import proofs.«176229_j4294967296116_1_alg».proof.Proof.RefValue
import proofs.«176229_j4294967296116_1_alg».proof.Proof.Finite

noncomputable section

namespace Cert.Proof

open Idealize.ShloMosaic Idealize.ShloMosaic.TcCoe Idealize.SL.Sem Cert.Attn

/-- The word-level kernel runs to the end, faults nowhere and leaves its arguments as launched. -/
theorem frame_kernel : Cert.frame_Kernel := fun m ρ _ => Cert.Kernel.Fr.frame m ρ

/-- The same text at the ideal values. -/
theorem frame_kernelIdeal : Cert.frame_KernelIdeal := fun m ρ _ => Cert.KernelIdeal.Fr.frame m ρ

/-- The reference is eighteen host operations in a line: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On finite arguments both programs end with the result at `G` of the arguments: the precondition makes every
    argument entry a real number, the kernel's three calls and the reference's eighteen operations then compute within
    the reals, and associativity makes the two results one. -/
theorem algebraic : Cert.algebraic_KernelIdeal_ReferenceIdeal := by
  intro m ρ m' ρ' hpre hagree
  have hreal : ∀ c : Dev Cert.KernelIdeal.nD,
      AllReal (m ((c.tc : Thread Cert.KernelIdeal.nD Cert.KernelIdeal.τ).loc Cert.KernelIdeal.main_arg0))
      ∧ AllReal (m ((c.tc : Thread Cert.KernelIdeal.nD Cert.KernelIdeal.τ).loc Cert.KernelIdeal.main_arg1))
      ∧ AllReal (m ((c.tc : Thread Cert.KernelIdeal.nD Cert.KernelIdeal.τ).loc Cert.KernelIdeal.main_arg2))
      ∧ AllReal (m ((c.tc : Thread Cert.KernelIdeal.nD Cert.KernelIdeal.τ).loc Cert.KernelIdeal.main_arg3))
      ∧ AllReal (m ((c.tc : Thread Cert.KernelIdeal.nD Cert.KernelIdeal.τ).loc Cert.KernelIdeal.main_arg4))
      ∧ AllReal (m ((c.tc : Thread Cert.KernelIdeal.nD Cert.KernelIdeal.τ).loc Cert.KernelIdeal.main_arg5))
      ∧ AllReal (m ((c.tc : Thread Cert.KernelIdeal.nD Cert.KernelIdeal.τ).loc Cert.KernelIdeal.main_arg6))
      ∧ AllReal (m ((c.tc : Thread Cert.KernelIdeal.nD Cert.KernelIdeal.τ).loc Cert.KernelIdeal.main_arg7))
      ∧ AllReal (m ((c.tc : Thread Cert.KernelIdeal.nD Cert.KernelIdeal.τ).loc Cert.KernelIdeal.main_arg8)) :=
    fun c => Cert.Finite.args_real _ _ _ _ _ _ _ _ _ (hpre c)
  have hreal' : ∀ c : Dev Cert.ReferenceIdeal.nD,
      AllReal (m' ((c.tc : Thread Cert.ReferenceIdeal.nD Cert.ReferenceIdeal.τ).loc Cert.ReferenceIdeal.main_arg0))
      ∧ AllReal (m' ((c.tc : Thread Cert.ReferenceIdeal.nD Cert.ReferenceIdeal.τ).loc Cert.ReferenceIdeal.main_arg1))
      ∧ AllReal (m' ((c.tc : Thread Cert.ReferenceIdeal.nD Cert.ReferenceIdeal.τ).loc Cert.ReferenceIdeal.main_arg2))
      ∧ AllReal (m' ((c.tc : Thread Cert.ReferenceIdeal.nD Cert.ReferenceIdeal.τ).loc Cert.ReferenceIdeal.main_arg3))
      ∧ AllReal (m' ((c.tc : Thread Cert.ReferenceIdeal.nD Cert.ReferenceIdeal.τ).loc Cert.ReferenceIdeal.main_arg4))
      ∧ AllReal (m' ((c.tc : Thread Cert.ReferenceIdeal.nD Cert.ReferenceIdeal.τ).loc Cert.ReferenceIdeal.main_arg5))
      ∧ AllReal (m' ((c.tc : Thread Cert.ReferenceIdeal.nD Cert.ReferenceIdeal.τ).loc Cert.ReferenceIdeal.main_arg6))
      ∧ AllReal (m' ((c.tc : Thread Cert.ReferenceIdeal.nD Cert.ReferenceIdeal.τ).loc Cert.ReferenceIdeal.main_arg7))
      ∧ AllReal (m' ((c.tc : Thread Cert.ReferenceIdeal.nD Cert.ReferenceIdeal.τ).loc Cert.ReferenceIdeal.main_arg8)) := by
    intro c
    obtain ⟨e0, e1, e2, e3, e4, e5, e6, e7, e8⟩ := hagree c
    rw [e0, e1, e2, e3, e4, e5, e6, e7, e8]
    exact hreal c
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Val.run_G m ρ hreal, ?_⟩
  refine (θ_run Cert.ReferenceIdeal.defs _ _).mono (fun _ h c => ⟨(h c).1.trans ?_, (h c).2⟩)
    (Cert.ReferenceIdeal.RefValue.run_G m' ρ' hreal')
  obtain ⟨e0, e1, e2, e3, e4, e5, e6, e7, e8⟩ := hagree c
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
